-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v151)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v151) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2048 : Shape := ⟨3, ![8, 4096, 2048]⟩
abbrev S8x4x512x2 : Shape := ⟨4, ![8, 4, 512, 2]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S8x4x512x2 : S_.BroadcastsInDim S8x4x512x2 (![] : Fin 0 → Fin S8x4x512x2.rank)
  reducesTo_S8x4x512x2_S_d0_1_2_3 : S8x4x512x2.ReducesTo [0, 1, 2, 3] S_

variable [Facts]

def fn {F : FTy → Type} [FloatOps F] (main_arg0 : FVec F S8x4096x2048 .f32) (main_arg1 : FVec F S8x4x512x2 .f32) : IVec S_ 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  let main_v4 : FVec F S8x4x512x2 .f32 := Host.absf main_arg1
  let main_cst_0 : FVec F S_ .f32 := constant S_ .f32 0x7F800000#32
  let main_v5 : FVec F S8x4x512x2 .f32 := broadcastInDim S8x4x512x2 ![] bcast_S_S8x4x512x2 main_cst_0
  let main_v6 : IVec S8x4x512x2 1 := cmpf .olt main_v4 main_v5
  let main_c_1 : IVec S_ 1 := constantI S_ 1 1#1
  let main_v7 : IVec S_ 1 := (fun x v => Host.reduce IntOp.andi x v reducesTo_S8x4x512x2_S_d0_1_2_3 h_S_) main_v6 main_c_1
  let main_v8 : IVec S_ 1 := andi main_v3 main_v7
  main_v8
-- ==== Kernel.lean ====
abbrev S8x4096x2048 : Shape := ⟨3, ![8, 4096, 2048]⟩
abbrev S8x4x512x2 : Shape := ⟨4, ![8, 4, 512, 2]⟩
abbrev S8x4x512x1 : Shape := ⟨4, ![8, 4, 512, 1]⟩
abbrev S8x4x512 : Shape := ⟨3, ![8, 4, 512]⟩
abbrev S_ : Shape := ⟨0, ![]⟩
abbrev S8 : Shape := ⟨1, ![8]⟩
abbrev S8x1x1 : Shape := ⟨3, ![8, 1, 1]⟩
abbrev S4 : Shape := ⟨1, ![4]⟩
abbrev S1x4x1 : Shape := ⟨3, ![1, 4, 1]⟩
abbrev S512 : Shape := ⟨1, ![512]⟩
abbrev S1x1x512 : Shape := ⟨3, ![1, 1, 512]⟩
abbrev S8x256x4096 : Shape := ⟨3, ![8, 256, 4096]⟩
abbrev S8x4x512x3 : Shape := ⟨4, ![8, 4, 512, 3]⟩
abbrev S8x256x2048 : Shape := ⟨3, ![8, 256, 2048]⟩
abbrev S1x256x1024 : Shape := ⟨3, ![1, 256, 1024]⟩
abbrev S1x1024x2048 : Shape := ⟨3, ![1, 1024, 2048]⟩
abbrev S1x256x2048 : Shape := ⟨3, ![1, 256, 2048]⟩
abbrev S256x2048 : Shape := ⟨2, ![256, 2048]⟩
abbrev S256x1024 : Shape := ⟨2, ![256, 1024]⟩
abbrev S1024x2048 : Shape := ⟨2, ![1024, 2048]⟩
abbrev S8x4x64x2048 : Shape := ⟨4, ![8, 4, 64, 2048]⟩

abbrev nBuf : Space → Nat
  | .hbm => 241
  | .vmem => 7
  | .smem => 0
  | _ => 0

abbrev hbmTy0_0 (i : Nat) : BufTy := match i % 128 with
  | 0 => ⟨S8x4096x2048, .f32⟩
  | 1 => ⟨S8x4x512x2, .f32⟩
  | 2 => ⟨S8x4x512x1, .f32⟩
  | 3 => ⟨S8x4x512, .f32⟩
  | 4 => ⟨S_, .f32⟩
  | 5 => ⟨S8x4x512, .f32⟩
  | 6 => ⟨S8x4x512, .f32⟩
  | 7 => ⟨S8x4x512x1, .f32⟩
  | 8 => ⟨S8x4x512, .f32⟩
  | 9 => ⟨S_, .f32⟩
  | 10 => ⟨S8x4x512, .f32⟩
  | 11 => ⟨S8x4x512, .f32⟩
  | 12 => ⟨S8x4x512, .f32⟩
  | 13 => ⟨S8x4x512, .f32⟩
  | 14 => ⟨S8x4x512, .f32⟩
  | 15 => ⟨S8x4x512, .f32⟩
  | 16 => ⟨S8x4x512, .i32⟩
  | 17 => ⟨S_, .i32⟩
  | 18 => ⟨S_, .i32⟩
  | 19 => ⟨S_, .i32⟩
  | 20 => ⟨S8x4x512, .i32⟩
  | 21 => ⟨S8x4x512, .i32⟩
  | 22 => ⟨S_, .i32⟩
  | 23 => ⟨S8x4x512, .i32⟩
  | 24 => ⟨S8x4x512, .i32⟩
  | 25 => ⟨S8x4x512, .i32⟩
  | 26 => ⟨S_, .i32⟩
  | 27 => ⟨S_, .i32⟩
  | 28 => ⟨S_, .i32⟩
  | 29 => ⟨S8x4x512, .i32⟩
  | 30 => ⟨S8x4x512, .i32⟩
  | 31 => ⟨S_, .i32⟩
  | 32 => ⟨S8x4x512, .i32⟩
  | 33 => ⟨S8x4x512, .i32⟩
  | 34 => ⟨S_, .i32⟩
  | 35 => ⟨S8x4x512, .i32⟩
  | 36 => ⟨S8x4x512, .i32⟩
  | 37 => ⟨S_, .i32⟩
  | 38 => ⟨S_, .i32⟩
  | 39 => ⟨S_, .i32⟩
  | 40 => ⟨S8x4x512, .i32⟩
  | 41 => ⟨S8x4x512, .i32⟩
  | 42 => ⟨S_, .i32⟩
  | 43 => ⟨S8x4x512, .i32⟩
  | 44 => ⟨S8x4x512, .i32⟩
  | 45 => ⟨S_, .i32⟩
  | 46 => ⟨S8x4x512, .i32⟩
  | 47 => ⟨S8x4x512, .i32⟩
  | 48 => ⟨S_, .i32⟩
  | 49 => ⟨S_, .i32⟩
  | 50 => ⟨S_, .i32⟩
  | 51 => ⟨S8x4x512, .i32⟩
  | 52 => ⟨S8x4x512, .i32⟩
  | 53 => ⟨S_, .i32⟩
  | 54 => ⟨S8x4x512, .i32⟩
  | 55 => ⟨S8x4x512, .i32⟩
  | 56 => ⟨S_, .f32⟩
  | 57 => ⟨S8x4x512, .f32⟩
  | 58 => ⟨S8x4x512, .f32⟩
  | 59 => ⟨S_, .f32⟩
  | 60 => ⟨S8x4x512, .f32⟩
  | 61 => ⟨S8x4x512, .f32⟩
  | 62 => ⟨S8x4x512, .f32⟩
  | 63 => ⟨S_, .f32⟩
  | 64 => ⟨S8x4x512, .f32⟩
  | 65 => ⟨S8x4x512, .f32⟩
  | 66 => ⟨S_, .f32⟩
  | 67 => ⟨S8x4x512, .f32⟩
  | 68 => ⟨S8x4x512, .f32⟩
  | 69 => ⟨S8x4x512, .f32⟩
  | 70 => ⟨S_, .f32⟩
  | 71 => ⟨S8x4x512, .f32⟩
  | 72 => ⟨S8x4x512, .f32⟩
  | 73 => ⟨S_, .f32⟩
  | 74 => ⟨S8x4x512, .f32⟩
  | 75 => ⟨S8x4x512, .f32⟩
  | 76 => ⟨S8x4x512, .f32⟩
  | 77 => ⟨S_, .f32⟩
  | 78 => ⟨S8x4x512, .f32⟩
  | 79 => ⟨S8x4x512, .f32⟩
  | 80 => ⟨S8x4x512, .f32⟩
  | 81 => ⟨S_, .f32⟩
  | 82 => ⟨S8x4x512, .f32⟩
  | 83 => ⟨S8x4x512, .f32⟩
  | 84 => ⟨S_, .i32⟩
  | 85 => ⟨S8x4x512, .i32⟩
  | 86 => ⟨S8x4x512, .i32⟩
  | 87 => ⟨S8x4x512, .i32⟩
  | 88 => ⟨S_, .i32⟩
  | 89 => ⟨S8x4x512, .i32⟩
  | 90 => ⟨S8x4x512, .i32⟩
  | 91 => ⟨S8x4x512, .i32⟩
  | 92 => ⟨S_, .i32⟩
  | 93 => ⟨S8x4x512, .i32⟩
  | 94 => ⟨S8x4x512, .i32⟩
  | 95 => ⟨S8x4x512, .i32⟩
  | 96 => ⟨S_, .i32⟩
  | 97 => ⟨S8x4x512, .i32⟩
  | 98 => ⟨S8x4x512, .i32⟩
  | 99 => ⟨S8x4x512, .i32⟩
  | 100 => ⟨S8, .i32⟩
  | 101 => ⟨S8x1x1, .i32⟩
  | 102 => ⟨S8x4x512, .i32⟩
  | 103 => ⟨S4, .i32⟩
  | 104 => ⟨S1x4x1, .i32⟩
  | 105 => ⟨S8x4x512, .i32⟩
  | 106 => ⟨S512, .i32⟩
  | 107 => ⟨S_, .i32⟩
  | 108 => ⟨S_, .i32⟩
  | 109 => ⟨S512, .i32⟩
  | 110 => ⟨S512, .i32⟩
  | 111 => ⟨S512, .i32⟩
  | 112 => ⟨S_, .i32⟩
  | 113 => ⟨S512, .i32⟩
  | 114 => ⟨S512, .i1⟩
  | 115 => ⟨S512, .i32⟩
  | 116 => ⟨S512, .i32⟩
  | 117 => ⟨S_, .i32⟩
  | 118 => ⟨S512, .i32⟩
  | 119 => ⟨S512, .i1⟩
  | 120 => ⟨S512, .i1⟩
  | 121 => ⟨S_, .i32⟩
  | 122 => ⟨S512, .i32⟩
  | 123 => ⟨S512, .i32⟩
  | 124 => ⟨S512, .i32⟩
  | 125 => ⟨S1x1x512, .i32⟩
  | 126 => ⟨S8x4x512, .i32⟩
  | 127 => ⟨S_, .i32⟩
  | _ => ⟨S8x4096x2048, .f32⟩

abbrev hbmTy0_1 (i : Nat) : BufTy := match i % 128 with
  | 0 => ⟨S8x4x512, .i32⟩
  | 1 => ⟨S8x4x512, .i32⟩
  | 2 => ⟨S8x4x512, .i32⟩
  | 3 => ⟨S_, .f32⟩
  | 4 => ⟨S8x256x4096, .f32⟩
  | 5 => ⟨S_, .i32⟩
  | 6 => ⟨S8x4x512, .i32⟩
  | 7 => ⟨S8x4x512, .i1⟩
  | 8 => ⟨S_, .i32⟩
  | 9 => ⟨S8x4x512, .i32⟩
  | 10 => ⟨S8x4x512, .i32⟩
  | 11 => ⟨S8x4x512, .i32⟩
  | 12 => ⟨S_, .i32⟩
  | 13 => ⟨S8x4x512, .i32⟩
  | 14 => ⟨S8x4x512, .i1⟩
  | 15 => ⟨S_, .i32⟩
  | 16 => ⟨S8x4x512, .i32⟩
  | 17 => ⟨S8x4x512, .i32⟩
  | 18 => ⟨S8x4x512, .i32⟩
  | 19 => ⟨S_, .i32⟩
  | 20 => ⟨S8x4x512, .i32⟩
  | 21 => ⟨S8x4x512, .i1⟩
  | 22 => ⟨S_, .i32⟩
  | 23 => ⟨S8x4x512, .i32⟩
  | 24 => ⟨S8x4x512, .i32⟩
  | 25 => ⟨S8x4x512, .i32⟩
  | 26 => ⟨S8x4x512x1, .i32⟩
  | 27 => ⟨S8x4x512x1, .i32⟩
  | 28 => ⟨S8x4x512x1, .i32⟩
  | 29 => ⟨S8x4x512x3, .i32⟩
  | 30 => ⟨S8x256x4096, .f32⟩
  | 31 => ⟨S_, .i32⟩
  | 32 => ⟨S8x4x512, .i32⟩
  | 33 => ⟨S8x4x512, .i1⟩
  | 34 => ⟨S_, .i32⟩
  | 35 => ⟨S8x4x512, .i32⟩
  | 36 => ⟨S8x4x512, .i32⟩
  | 37 => ⟨S8x4x512, .i32⟩
  | 38 => ⟨S_, .i32⟩
  | 39 => ⟨S8x4x512, .i32⟩
  | 40 => ⟨S8x4x512, .i1⟩
  | 41 => ⟨S_, .i32⟩
  | 42 => ⟨S8x4x512, .i32⟩
  | 43 => ⟨S8x4x512, .i32⟩
  | 44 => ⟨S8x4x512, .i32⟩
  | 45 => ⟨S_, .i32⟩
  | 46 => ⟨S8x4x512, .i32⟩
  | 47 => ⟨S8x4x512, .i1⟩
  | 48 => ⟨S_, .i32⟩
  | 49 => ⟨S8x4x512, .i32⟩
  | 50 => ⟨S8x4x512, .i32⟩
  | 51 => ⟨S8x4x512, .i32⟩
  | 52 => ⟨S8x4x512x1, .i32⟩
  | 53 => ⟨S8x4x512x1, .i32⟩
  | 54 => ⟨S8x4x512x1, .i32⟩
  | 55 => ⟨S8x4x512x3, .i32⟩
  | 56 => ⟨S8x256x4096, .f32⟩
  | 57 => ⟨S_, .i32⟩
  | 58 => ⟨S8x4x512, .i32⟩
  | 59 => ⟨S8x4x512, .i1⟩
  | 60 => ⟨S_, .i32⟩
  | 61 => ⟨S8x4x512, .i32⟩
  | 62 => ⟨S8x4x512, .i32⟩
  | 63 => ⟨S8x4x512, .i32⟩
  | 64 => ⟨S_, .i32⟩
  | 65 => ⟨S8x4x512, .i32⟩
  | 66 => ⟨S8x4x512, .i1⟩
  | 67 => ⟨S_, .i32⟩
  | 68 => ⟨S8x4x512, .i32⟩
  | 69 => ⟨S8x4x512, .i32⟩
  | 70 => ⟨S8x4x512, .i32⟩
  | 71 => ⟨S_, .i32⟩
  | 72 => ⟨S8x4x512, .i32⟩
  | 73 => ⟨S8x4x512, .i1⟩
  | 74 => ⟨S_, .i32⟩
  | 75 => ⟨S8x4x512, .i32⟩
  | 76 => ⟨S8x4x512, .i32⟩
  | 77 => ⟨S8x4x512, .i32⟩
  | 78 => ⟨S8x4x512x1, .i32⟩
  | 79 => ⟨S8x4x512x1, .i32⟩
  | 80 => ⟨S8x4x512x1, .i32⟩
  | 81 => ⟨S8x4x512x3, .i32⟩
  | 82 => ⟨S8x256x4096, .f32⟩
  | 83 => ⟨S_, .i32⟩
  | 84 => ⟨S8x4x512, .i32⟩
  | 85 => ⟨S8x4x512, .i1⟩
  | 86 => ⟨S_, .i32⟩
  | 87 => ⟨S8x4x512, .i32⟩
  | 88 => ⟨S8x4x512, .i32⟩
  | 89 => ⟨S8x4x512, .i32⟩
  | 90 => ⟨S_, .i32⟩
  | 91 => ⟨S8x4x512, .i32⟩
  | 92 => ⟨S8x4x512, .i1⟩
  | 93 => ⟨S_, .i32⟩
  | 94 => ⟨S8x4x512, .i32⟩
  | 95 => ⟨S8x4x512, .i32⟩
  | 96 => ⟨S8x4x512, .i32⟩
  | 97 => ⟨S_, .i32⟩
  | 98 => ⟨S8x4x512, .i32⟩
  | 99 => ⟨S8x4x512, .i1⟩
  | 100 => ⟨S_, .i32⟩
  | 101 => ⟨S8x4x512, .i32⟩
  | 102 => ⟨S8x4x512, .i32⟩
  | 103 => ⟨S8x4x512, .i32⟩
  | 104 => ⟨S8x4x512x1, .i32⟩
  | 105 => ⟨S8x4x512x1, .i32⟩
  | 106 => ⟨S8x4x512x1, .i32⟩
  | 107 => ⟨S8x4x512x3, .i32⟩
  | 108 => ⟨S8x256x4096, .f32⟩
  | 109 => ⟨S8x256x4096, .bf16⟩
  | 110 => ⟨S8x4096x2048, .bf16⟩
  | 111 => ⟨S8x256x2048, .f32⟩
  | 112 => ⟨S8x4x64x2048, .f32⟩
  | _ => ⟨S8x4096x2048, .f32⟩

abbrev hbmTy (i : Nat) : BufTy := match i / 128 with
  | 0 => hbmTy0_0 i
  | 1 => hbmTy0_1 i
  | _ => ⟨S8x4096x2048, .f32⟩

abbrev bufTy : (tb : Table) → Fin (tcTables nBuf tb) → BufTy
  | .hbm, ⟨i, _⟩ => hbmTy i
  | .local _ .vmem, ⟨0, _⟩ => ⟨S1x256x1024, .bf16⟩
  | .local _ .vmem, ⟨1, _⟩ => ⟨S1x256x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x256x2048, .f32⟩
  | .local _ .vmem, ⟨5, _⟩ => ⟨S1x256x2048, .f32⟩
  | .local _ .vmem, ⟨6, _⟩ => ⟨S256x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_c_3 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_c_5 : Ref sig .tc := ⟨.hbm, 37, rfl⟩
abbrev main_c_6 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_v18 : Ref sig .tc := ⟨.hbm, 44, rfl⟩
abbrev main_c_7 : Ref sig .tc := ⟨.hbm, 45, rfl⟩
abbrev main_v19 : Ref sig .tc := ⟨.hbm, 46, rfl⟩
abbrev main_v20 : Ref sig .tc := ⟨.hbm, 47, rfl⟩
abbrev main_c_8 : Ref sig .tc := ⟨.hbm, 48, rfl⟩
abbrev main_c_9 : Ref sig .tc := ⟨.hbm, 49, rfl⟩
abbrev main_call3_v0 : Ref sig .tc := ⟨.hbm, 50, rfl⟩
abbrev main_call3_v1 : Ref sig .tc := ⟨.hbm, 51, rfl⟩
abbrev main_call3_v2 : Ref sig .tc := ⟨.hbm, 52, rfl⟩
abbrev main_call3_v3 : Ref sig .tc := ⟨.hbm, 53, rfl⟩
abbrev main_call3_v4 : Ref sig .tc := ⟨.hbm, 54, rfl⟩
abbrev main_v21 : Ref sig .tc := ⟨.hbm, 55, rfl⟩
abbrev main_cst_10 : Ref sig .tc := ⟨.hbm, 56, rfl⟩
abbrev main_v22 : Ref sig .tc := ⟨.hbm, 57, rfl⟩
abbrev main_v23 : Ref sig .tc := ⟨.hbm, 58, rfl⟩
abbrev main_cst_11 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_cst_12 : Ref sig .tc := ⟨.hbm, 63, rfl⟩
abbrev main_v27 : Ref sig .tc := ⟨.hbm, 64, rfl⟩
abbrev main_v28 : Ref sig .tc := ⟨.hbm, 65, rfl⟩
abbrev main_cst_13 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_cst_14 : Ref sig .tc := ⟨.hbm, 70, rfl⟩
abbrev main_v32 : Ref sig .tc := ⟨.hbm, 71, rfl⟩
abbrev main_v33 : Ref sig .tc := ⟨.hbm, 72, rfl⟩
abbrev main_cst_15 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_cst_16 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_cst_17 : Ref sig .tc := ⟨.hbm, 81, rfl⟩
abbrev main_v40 : Ref sig .tc := ⟨.hbm, 82, rfl⟩
abbrev main_v41 : Ref sig .tc := ⟨.hbm, 83, rfl⟩
abbrev main_c_18 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_c_19 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_c_20 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_c_21 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_c_22 : Ref sig .tc := ⟨.hbm, 107, rfl⟩
abbrev main_call4_v0 : Ref sig .tc := ⟨.hbm, 108, rfl⟩
abbrev main_call4_v1 : Ref sig .tc := ⟨.hbm, 109, rfl⟩
abbrev main_call4_v2 : Ref sig .tc := ⟨.hbm, 110, rfl⟩
abbrev main_call4_v3 : Ref sig .tc := ⟨.hbm, 111, rfl⟩
abbrev main_call4_v4 : Ref sig .tc := ⟨.hbm, 112, rfl⟩
abbrev main_call4_v5 : Ref sig .tc := ⟨.hbm, 113, rfl⟩
abbrev main_call4_v6 : Ref sig .tc := ⟨.hbm, 114, rfl⟩
abbrev main_call4_v7 : Ref sig .tc := ⟨.hbm, 115, rfl⟩
abbrev main_call4_v8 : Ref sig .tc := ⟨.hbm, 116, rfl⟩
abbrev main_call4_c : Ref sig .tc := ⟨.hbm, 117, rfl⟩
abbrev main_call4_v9 : Ref sig .tc := ⟨.hbm, 118, rfl⟩
abbrev main_call4_v10 : Ref sig .tc := ⟨.hbm, 119, rfl⟩
abbrev main_call4_v11 : Ref sig .tc := ⟨.hbm, 120, rfl⟩
abbrev main_call4_c_0 : Ref sig .tc := ⟨.hbm, 121, rfl⟩
abbrev main_call4_v12 : Ref sig .tc := ⟨.hbm, 122, rfl⟩
abbrev main_call4_v13 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_c_23 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_cst_24 : Ref sig .tc := ⟨.hbm, 131, rfl⟩
abbrev main_v67 : Ref sig .tc := ⟨.hbm, 132, rfl⟩
abbrev main_c_25 : Ref sig .tc := ⟨.hbm, 133, rfl⟩
abbrev main_v68 : Ref sig .tc := ⟨.hbm, 134, rfl⟩
abbrev main_v69 : Ref sig .tc := ⟨.hbm, 135, rfl⟩
abbrev main_c_26 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_c_27 : Ref sig .tc := ⟨.hbm, 140, rfl⟩
abbrev main_v73 : Ref sig .tc := ⟨.hbm, 141, rfl⟩
abbrev main_v74 : Ref sig .tc := ⟨.hbm, 142, rfl⟩
abbrev main_c_28 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_c_29 : Ref sig .tc := ⟨.hbm, 147, rfl⟩
abbrev main_v78 : Ref sig .tc := ⟨.hbm, 148, rfl⟩
abbrev main_v79 : Ref sig .tc := ⟨.hbm, 149, rfl⟩
abbrev main_c_30 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_c_31 : Ref sig .tc := ⟨.hbm, 159, rfl⟩
abbrev main_v88 : Ref sig .tc := ⟨.hbm, 160, rfl⟩
abbrev main_v89 : Ref sig .tc := ⟨.hbm, 161, rfl⟩
abbrev main_c_32 : Ref sig .tc := ⟨.hbm, 162, rfl⟩
abbrev main_v90 : Ref sig .tc := ⟨.hbm, 163, rfl⟩
abbrev main_v91 : Ref sig .tc := ⟨.hbm, 164, rfl⟩
abbrev main_v92 : Ref sig .tc := ⟨.hbm, 165, rfl⟩
abbrev main_c_33 : Ref sig .tc := ⟨.hbm, 166, rfl⟩
abbrev main_v93 : Ref sig .tc := ⟨.hbm, 167, rfl⟩
abbrev main_v94 : Ref sig .tc := ⟨.hbm, 168, rfl⟩
abbrev main_c_34 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_c_35 : Ref sig .tc := ⟨.hbm, 173, rfl⟩
abbrev main_v98 : Ref sig .tc := ⟨.hbm, 174, rfl⟩
abbrev main_v99 : Ref sig .tc := ⟨.hbm, 175, rfl⟩
abbrev main_c_36 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_v107 : Ref sig .tc := ⟨.hbm, 184, rfl⟩
abbrev main_c_37 : Ref sig .tc := ⟨.hbm, 185, rfl⟩
abbrev main_v108 : Ref sig .tc := ⟨.hbm, 186, rfl⟩
abbrev main_v109 : Ref sig .tc := ⟨.hbm, 187, rfl⟩
abbrev main_c_38 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_c_39 : Ref sig .tc := ⟨.hbm, 192, rfl⟩
abbrev main_v113 : Ref sig .tc := ⟨.hbm, 193, rfl⟩
abbrev main_v114 : Ref sig .tc := ⟨.hbm, 194, rfl⟩
abbrev main_c_40 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_c_41 : Ref sig .tc := ⟨.hbm, 199, rfl⟩
abbrev main_v118 : Ref sig .tc := ⟨.hbm, 200, rfl⟩
abbrev main_v119 : Ref sig .tc := ⟨.hbm, 201, rfl⟩
abbrev main_c_42 : Ref sig .tc := ⟨.hbm, 202, rfl⟩
abbrev main_v120 : Ref sig .tc := ⟨.hbm, 203, rfl⟩
abbrev main_v121 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_v125 : Ref sig .tc := ⟨.hbm, 208, rfl⟩
abbrev main_v126 : Ref sig .tc := ⟨.hbm, 209, rfl⟩
abbrev main_v127 : Ref sig .tc := ⟨.hbm, 210, rfl⟩
abbrev main_c_43 : Ref sig .tc := ⟨.hbm, 211, rfl⟩
abbrev main_v128 : Ref sig .tc := ⟨.hbm, 212, rfl⟩
abbrev main_v129 : Ref sig .tc := ⟨.hbm, 213, rfl⟩
abbrev main_c_44 : Ref sig .tc := ⟨.hbm, 214, rfl⟩
abbrev main_v130 : Ref sig .tc := ⟨.hbm, 215, rfl⟩
abbrev main_v131 : Ref sig .tc := ⟨.hbm, 216, rfl⟩
abbrev main_v132 : Ref sig .tc := ⟨.hbm, 217, rfl⟩
abbrev main_c_45 : Ref sig .tc := ⟨.hbm, 218, rfl⟩
abbrev main_v133 : Ref sig .tc := ⟨.hbm, 219, rfl⟩
abbrev main_v134 : Ref sig .tc := ⟨.hbm, 220, rfl⟩
abbrev main_c_46 : Ref sig .tc := ⟨.hbm, 221, rfl⟩
abbrev main_v135 : Ref sig .tc := ⟨.hbm, 222, rfl⟩
abbrev main_v136 : Ref sig .tc := ⟨.hbm, 223, rfl⟩
abbrev main_v137 : Ref sig .tc := ⟨.hbm, 224, rfl⟩
abbrev main_c_47 : Ref sig .tc := ⟨.hbm, 225, rfl⟩
abbrev main_v138 : Ref sig .tc := ⟨.hbm, 226, rfl⟩
abbrev main_v139 : Ref sig .tc := ⟨.hbm, 227, rfl⟩
abbrev main_c_48 : Ref sig .tc := ⟨.hbm, 228, rfl⟩
abbrev main_v140 : Ref sig .tc := ⟨.hbm, 229, rfl⟩
abbrev main_v141 : Ref sig .tc := ⟨.hbm, 230, rfl⟩
abbrev main_v142 : Ref sig .tc := ⟨.hbm, 231, rfl⟩
abbrev main_v143 : Ref sig .tc := ⟨.hbm, 232, rfl⟩
abbrev main_v144 : Ref sig .tc := ⟨.hbm, 233, rfl⟩
abbrev main_v145 : Ref sig .tc := ⟨.hbm, 234, rfl⟩
abbrev main_v146 : Ref sig .tc := ⟨.hbm, 235, rfl⟩
abbrev main_v147 : Ref sig .tc := ⟨.hbm, 236, rfl⟩
abbrev main_v148 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  slices_S8x4x512x2_S8x4x512x1_0_0_0_0 : S8x4x512x2.Slices ![0, 0, 0, 0] S8x4x512x1
  shapeCasts_S8x4x512x1_S8x4x512 : S8x4x512x1.ShapeCasts S8x4x512
  bcast_S_S8x4x512 : S_.BroadcastsInDim S8x4x512 (![] : Fin 0 → Fin S8x4x512.rank)
  slices_S8x4x512x2_S8x4x512x1_0_0_0_1 : S8x4x512x2.Slices ![0, 0, 0, 1] S8x4x512x1
  bcast_S8_S8x1x1_0 : S8.BroadcastsInDim S8x1x1 (![0] : Fin 1 → Fin S8x1x1.rank)
  bcast_S8x1x1_S8x4x512_0_1_2 : S8x1x1.BroadcastsInDim S8x4x512 (![0, 1, 2] : Fin 3 → Fin S8x4x512.rank)
  bcast_S4_S1x4x1_1 : S4.BroadcastsInDim S1x4x1 (![1] : Fin 1 → Fin S1x4x1.rank)
  bcast_S1x4x1_S8x4x512_0_1_2 : S1x4x1.BroadcastsInDim S8x4x512 (![0, 1, 2] : Fin 3 → Fin S8x4x512.rank)
  bcast_S_S512 : S_.BroadcastsInDim S512 (![] : Fin 0 → Fin S512.rank)
  bcast_S512_S1x1x512_2 : S512.BroadcastsInDim S1x1x512 (![2] : Fin 1 → Fin S1x1x512.rank)
  bcast_S1x1x512_S8x4x512_0_1_2 : S1x1x512.BroadcastsInDim S8x4x512 (![0, 1, 2] : Fin 3 → Fin S8x4x512.rank)
  bcast_S_S8x256x4096 : S_.BroadcastsInDim S8x256x4096 (![] : Fin 0 → Fin S8x256x4096.rank)
  bcast_S8x4x512_S8x4x512x1_0_1_2 : S8x4x512.BroadcastsInDim S8x4x512x1 (![0, 1, 2] : Fin 3 → Fin S8x4x512x1.rank)
  concatenates_S8x4x512x1_S8x4x512x1_S8x4x512x1_S8x4x512x3_d3 : Shape.Concatenates [S8x4x512x1, S8x4x512x1, S8x4x512x1] S8x4x512x3 3
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  shapeCasts_S8x256x2048_S8x4x64x2048 : S8x256x2048.ShapeCasts S8x4x64x2048
  scatter_S8x256x4096_S8x4x512x3_S8x4x512_n_012_012_3_wf : ScatterDims.WF S8x256x4096 S8x4x512x3 S8x4x512 [] [0, 1, 2] [0, 1, 2] 3
  dot_S256x1024_S1024x2048_S256x2048_1_0_0_1_n_n_wf : DotDims.WF S256x1024 S1024x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x256x4096.size a
  hwx0_0 : ∀ i : grid0.Coords, EltTy.bits .bf16 = 32 ∨ (Rect.block (s := S8x256x4096) S1x256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S8x4096x2048.size a
  hwx0_1 : ∀ i : grid0.Coords, EltTy.bits .bf16 = 32 ∨ (Rect.block (s := S8x4096x2048) S1x1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x2048.size a ≤ S8x256x2048.size a
  hwx0_2 : ∀ i : grid0.Coords, EltTy.bits .f32 = 32 ∨ (Rect.block (s := S8x256x2048) S1x256x2048.size (cc0_transform_2 i) (hinb0_2 i)).WholeWords (EltTy.packing .f32)

variable [Facts₀]

def scatter_S8x256x4096_S8x4x512x3_S8x4x512_n_012_012_3 : ScatterDims S8x256x4096 S8x4x512x3 S8x4x512 where
  updateWindowDims := []
  insertedWindowDims := [0, 1, 2]
  scatterDimsToOperandDims := [0, 1, 2]
  indexVectorDim := 3
  wf := scatter_S8x256x4096_S8x4x512x3_S8x4x512_n_012_012_3_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf

abbrev win0_0 : Pipeline.Window sig grid0 :=
  Pipeline.Window.ofSpec (Memref.whole main_v148) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v149) S1x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v150) S1x256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x4096x2048 : Shape := ⟨3, ![8, 4096, 2048]⟩
abbrev S8x4x512x2 : Shape := ⟨4, ![8, 4, 512, 2]⟩
abbrev S8x64x64x2048 : Shape := ⟨4, ![8, 64, 64, 2048]⟩
abbrev S8x4x512x1 : Shape := ⟨4, ![8, 4, 512, 1]⟩
abbrev S8x4x512 : Shape := ⟨3, ![8, 4, 512]⟩
abbrev S_ : Shape := ⟨0, ![]⟩
abbrev S8x2048 : Shape := ⟨2, ![8, 2048]⟩
abbrev S8x2048x1 : Shape := ⟨3, ![8, 2048, 1]⟩
abbrev S1 : Shape := ⟨1, ![1]⟩
abbrev S1x1x1 : Shape := ⟨3, ![1, 1, 1]⟩
abbrev S8x2048x2048 : Shape := ⟨3, ![8, 2048, 2048]⟩
abbrev S8x4x512x2048 : Shape := ⟨4, ![8, 4, 512, 2048]⟩
abbrev S8x4x64x8x2048 : Shape := ⟨5, ![8, 4, 64, 8, 2048]⟩
abbrev S8x4x64x2048 : Shape := ⟨4, ![8, 4, 64, 2048]⟩

abbrev nBuf : Space → Nat
  | .hbm => 206
  | .vmem => 0
  | .smem => 0
  | _ => 0

abbrev hbmTy0_0 (i : Nat) : BufTy := match i % 128 with
  | 0 => ⟨S8x4096x2048, .f32⟩
  | 1 => ⟨S8x4x512x2, .f32⟩
  | 2 => ⟨S8x64x64x2048, .f32⟩
  | 3 => ⟨S8x4x512x1, .f32⟩
  | 4 => ⟨S8x4x512, .f32⟩
  | 5 => ⟨S_, .f32⟩
  | 6 => ⟨S8x4x512, .f32⟩
  | 7 => ⟨S8x4x512, .f32⟩
  | 8 => ⟨S8x4x512x1, .f32⟩
  | 9 => ⟨S8x4x512, .f32⟩
  | 10 => ⟨S_, .f32⟩
  | 11 => ⟨S8x4x512, .f32⟩
  | 12 => ⟨S8x4x512, .f32⟩
  | 13 => ⟨S8x4x512, .f32⟩
  | 14 => ⟨S8x4x512, .f32⟩
  | 15 => ⟨S8x4x512, .f32⟩
  | 16 => ⟨S8x4x512x1, .f32⟩
  | 17 => ⟨S8x4x512, .f32⟩
  | 18 => ⟨S8x4x512x1, .f32⟩
  | 19 => ⟨S8x4x512, .i32⟩
  | 20 => ⟨S_, .i32⟩
  | 21 => ⟨S_, .i32⟩
  | 22 => ⟨S_, .i32⟩
  | 23 => ⟨S8x4x512, .i32⟩
  | 24 => ⟨S8x4x512, .i32⟩
  | 25 => ⟨S_, .i32⟩
  | 26 => ⟨S8x4x512, .i32⟩
  | 27 => ⟨S8x4x512, .i32⟩
  | 28 => ⟨S8x4x512, .i32⟩
  | 29 => ⟨S_, .i32⟩
  | 30 => ⟨S_, .i32⟩
  | 31 => ⟨S_, .i32⟩
  | 32 => ⟨S8x4x512, .i32⟩
  | 33 => ⟨S8x4x512, .i32⟩
  | 34 => ⟨S_, .i32⟩
  | 35 => ⟨S8x4x512, .i32⟩
  | 36 => ⟨S8x4x512, .i32⟩
  | 37 => ⟨S_, .i32⟩
  | 38 => ⟨S8x4x512, .i32⟩
  | 39 => ⟨S8x4x512, .i32⟩
  | 40 => ⟨S_, .i32⟩
  | 41 => ⟨S_, .i32⟩
  | 42 => ⟨S_, .i32⟩
  | 43 => ⟨S8x4x512, .i32⟩
  | 44 => ⟨S8x4x512, .i32⟩
  | 45 => ⟨S_, .i32⟩
  | 46 => ⟨S8x4x512, .i32⟩
  | 47 => ⟨S8x4x512, .i32⟩
  | 48 => ⟨S_, .i32⟩
  | 49 => ⟨S8x4x512, .i32⟩
  | 50 => ⟨S8x4x512, .i32⟩
  | 51 => ⟨S_, .i32⟩
  | 52 => ⟨S_, .i32⟩
  | 53 => ⟨S_, .i32⟩
  | 54 => ⟨S8x4x512, .i32⟩
  | 55 => ⟨S8x4x512, .i32⟩
  | 56 => ⟨S_, .i32⟩
  | 57 => ⟨S8x4x512, .i32⟩
  | 58 => ⟨S8x4x512, .i32⟩
  | 59 => ⟨S8x4096x2048, .f32⟩
  | 60 => ⟨S_, .i32⟩
  | 61 => ⟨S8x4x512, .i32⟩
  | 62 => ⟨S8x4x512, .i32⟩
  | 63 => ⟨S8x4x512, .i32⟩
  | 64 => ⟨S8x2048, .i32⟩
  | 65 => ⟨S8x2048x1, .i32⟩
  | 66 => ⟨S_, .i32⟩
  | 67 => ⟨S8x2048x1, .i32⟩
  | 68 => ⟨S8x2048x1, .i1⟩
  | 69 => ⟨S_, .i32⟩
  | 70 => ⟨S8x2048x1, .i32⟩
  | 71 => ⟨S8x2048x1, .i32⟩
  | 72 => ⟨S8x2048x1, .i32⟩
  | 73 => ⟨S1, .i32⟩
  | 74 => ⟨S_, .i32⟩
  | 75 => ⟨S8x2048x1, .i32⟩
  | 76 => ⟨S8x2048x1, .i1⟩
  | 77 => ⟨S1x1x1, .i32⟩
  | 78 => ⟨S8x2048x1, .i32⟩
  | 79 => ⟨S8x2048x1, .i1⟩
  | 80 => ⟨S8x2048x1, .i1⟩
  | 81 => ⟨S_, .i1⟩
  | 82 => ⟨S8x2048, .i1⟩
  | 83 => ⟨S8x2048x2048, .f32⟩
  | 84 => ⟨S8x2048x2048, .i1⟩
  | 85 => ⟨S_, .f32⟩
  | 86 => ⟨S8x2048x2048, .f32⟩
  | 87 => ⟨S8x2048x2048, .f32⟩
  | 88 => ⟨S8x4x512x2048, .f32⟩
  | 89 => ⟨S_, .i32⟩
  | 90 => ⟨S8x4x512, .i32⟩
  | 91 => ⟨S8x4x512, .i32⟩
  | 92 => ⟨S8x4x512, .i32⟩
  | 93 => ⟨S8x2048, .i32⟩
  | 94 => ⟨S8x2048x1, .i32⟩
  | 95 => ⟨S_, .i32⟩
  | 96 => ⟨S8x2048x1, .i32⟩
  | 97 => ⟨S8x2048x1, .i1⟩
  | 98 => ⟨S_, .i32⟩
  | 99 => ⟨S8x2048x1, .i32⟩
  | 100 => ⟨S8x2048x1, .i32⟩
  | 101 => ⟨S8x2048x1, .i32⟩
  | 102 => ⟨S1, .i32⟩
  | 103 => ⟨S_, .i32⟩
  | 104 => ⟨S8x2048x1, .i32⟩
  | 105 => ⟨S8x2048x1, .i1⟩
  | 106 => ⟨S1x1x1, .i32⟩
  | 107 => ⟨S8x2048x1, .i32⟩
  | 108 => ⟨S8x2048x1, .i1⟩
  | 109 => ⟨S8x2048x1, .i1⟩
  | 110 => ⟨S_, .i1⟩
  | 111 => ⟨S8x2048, .i1⟩
  | 112 => ⟨S8x2048x2048, .f32⟩
  | 113 => ⟨S8x2048x2048, .i1⟩
  | 114 => ⟨S_, .f32⟩
  | 115 => ⟨S8x2048x2048, .f32⟩
  | 116 => ⟨S8x2048x2048, .f32⟩
  | 117 => ⟨S8x4x512x2048, .f32⟩
  | 118 => ⟨S_, .i32⟩
  | 119 => ⟨S8x4x512, .i32⟩
  | 120 => ⟨S8x4x512, .i32⟩
  | 121 => ⟨S8x4x512, .i32⟩
  | 122 => ⟨S8x2048, .i32⟩
  | 123 => ⟨S8x2048x1, .i32⟩
  | 124 => ⟨S_, .i32⟩
  | 125 => ⟨S8x2048x1, .i32⟩
  | 126 => ⟨S8x2048x1, .i1⟩
  | 127 => ⟨S_, .i32⟩
  | _ => ⟨S8x4096x2048, .f32⟩

abbrev hbmTy0_1 (i : Nat) : BufTy := match i % 128 with
  | 0 => ⟨S8x2048x1, .i32⟩
  | 1 => ⟨S8x2048x1, .i32⟩
  | 2 => ⟨S8x2048x1, .i32⟩
  | 3 => ⟨S1, .i32⟩
  | 4 => ⟨S_, .i32⟩
  | 5 => ⟨S8x2048x1, .i32⟩
  | 6 => ⟨S8x2048x1, .i1⟩
  | 7 => ⟨S1x1x1, .i32⟩
  | 8 => ⟨S8x2048x1, .i32⟩
  | 9 => ⟨S8x2048x1, .i1⟩
  | 10 => ⟨S8x2048x1, .i1⟩
  | 11 => ⟨S_, .i1⟩
  | 12 => ⟨S8x2048, .i1⟩
  | 13 => ⟨S8x2048x2048, .f32⟩
  | 14 => ⟨S8x2048x2048, .i1⟩
  | 15 => ⟨S_, .f32⟩
  | 16 => ⟨S8x2048x2048, .f32⟩
  | 17 => ⟨S8x2048x2048, .f32⟩
  | 18 => ⟨S8x4x512x2048, .f32⟩
  | 19 => ⟨S_, .i32⟩
  | 20 => ⟨S8x4x512, .i32⟩
  | 21 => ⟨S8x4x512, .i32⟩
  | 22 => ⟨S8x4x512, .i32⟩
  | 23 => ⟨S8x2048, .i32⟩
  | 24 => ⟨S8x2048x1, .i32⟩
  | 25 => ⟨S_, .i32⟩
  | 26 => ⟨S8x2048x1, .i32⟩
  | 27 => ⟨S8x2048x1, .i1⟩
  | 28 => ⟨S_, .i32⟩
  | 29 => ⟨S8x2048x1, .i32⟩
  | 30 => ⟨S8x2048x1, .i32⟩
  | 31 => ⟨S8x2048x1, .i32⟩
  | 32 => ⟨S1, .i32⟩
  | 33 => ⟨S_, .i32⟩
  | 34 => ⟨S8x2048x1, .i32⟩
  | 35 => ⟨S8x2048x1, .i1⟩
  | 36 => ⟨S1x1x1, .i32⟩
  | 37 => ⟨S8x2048x1, .i32⟩
  | 38 => ⟨S8x2048x1, .i1⟩
  | 39 => ⟨S8x2048x1, .i1⟩
  | 40 => ⟨S_, .i1⟩
  | 41 => ⟨S8x2048, .i1⟩
  | 42 => ⟨S8x2048x2048, .f32⟩
  | 43 => ⟨S8x2048x2048, .i1⟩
  | 44 => ⟨S_, .f32⟩
  | 45 => ⟨S8x2048x2048, .f32⟩
  | 46 => ⟨S8x2048x2048, .f32⟩
  | 47 => ⟨S8x4x512x2048, .f32⟩
  | 48 => ⟨S_, .f32⟩
  | 49 => ⟨S8x4x512x1, .f32⟩
  | 50 => ⟨S8x4x512x1, .f32⟩
  | 51 => ⟨S8x4x512x2048, .f32⟩
  | 52 => ⟨S8x4x512x2048, .f32⟩
  | 53 => ⟨S8x4x512x2048, .f32⟩
  | 54 => ⟨S8x4x512x2048, .f32⟩
  | 55 => ⟨S8x4x512x2048, .f32⟩
  | 56 => ⟨S_, .f32⟩
  | 57 => ⟨S8x4x512x1, .f32⟩
  | 58 => ⟨S8x4x512x1, .f32⟩
  | 59 => ⟨S8x4x512x2048, .f32⟩
  | 60 => ⟨S8x4x512x2048, .f32⟩
  | 61 => ⟨S_, .f32⟩
  | 62 => ⟨S8x4x512x1, .f32⟩
  | 63 => ⟨S8x4x512x1, .f32⟩
  | 64 => ⟨S8x4x512x2048, .f32⟩
  | 65 => ⟨S8x4x512x2048, .f32⟩
  | 66 => ⟨S8x4x512x2048, .f32⟩
  | 67 => ⟨S8x4x512x2048, .f32⟩
  | 68 => ⟨S8x4x512x2048, .f32⟩
  | 69 => ⟨S8x4x512x2048, .f32⟩
  | 70 => ⟨S8x4x512x2048, .f32⟩
  | 71 => ⟨S8x4x512x2048, .f32⟩
  | 72 => ⟨S8x4x64x8x2048, .f32⟩
  | 73 => ⟨S_, .f32⟩
  | 74 => ⟨S8x4x64x2048, .f32⟩
  | 75 => ⟨S_, .f32⟩
  | 76 => ⟨S8x4x64x2048, .f32⟩
  | 77 => ⟨S8x4x64x2048, .f32⟩
  | _ => ⟨S8x4096x2048, .f32⟩

abbrev hbmTy (i : Nat) : BufTy := match i / 128 with
  | 0 => hbmTy0_0 i
  | 1 => hbmTy0_1 i
  | _ => ⟨S8x4096x2048, .f32⟩

abbrev bufTy : (tb : Table) → Fin (tcTables nBuf tb) → BufTy
  | .hbm, ⟨i, _⟩ => hbmTy i
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_c_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_c_3 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_c_6 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_v21 : Ref sig .tc := ⟨.hbm, 47, rfl⟩
abbrev main_c_7 : Ref sig .tc := ⟨.hbm, 48, rfl⟩
abbrev main_v22 : Ref sig .tc := ⟨.hbm, 49, rfl⟩
abbrev main_v23 : Ref sig .tc := ⟨.hbm, 50, rfl⟩
abbrev main_c_8 : Ref sig .tc := ⟨.hbm, 51, rfl⟩
abbrev main_c_9 : Ref sig .tc := ⟨.hbm, 52, rfl⟩
abbrev main_call3_v0 : Ref sig .tc := ⟨.hbm, 53, rfl⟩
abbrev main_call3_v1 : Ref sig .tc := ⟨.hbm, 54, rfl⟩
abbrev main_call3_v2 : Ref sig .tc := ⟨.hbm, 55, rfl⟩
abbrev main_call3_v3 : Ref sig .tc := ⟨.hbm, 56, rfl⟩
abbrev main_call3_v4 : Ref sig .tc := ⟨.hbm, 57, rfl⟩
abbrev main_v24 : Ref sig .tc := ⟨.hbm, 58, rfl⟩
abbrev main_v25 : Ref sig .tc := ⟨.hbm, 59, rfl⟩
abbrev main_c_10 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_call4_c : Ref sig .tc := ⟨.hbm, 66, rfl⟩
abbrev main_call4_v0 : Ref sig .tc := ⟨.hbm, 67, rfl⟩
abbrev main_call4_v1 : Ref sig .tc := ⟨.hbm, 68, rfl⟩
abbrev main_call4_c_0 : Ref sig .tc := ⟨.hbm, 69, rfl⟩
abbrev main_call4_v2 : Ref sig .tc := ⟨.hbm, 70, rfl⟩
abbrev main_call4_v3 : Ref sig .tc := ⟨.hbm, 71, rfl⟩
abbrev main_call4_v4 : Ref sig .tc := ⟨.hbm, 72, rfl⟩
abbrev main_call4_c_1 : Ref sig .tc := ⟨.hbm, 73, rfl⟩
abbrev main_call4_c_2 : Ref sig .tc := ⟨.hbm, 74, rfl⟩
abbrev main_call4_v5 : Ref sig .tc := ⟨.hbm, 75, rfl⟩
abbrev main_call4_v6 : Ref sig .tc := ⟨.hbm, 76, rfl⟩
abbrev main_call4_v7 : Ref sig .tc := ⟨.hbm, 77, rfl⟩
abbrev main_call4_v8 : Ref sig .tc := ⟨.hbm, 78, rfl⟩
abbrev main_call4_v9 : Ref sig .tc := ⟨.hbm, 79, rfl⟩
abbrev main_call4_v10 : Ref sig .tc := ⟨.hbm, 80, rfl⟩
abbrev main_call4_c_3 : Ref sig .tc := ⟨.hbm, 81, rfl⟩
abbrev main_call4_v11 : Ref sig .tc := ⟨.hbm, 82, rfl⟩
abbrev main_call4_v12 : Ref sig .tc := ⟨.hbm, 83, rfl⟩
abbrev main_call4_v13 : Ref sig .tc := ⟨.hbm, 84, rfl⟩
abbrev main_call4_cst : Ref sig .tc := ⟨.hbm, 85, rfl⟩
abbrev main_call4_v14 : Ref sig .tc := ⟨.hbm, 86, rfl⟩
abbrev main_v31 : Ref sig .tc := ⟨.hbm, 87, rfl⟩
abbrev main_v32 : Ref sig .tc := ⟨.hbm, 88, rfl⟩
abbrev main_c_11 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_call5_c : Ref sig .tc := ⟨.hbm, 95, rfl⟩
abbrev main_call5_v0 : Ref sig .tc := ⟨.hbm, 96, rfl⟩
abbrev main_call5_v1 : Ref sig .tc := ⟨.hbm, 97, rfl⟩
abbrev main_call5_c_0 : Ref sig .tc := ⟨.hbm, 98, rfl⟩
abbrev main_call5_v2 : Ref sig .tc := ⟨.hbm, 99, rfl⟩
abbrev main_call5_v3 : Ref sig .tc := ⟨.hbm, 100, rfl⟩
abbrev main_call5_v4 : Ref sig .tc := ⟨.hbm, 101, rfl⟩
abbrev main_call5_c_1 : Ref sig .tc := ⟨.hbm, 102, rfl⟩
abbrev main_call5_c_2 : Ref sig .tc := ⟨.hbm, 103, rfl⟩
abbrev main_call5_v5 : Ref sig .tc := ⟨.hbm, 104, rfl⟩
abbrev main_call5_v6 : Ref sig .tc := ⟨.hbm, 105, rfl⟩
abbrev main_call5_v7 : Ref sig .tc := ⟨.hbm, 106, rfl⟩
abbrev main_call5_v8 : Ref sig .tc := ⟨.hbm, 107, rfl⟩
abbrev main_call5_v9 : Ref sig .tc := ⟨.hbm, 108, rfl⟩
abbrev main_call5_v10 : Ref sig .tc := ⟨.hbm, 109, rfl⟩
abbrev main_call5_c_3 : Ref sig .tc := ⟨.hbm, 110, rfl⟩
abbrev main_call5_v11 : Ref sig .tc := ⟨.hbm, 111, rfl⟩
abbrev main_call5_v12 : Ref sig .tc := ⟨.hbm, 112, rfl⟩
abbrev main_call5_v13 : Ref sig .tc := ⟨.hbm, 113, rfl⟩
abbrev main_call5_cst : Ref sig .tc := ⟨.hbm, 114, rfl⟩
abbrev main_call5_v14 : Ref sig .tc := ⟨.hbm, 115, rfl⟩
abbrev main_v38 : Ref sig .tc := ⟨.hbm, 116, rfl⟩
abbrev main_v39 : Ref sig .tc := ⟨.hbm, 117, rfl⟩
abbrev main_c_12 : Ref sig .tc := ⟨.hbm, 118, rfl⟩
abbrev main_v40 : Ref sig .tc := ⟨.hbm, 119, rfl⟩
abbrev main_v41 : Ref sig .tc := ⟨.hbm, 120, rfl⟩
abbrev main_v42 : Ref sig .tc := ⟨.hbm, 121, rfl⟩
abbrev main_v43 : Ref sig .tc := ⟨.hbm, 122, rfl⟩
abbrev main_v44 : Ref sig .tc := ⟨.hbm, 123, rfl⟩
abbrev main_call6_c : Ref sig .tc := ⟨.hbm, 124, rfl⟩
abbrev main_call6_v0 : Ref sig .tc := ⟨.hbm, 125, rfl⟩
abbrev main_call6_v1 : Ref sig .tc := ⟨.hbm, 126, rfl⟩
abbrev main_call6_c_0 : Ref sig .tc := ⟨.hbm, 127, rfl⟩
abbrev main_call6_v2 : Ref sig .tc := ⟨.hbm, 128, rfl⟩
abbrev main_call6_v3 : Ref sig .tc := ⟨.hbm, 129, rfl⟩
abbrev main_call6_v4 : Ref sig .tc := ⟨.hbm, 130, rfl⟩
abbrev main_call6_c_1 : Ref sig .tc := ⟨.hbm, 131, rfl⟩
abbrev main_call6_c_2 : Ref sig .tc := ⟨.hbm, 132, rfl⟩
abbrev main_call6_v5 : Ref sig .tc := ⟨.hbm, 133, rfl⟩
abbrev main_call6_v6 : Ref sig .tc := ⟨.hbm, 134, rfl⟩
abbrev main_call6_v7 : Ref sig .tc := ⟨.hbm, 135, rfl⟩
abbrev main_call6_v8 : Ref sig .tc := ⟨.hbm, 136, rfl⟩
abbrev main_call6_v9 : Ref sig .tc := ⟨.hbm, 137, rfl⟩
abbrev main_call6_v10 : Ref sig .tc := ⟨.hbm, 138, rfl⟩
abbrev main_call6_c_3 : Ref sig .tc := ⟨.hbm, 139, rfl⟩
abbrev main_call6_v11 : Ref sig .tc := ⟨.hbm, 140, rfl⟩
abbrev main_call6_v12 : Ref sig .tc := ⟨.hbm, 141, rfl⟩
abbrev main_call6_v13 : Ref sig .tc := ⟨.hbm, 142, rfl⟩
abbrev main_call6_cst : Ref sig .tc := ⟨.hbm, 143, rfl⟩
abbrev main_call6_v14 : Ref sig .tc := ⟨.hbm, 144, rfl⟩
abbrev main_v45 : Ref sig .tc := ⟨.hbm, 145, rfl⟩
abbrev main_v46 : Ref sig .tc := ⟨.hbm, 146, rfl⟩
abbrev main_c_13 : Ref sig .tc := ⟨.hbm, 147, rfl⟩
abbrev main_v47 : Ref sig .tc := ⟨.hbm, 148, rfl⟩
abbrev main_v48 : Ref sig .tc := ⟨.hbm, 149, rfl⟩
abbrev main_v49 : Ref sig .tc := ⟨.hbm, 150, rfl⟩
abbrev main_v50 : Ref sig .tc := ⟨.hbm, 151, rfl⟩
abbrev main_v51 : Ref sig .tc := ⟨.hbm, 152, rfl⟩
abbrev main_call7_c : Ref sig .tc := ⟨.hbm, 153, rfl⟩
abbrev main_call7_v0 : Ref sig .tc := ⟨.hbm, 154, rfl⟩
abbrev main_call7_v1 : Ref sig .tc := ⟨.hbm, 155, rfl⟩
abbrev main_call7_c_0 : Ref sig .tc := ⟨.hbm, 156, rfl⟩
abbrev main_call7_v2 : Ref sig .tc := ⟨.hbm, 157, rfl⟩
abbrev main_call7_v3 : Ref sig .tc := ⟨.hbm, 158, rfl⟩
abbrev main_call7_v4 : Ref sig .tc := ⟨.hbm, 159, rfl⟩
abbrev main_call7_c_1 : Ref sig .tc := ⟨.hbm, 160, rfl⟩
abbrev main_call7_c_2 : Ref sig .tc := ⟨.hbm, 161, rfl⟩
abbrev main_call7_v5 : Ref sig .tc := ⟨.hbm, 162, rfl⟩
abbrev main_call7_v6 : Ref sig .tc := ⟨.hbm, 163, rfl⟩
abbrev main_call7_v7 : Ref sig .tc := ⟨.hbm, 164, rfl⟩
abbrev main_call7_v8 : Ref sig .tc := ⟨.hbm, 165, rfl⟩
abbrev main_call7_v9 : Ref sig .tc := ⟨.hbm, 166, rfl⟩
abbrev main_call7_v10 : Ref sig .tc := ⟨.hbm, 167, rfl⟩
abbrev main_call7_c_3 : Ref sig .tc := ⟨.hbm, 168, rfl⟩
abbrev main_call7_v11 : Ref sig .tc := ⟨.hbm, 169, rfl⟩
abbrev main_call7_v12 : Ref sig .tc := ⟨.hbm, 170, rfl⟩
abbrev main_call7_v13 : Ref sig .tc := ⟨.hbm, 171, rfl⟩
abbrev main_call7_cst : Ref sig .tc := ⟨.hbm, 172, rfl⟩
abbrev main_call7_v14 : Ref sig .tc := ⟨.hbm, 173, rfl⟩
abbrev main_v52 : Ref sig .tc := ⟨.hbm, 174, rfl⟩
abbrev main_v53 : Ref sig .tc := ⟨.hbm, 175, rfl⟩
abbrev main_cst_14 : Ref sig .tc := ⟨.hbm, 176, rfl⟩
abbrev main_v54 : Ref sig .tc := ⟨.hbm, 177, rfl⟩
abbrev main_v55 : Ref sig .tc := ⟨.hbm, 178, rfl⟩
abbrev main_v56 : Ref sig .tc := ⟨.hbm, 179, rfl⟩
abbrev main_v57 : Ref sig .tc := ⟨.hbm, 180, rfl⟩
abbrev main_v58 : Ref sig .tc := ⟨.hbm, 181, rfl⟩
abbrev main_v59 : Ref sig .tc := ⟨.hbm, 182, rfl⟩
abbrev main_v60 : Ref sig .tc := ⟨.hbm, 183, rfl⟩
abbrev main_cst_15 : Ref sig .tc := ⟨.hbm, 184, rfl⟩
abbrev main_v61 : Ref sig .tc := ⟨.hbm, 185, rfl⟩
abbrev main_v62 : Ref sig .tc := ⟨.hbm, 186, rfl⟩
abbrev main_v63 : Ref sig .tc := ⟨.hbm, 187, rfl⟩
abbrev main_v64 : Ref sig .tc := ⟨.hbm, 188, rfl⟩
abbrev main_cst_16 : Ref sig .tc := ⟨.hbm, 189, rfl⟩
abbrev main_v65 : Ref sig .tc := ⟨.hbm, 190, rfl⟩
abbrev main_v66 : Ref sig .tc := ⟨.hbm, 191, rfl⟩
abbrev main_v67 : Ref sig .tc := ⟨.hbm, 192, rfl⟩
abbrev main_v68 : Ref sig .tc := ⟨.hbm, 193, rfl⟩
abbrev main_v69 : Ref sig .tc := ⟨.hbm, 194, rfl⟩
abbrev main_v70 : Ref sig .tc := ⟨.hbm, 195, rfl⟩
abbrev main_v71 : Ref sig .tc := ⟨.hbm, 196, rfl⟩
abbrev main_v72 : Ref sig .tc := ⟨.hbm, 197, rfl⟩
abbrev main_v73 : Ref sig .tc := ⟨.hbm, 198, rfl⟩
abbrev main_v74 : Ref sig .tc := ⟨.hbm, 199, rfl⟩
abbrev main_v75 : Ref sig .tc := ⟨.hbm, 200, rfl⟩
abbrev main_cst_17 : Ref sig .tc := ⟨.hbm, 201, rfl⟩
abbrev main_v76 : Ref sig .tc := ⟨.hbm, 202, rfl⟩
abbrev main_cst_18 : Ref sig .tc := ⟨.hbm, 203, rfl⟩
abbrev main_v77 : Ref sig .tc := ⟨.hbm, 204, rfl⟩
abbrev main_v78 : Ref sig .tc := ⟨.hbm, 205, rfl⟩

abbrev nD : Nat := 1
abbrev τ : Topo := Topo.v7x

variable {F : FTy → Type} [FloatOps F]

class Facts₀ : Prop where
  shapeCasts_S8x4096x2048_S8x64x64x2048 : S8x4096x2048.ShapeCasts S8x64x64x2048
  slices_S8x4x512x2_S8x4x512x1_0_0_0_0 : S8x4x512x2.Slices ![0, 0, 0, 0] S8x4x512x1
  shapeCasts_S8x4x512x1_S8x4x512 : S8x4x512x1.ShapeCasts S8x4x512
  bcast_S_S8x4x512 : S_.BroadcastsInDim S8x4x512 (![] : Fin 0 → Fin S8x4x512.rank)
  slices_S8x4x512x2_S8x4x512x1_0_0_0_1 : S8x4x512x2.Slices ![0, 0, 0, 1] S8x4x512x1
  bcast_S8x4x512_S8x4x512x1_0_1_2 : S8x4x512.BroadcastsInDim S8x4x512x1 (![0, 1, 2] : Fin 3 → Fin S8x4x512x1.rank)
  shapeCasts_S8x64x64x2048_S8x4096x2048 : S8x64x64x2048.ShapeCasts S8x4096x2048
  shapeCasts_S8x4x512_S8x2048 : S8x4x512.ShapeCasts S8x2048
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S1_S1x1x1_2 : S1.BroadcastsInDim S1x1x1 (![2] : Fin 1 → Fin S1x1x1.rank)
  bcast_S1x1x1_S8x2048x1_0_1_2 : S1x1x1.BroadcastsInDim S8x2048x1 (![0, 1, 2] : Fin 3 → Fin S8x2048x1.rank)
  reducesTo_S8x2048x1_S8x2048_d2 : S8x2048x1.ReducesTo [2] S8x2048
  h_S_ : 0 < S_.numel
  bcast_S8x2048_S8x2048x2048_0_1 : S8x2048.BroadcastsInDim S8x2048x2048 (![0, 1] : Fin 2 → Fin S8x2048x2048.rank)
  bcast_S_S8x2048x2048 : S_.BroadcastsInDim S8x2048x2048 (![] : Fin 0 → Fin S8x2048x2048.rank)
  shapeCasts_S8x2048x2048_S8x4x512x2048 : S8x2048x2048.ShapeCasts S8x4x512x2048
  bcast_S_S8x4x512x1 : S_.BroadcastsInDim S8x4x512x1 (![] : Fin 0 → Fin S8x4x512x1.rank)
  bcast_S8x4x512x1_S8x4x512x2048_0_1_2_3 : S8x4x512x1.BroadcastsInDim S8x4x512x2048 (![0, 1, 2, 3] : Fin 4 → Fin S8x4x512x2048.rank)
  shapeCasts_S8x4x512x2048_S8x4x64x8x2048 : S8x4x512x2048.ShapeCasts S8x4x64x8x2048
  reducesTo_S8x4x64x8x2048_S8x4x64x2048_d3 : S8x4x64x8x2048.ReducesTo [3] S8x4x64x2048
  bcast_S_S8x4x64x2048 : S_.BroadcastsInDim S8x4x64x2048 (![] : Fin 0 → Fin S8x4x64x2048.rank)
  gather_S8x4096x2048_S8x2048x1_S8x2048x2048_2_1_0_0_1_2_112048_wf : GatherDims.WF S8x4096x2048 S8x2048x1 S8x2048x2048 [2] [1] [0] [1] [0] 2 ![1, 1, 2048]

variable [Facts₀]

def gather_S8x4096x2048_S8x2048x1_S8x2048x2048_2_1_0_0_1_2_112048 : GatherDims S8x4096x2048 S8x2048x1 S8x2048x2048 where
  offsetDims := [2]
  collapsedSliceDims := [1]
  operandBatchingDims := [0]
  startIndicesBatchingDims := [0]
  startIndexMap := [1]
  indexVectorDim := 2
  sliceSizes := ![1, 1, 2048]
  wf := gather_S8x4096x2048_S8x2048x1_S8x2048x2048_2_1_0_0_1_2_112048_wf

class Facts : Prop extends Facts₀ where

variable [Facts]
-- ==== Proof.K.Kit.lean ====
/-
  The launch side of the word-level program's one pipelined region, and what its three control cases share.

  The program is: host operations (the bilinear weights and corner rows, four scatter-adds building the weight
  matrix, two changes of float format), the region (grid 8 × 4: an image, a quarter of the contraction axis), one
  reshape. The region's body keeps a 256 × 2048 accumulator in scratch memory across the four quarters of an
  image: it zeroes it at the first quarter, adds the quarter's product at every quarter, and copies it into the
  output block at the last quarter, the only point at which that block is written back.
-/
import proofs.«414405_j2654289789699_3_alg».proof.Proof.Gen.Kernel.Launch
import proofs.«414405_j2654289789699_3_alg».proof.Proof.Gen.Kernel.Skeleton
import proofs.«414405_j2654289789699_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- The stretches of host operations before the region, in order. -/
abbrev preOps : List (List (HloOp τ sig (Elt F))) :=
  [hostOps0, hostOps0_1, hostOps0_2, hostOps0_3, hostOps0_4, hostOps0_5, hostOps0_6, hostOps0_7, hostOps0_8, hostOps0_9, hostOps0_10]

/-- A core's buffer contents when the region is entered: the launch contents after the host operations before it. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

/-- An operation with a family of operands writes its result buffer only. -/
theorem nary_writes {n : Nat} (xs : Fin n → Ref sig .tc) (y : Ref sig .tc) (f) (hxs) (hy) :
    (StableHlo.nary (τ := τ) (Val := Elt F) xs y f hxs hy).writes = {Proc.devRef .tc y} := rfl

theorem preOps_fresh : (preOps (F := F)).Forall fun ops => ops.Forall fun op => op.fresh = ∅ := by
  simp only [List.Forall]; repeat' constructor

theorem preOps_sub : (preOps (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub,
    hostOps0_7_sub, hostOps0_8_sub, hostOps0_9_sub, hostOps0_10_sub⟩

theorem hostOps1_fresh : (hostOps1 : List (HloOp τ sig (Elt F))).Forall fun op => op.fresh = ∅ := by
  simp only [List.Forall]; repeat' constructor

/-- @main is the host operations before the region, the region, and the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1] preOps_sub preOps_fresh main_chain

/-- The reshape after the region touches the region's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the region (only its own result). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 4000000 in
/-- No host operation before the region writes the feature map: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [preOps, hostOps0, hostOps0_1, hostOps0_2, hostOps0_3, hostOps0_4, hostOps0_5, hostOps0_6, hostOps0_7, hostOps0_8, hostOps0_9, hostOps0_10,
      List.flatten_cons, List.flatten_nil, List.append_nil, List.cons_append,
      List.nil_append, List.Forall, nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 4000000 in
/-- Nor the points. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [preOps, hostOps0, hostOps0_1, hostOps0_2, hostOps0_3, hostOps0_4, hostOps0_5, hostOps0_6, hostOps0_7, hostOps0_8, hostOps0_9, hostOps0_10,
      List.flatten_cons, List.flatten_nil, List.append_nil, List.cons_append,
      List.nil_append, List.Forall, nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, over the grid -/

/-- "This is the first quarter of the contraction axis." -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- "This is the last quarter." -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Before the last quarter the output window is idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last quarter it is live. -/
theorem liveAt0_2 : ∀ t : Fin cfg0.N, cond0_1 (grid0.coords t) → cfg0.idle 2 (grid0.coords t) = false := by decide +kernel

/-! ## The memrefs the body runs on -/

/-- One staging buffer of the output window, through which its contents are stated. -/
abbrev VO0_2 : View sig .tc .vmem S1x256x2048 .f32 := (Memref.whole cc0_stg2_0 : Memref sig .tc .vmem S1x256x2048 .f32).view
abbrev ms0_0 (t : Fin cfg0.N) : Memref sig .tc .vmem S1x256x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x2048 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S256x2048 .f32 := Memref.whole cc0_scratch0
abbrev VS0_0 : View sig .tc .vmem S256x2048 .f32 := scM0_0.view

/-- What the launch hands the region beside the windows: the accumulator at some contents, the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.K.RunA.lean ====
/-
  The body at the first quarter of an image's contraction axis: the accumulator, at anything, is zeroed, then the
  quarter's product is added; the output block is not touched.
-/
import proofs.«414405_j2654289789699_3_alg».proof.Proof.K.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the output block's buffer and in the accumulator in this case, with the
    proof that on whole memrefs the body runs to a continuation holding them. -/
noncomputable def kernelRun0_A (c : Dev nD) (i : grid0.Coords) (arg2 : Memref sig .tc .vmem S1x256x1024 .bf16) (harg2 : arg2.IsWhole) (arg3 : Memref sig .tc .vmem S1x1024x2048 .bf16) (harg3 : arg3.IsWhole) (arg4 : Memref sig .tc .vmem S1x256x2048 .f32) (harg4 : arg4.IsWhole) (arg5 : Memref sig .tc .vmem S256x2048 .f32) (harg5 : arg5.IsWhole) (hc0 : cond0_0 i) (hc1 : ¬cond0_1 i)
    (x0 : Vec F S1x256x1024 .bf16) (x1 : Vec F S1x1024x2048 .bf16) :
    Σ' (L2 : List (View.Piece (Elt F) S1x256x2048 .f32)), { LS0 : List (View.Piece (Elt F) S256x2048 .f32) //
      ∀ (xi2 : Vec F S1x256x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_pool_kernel i arg2 harg2 arg3 harg3 arg4 harg4 arg5 harg5) K } := by
  refine ⟨[], ?_, fun xi2 E K => ?run⟩
  case run =>
    simp only [cc0__matmul_pool_kernel_eq_skeleton]; unfold cc0__matmul_pool_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.RunB.lean ====
/-
  The body at a middle quarter: the quarter's product is added to the accumulator the point before left; the output
  block is not touched.
-/
import proofs.«414405_j2654289789699_3_alg».proof.Proof.K.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the output block's buffer and in the accumulator in this case, with the
    proof that on whole memrefs the body runs to a continuation holding them. -/
noncomputable def kernelRun0_B (c : Dev nD) (i : grid0.Coords) (arg2 : Memref sig .tc .vmem S1x256x1024 .bf16) (harg2 : arg2.IsWhole) (arg3 : Memref sig .tc .vmem S1x1024x2048 .bf16) (harg3 : arg3.IsWhole) (arg4 : Memref sig .tc .vmem S1x256x2048 .f32) (harg4 : arg4.IsWhole) (arg5 : Memref sig .tc .vmem S256x2048 .f32) (harg5 : arg5.IsWhole) (hc0 : ¬cond0_0 i) (hc1 : ¬cond0_1 i)
    (x0 : Vec F S1x256x1024 .bf16) (x1 : Vec F S1x1024x2048 .bf16) (xs0 : Vec F S256x2048 .f32) :
    Σ' (L2 : List (View.Piece (Elt F) S1x256x2048 .f32)), { LS0 : List (View.Piece (Elt F) S256x2048 .f32) //
      ∀ (xi2 : Vec F S1x256x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_pool_kernel i arg2 harg2 arg3 harg3 arg4 harg4 arg5 harg5) K } := by
  refine ⟨[], ?_, fun xi2 E K => ?run⟩
  case run =>
    simp only [cc0__matmul_pool_kernel_eq_skeleton]; unfold cc0__matmul_pool_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.RunC.lean ====
/-
  The body at the last quarter: the quarter's product is added to the accumulator the point before left, and the
  accumulator is copied into the output block.
-/
import proofs.«414405_j2654289789699_3_alg».proof.Proof.K.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the output block's buffer and in the accumulator in this case, with the
    proof that on whole memrefs the body runs to a continuation holding them. -/
noncomputable def kernelRun0_C (c : Dev nD) (i : grid0.Coords) (arg2 : Memref sig .tc .vmem S1x256x1024 .bf16) (harg2 : arg2.IsWhole) (arg3 : Memref sig .tc .vmem S1x1024x2048 .bf16) (harg3 : arg3.IsWhole) (arg4 : Memref sig .tc .vmem S1x256x2048 .f32) (harg4 : arg4.IsWhole) (arg5 : Memref sig .tc .vmem S256x2048 .f32) (harg5 : arg5.IsWhole) (hc0 : ¬cond0_0 i) (hc1 : cond0_1 i)
    (x0 : Vec F S1x256x1024 .bf16) (x1 : Vec F S1x1024x2048 .bf16) (xs0 : Vec F S256x2048 .f32) :
    Σ' (L2 : List (View.Piece (Elt F) S1x256x2048 .f32)), { LS0 : List (View.Piece (Elt F) S256x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_pool_kernel i arg2 harg2 arg3 harg3 arg4 harg4 arg5 harg5) K } := by
  refine ⟨?_, ?_, fun E K => ?run⟩
  case run =>
    simp only [cc0__matmul_pool_kernel_eq_skeleton]; unfold cc0__matmul_pool_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.Frame.lean ====
/-
  The frame of the word-level program: what the accumulator and the output block hold after each grid point, the
  region's invariant, the body's obligation at every point, and the run of @main.

  Points are numbered 4·image + quarter. At quarter 0 the accumulator is reset and holds the first quarter's product;
  at quarters 1 and 2 it holds the previous contents plus the quarter's product; at quarter 3 the same, and the output
  block receives the accumulator. So the recursion over points restarts at every multiple of four.
-/
import proofs.«414405_j2654289789699_3_alg».proof.Proof.K.RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What case A leaves in the output block's buffer (nothing is stored: a placeholder no one consults, the window being idle and not written back). -/
def out0_A_2 (c : Dev nD) (i : grid0.Coords) (arg2 : Memref sig .tc .vmem S1x256x1024 .bf16) (harg2 : arg2.IsWhole) (arg3 : Memref sig .tc .vmem S1x1024x2048 .bf16) (harg3 : arg3.IsWhole) (arg4 : Memref sig .tc .vmem S1x256x2048 .f32) (harg4 : arg4.IsWhole) (arg5 : Memref sig .tc .vmem S256x2048 .f32) (harg5 : arg5.IsWhole) (hc0 : cond0_0 i) (hc1 : ¬cond0_1 i)
    (x0 : Vec F S1x256x1024 .bf16) (x1 : Vec F S1x1024x2048 .bf16) : Vec F S1x256x2048 .f32 :=
  VO0_2.read (Elt F) (VO0_2.writes (Elt F) VO0_2.junk (kernelRun0_A c i arg2 harg2 arg3 harg3 arg4 harg4 arg5 harg5 hc0 hc1 x0 x1).1)

/-- Case A's stores into the accumulator cover it. -/
theorem scover0_A_0 (c : Dev nD) (i : grid0.Coords) (arg2 : Memref sig .tc .vmem S1x256x1024 .bf16) (harg2 : arg2.IsWhole) (arg3 : Memref sig .tc .vmem S1x1024x2048 .bf16) (harg3 : arg3.IsWhole) (arg4 : Memref sig .tc .vmem S1x256x2048 .f32) (harg4 : arg4.IsWhole) (arg5 : Memref sig .tc .vmem S256x2048 .f32) (harg5 : arg5.IsWhole) (hc0 : cond0_0 i) (hc1 : ¬cond0_1 i)
    (x0 : Vec F S1x256x1024 .bf16) (x1 : Vec F S1x1024x2048 .bf16) (y : S256x2048.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S256x2048.size (by sl_kernel_rfl) y

/-- What case A leaves in the accumulator. -/
def sout0_A_0 (c : Dev nD) (i : grid0.Coords) (arg2 : Memref sig .tc .vmem S1x256x1024 .bf16) (harg2 : arg2.IsWhole) (arg3 : Memref sig .tc .vmem S1x1024x2048 .bf16) (harg3 : arg3.IsWhole) (arg4 : Memref sig .tc .vmem S1x256x2048 .f32) (harg4 : arg4.IsWhole) (arg5 : Memref sig .tc .vmem S256x2048 .f32) (harg5 : arg5.IsWhole) (hc0 : cond0_0 i) (hc1 : ¬cond0_1 i)
    (x0 : Vec F S1x256x1024 .bf16) (x1 : Vec F S1x1024x2048 .bf16) : Vec F S256x2048 .f32 :=
  VS0_0.read (Elt F) (VS0_0.writes (Elt F) VS0_0.junk (kernelRun0_A c i arg2 harg2 arg3 harg3 arg4 harg4 arg5 harg5 hc0 hc1 x0 x1).2.1)

/-- What case B leaves in the output block's buffer (nothing is stored: a placeholder no one consults, the window being idle and not written back). -/
def out0_B_2 (c : Dev nD) (i : grid0.Coords) (arg2 : Memref sig .tc .vmem S1x256x1024 .bf16) (harg2 : arg2.IsWhole) (arg3 : Memref sig .tc .vmem S1x1024x2048 .bf16) (harg3 : arg3.IsWhole) (arg4 : Memref sig .tc .vmem S1x256x2048 .f32) (harg4 : arg4.IsWhole) (arg5 : Memref sig .tc .vmem S256x2048 .f32) (harg5 : arg5.IsWhole) (hc0 : ¬cond0_0 i) (hc1 : ¬cond0_1 i)
    (x0 : Vec F S1x256x1024 .bf16) (x1 : Vec F S1x1024x2048 .bf16) (xs0 : Vec F S256x2048 .f32) : Vec F S1x256x2048 .f32 :=
  VO0_2.read (Elt F) (VO0_2.writes (Elt F) VO0_2.junk (kernelRun0_B c i arg2 harg2 arg3 harg3 arg4 harg4 arg5 harg5 hc0 hc1 x0 x1 xs0).1)

/-- Case B's stores into the accumulator cover it. -/
theorem scover0_B_0 (c : Dev nD) (i : grid0.Coords) (arg2 : Memref sig .tc .vmem S1x256x1024 .bf16) (harg2 : arg2.IsWhole) (arg3 : Memref sig .tc .vmem S1x1024x2048 .bf16) (harg3 : arg3.IsWhole) (arg4 : Memref sig .tc .vmem S1x256x2048 .f32) (harg4 : arg4.IsWhole) (arg5 : Memref sig .tc .vmem S256x2048 .f32) (harg5 : arg5.IsWhole) (hc0 : ¬cond0_0 i) (hc1 : ¬cond0_1 i)
    (x0 : Vec F S1x256x1024 .bf16) (x1 : Vec F S1x1024x2048 .bf16) (xs0 : Vec F S256x2048 .f32) (y : S256x2048.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S256x2048.size (by sl_kernel_rfl) y

/-- What case B leaves in the accumulator. -/
def sout0_B_0 (c : Dev nD) (i : grid0.Coords) (arg2 : Memref sig .tc .vmem S1x256x1024 .bf16) (harg2 : arg2.IsWhole) (arg3 : Memref sig .tc .vmem S1x1024x2048 .bf16) (harg3 : arg3.IsWhole) (arg4 : Memref sig .tc .vmem S1x256x2048 .f32) (harg4 : arg4.IsWhole) (arg5 : Memref sig .tc .vmem S256x2048 .f32) (harg5 : arg5.IsWhole) (hc0 : ¬cond0_0 i) (hc1 : ¬cond0_1 i)
    (x0 : Vec F S1x256x1024 .bf16) (x1 : Vec F S1x1024x2048 .bf16) (xs0 : Vec F S256x2048 .f32) : Vec F S256x2048 .f32 :=
  VS0_0.read (Elt F) (VS0_0.writes (Elt F) VS0_0.junk (kernelRun0_B c i arg2 harg2 arg3 harg3 arg4 harg4 arg5 harg5 hc0 hc1 x0 x1 xs0).2.1)

/-- At the last quarter the one store into the output block covers it. -/
theorem cover0_C_2 (c : Dev nD) (i : grid0.Coords) (arg2 : Memref sig .tc .vmem S1x256x1024 .bf16) (harg2 : arg2.IsWhole) (arg3 : Memref sig .tc .vmem S1x1024x2048 .bf16) (harg3 : arg3.IsWhole) (arg4 : Memref sig .tc .vmem S1x256x2048 .f32) (harg4 : arg4.IsWhole) (arg5 : Memref sig .tc .vmem S256x2048 .f32) (harg5 : arg5.IsWhole) (hc0 : ¬cond0_0 i) (hc1 : cond0_1 i)
    (x0 : Vec F S1x256x1024 .bf16) (x1 : Vec F S1x1024x2048 .bf16) (xs0 : Vec F S256x2048 .f32) (y : S1x256x2048.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x256x2048.size (by sl_kernel_rfl) y

/-- What case C leaves in the output block's buffer. -/
def out0_C_2 (c : Dev nD) (i : grid0.Coords) (arg2 : Memref sig .tc .vmem S1x256x1024 .bf16) (harg2 : arg2.IsWhole) (arg3 : Memref sig .tc .vmem S1x1024x2048 .bf16) (harg3 : arg3.IsWhole) (arg4 : Memref sig .tc .vmem S1x256x2048 .f32) (harg4 : arg4.IsWhole) (arg5 : Memref sig .tc .vmem S256x2048 .f32) (harg5 : arg5.IsWhole) (hc0 : ¬cond0_0 i) (hc1 : cond0_1 i)
    (x0 : Vec F S1x256x1024 .bf16) (x1 : Vec F S1x1024x2048 .bf16) (xs0 : Vec F S256x2048 .f32) : Vec F S1x256x2048 .f32 :=
  VO0_2.read (Elt F) (VO0_2.writes (Elt F) VO0_2.junk (kernelRun0_C c i arg2 harg2 arg3 harg3 arg4 harg4 arg5 harg5 hc0 hc1 x0 x1 xs0).1)

/-- Case C's stores into the accumulator cover it. -/
theorem scover0_C_0 (c : Dev nD) (i : grid0.Coords) (arg2 : Memref sig .tc .vmem S1x256x1024 .bf16) (harg2 : arg2.IsWhole) (arg3 : Memref sig .tc .vmem S1x1024x2048 .bf16) (harg3 : arg3.IsWhole) (arg4 : Memref sig .tc .vmem S1x256x2048 .f32) (harg4 : arg4.IsWhole) (arg5 : Memref sig .tc .vmem S256x2048 .f32) (harg5 : arg5.IsWhole) (hc0 : ¬cond0_0 i) (hc1 : cond0_1 i)
    (x0 : Vec F S1x256x1024 .bf16) (x1 : Vec F S1x1024x2048 .bf16) (xs0 : Vec F S256x2048 .f32) (y : S256x2048.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S256x2048.size (by sl_kernel_rfl) y

/-- What case C leaves in the accumulator. -/
def sout0_C_0 (c : Dev nD) (i : grid0.Coords) (arg2 : Memref sig .tc .vmem S1x256x1024 .bf16) (harg2 : arg2.IsWhole) (arg3 : Memref sig .tc .vmem S1x1024x2048 .bf16) (harg3 : arg3.IsWhole) (arg4 : Memref sig .tc .vmem S1x256x2048 .f32) (harg4 : arg4.IsWhole) (arg5 : Memref sig .tc .vmem S256x2048 .f32) (harg5 : arg5.IsWhole) (hc0 : ¬cond0_0 i) (hc1 : cond0_1 i)
    (x0 : Vec F S1x256x1024 .bf16) (x1 : Vec F S1x1024x2048 .bf16) (xs0 : Vec F S256x2048 .f32) : Vec F S256x2048 .f32 :=
  VS0_0.read (Elt F) (VS0_0.writes (Elt F) VS0_0.junk (kernelRun0_C c i arg2 harg2 arg3 harg3 arg4 harg4 arg5 harg5 hc0 hc1 x0 x1 xs0).2.1)

/-! ## What the output block's buffer and the accumulator hold after each point -/

/-- After the body at position `n`: the output block's buffer, then the accumulator. -/
def outsAt0 (c : Dev nD) : (n : ℕ) → n < cfg0.N → Vec F S1x256x2048 .f32 × Vec F S256x2048 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 4 = 0 then
      if h1 : (n + 1) % 4 = 3 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 4 = 0) (h1 : ¬t.val % 4 = 3) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands over; afterwards the
    accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The arrays as the region finds them; after the body each input's buffer at its block and the output's at
    `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 8000000 in
/-- The body at any point: the inputs' buffers hold their blocks; the point's quarter says which case applies; the
    invariant hands over the accumulator (at anything at the very first point, at what the point before left
    otherwise) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 4 = 0
  · by_cases h1 : t.val % 4 = 3
    · exfalso; omega
    · rw [Dat.leavesExact_idle (dats m 0 c) 2 t (idleAt0_2 t (fun h => h1 ((hcond0_1 t).mp h))) (noFlush0_2 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
  · have hz : t.val ≠ 0 := fun h => h0 (by rw [h])
    by_cases h1 : t.val % 4 = 3
    · rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold out0_C_2 sout0_C_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dats m 0 c) 2 t (idleAt0_2 t (fun h => h1 ((hcond0_1 t).mp h))) (noFlush0_2 t (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

/-! ## The run -/

set_option backward.isDefEq.respectTransparency.types false in
/-- Every weakly fair execution of @main terminates; at the end every array of the region holds what the library
    computes from the proof data, and every other unscoped buffer what the reshape after the region leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.Kernel.Hand

end
-- ==== Proof.K.Claim.lean ====
/-
  From the frame run to what the claims say: the two argument arrays end as they started, and the result buffer
  ends at the reshape of the region's output array.
-/
import proofs.«414405_j2654289789699_3_alg».proof.Proof.K.Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that is no array of the region and that the reshape after the region does not write ends at what the
    region found in it. -/
theorem tail_kept (c : Dev nD) (b : Ref sig .tc) (hb : ∀ w, Pipeline.arrRef spec0 w ≠ b) (hw : b ≠ main_v151) :
    Pipeline.afterTail₀ cfgs (dats m) 0 (V0 m) [hostOps1] c b = V m c b := by
  unfold Pipeline.afterTail₀
  rw [StableHlo.after_of_forall_not_mem (b := Proc.devRef .tc b)]
  · exact Pipeline.withArrays_of_ne spec0 c (V0 m c) _ b hb
  · intro op hop
    simp only [List.flatten_cons, List.flatten_nil, List.append_nil, hostOps1, List.mem_cons, List.mem_nil_iff, or_false] at hop
    rcases hop with rfl
    simp only [StableHlo.reshape_writes, Finset.mem_singleton]
    exact StableHlo.devRef_ne_of_ne hw

theorem mem_rest_arg0 : main_arg0 ∈ Pipeline.restRefs sig spec0 :=
  Pipeline.mem_restRefs_of main_arg0 rfl (by decide)
theorem mem_rest_arg1 : main_arg1 ∈ Pipeline.restRefs sig spec0 :=
  Pipeline.mem_restRefs_of main_arg1 rfl (by decide)
theorem mem_rest_v151 : main_v151 ∈ Pipeline.restRefs sig spec0 :=
  Pipeline.mem_restRefs_of main_v151 rfl (by decide)

/-- The frame: every weakly fair execution of @main terminates without a fault and leaves both arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 mem_rest_arg0).trans ((tail_kept m c main_arg0 (by decide) (by decide)).trans (V_main_arg0 m c)),
     ((h c).2 main_arg1 mem_rest_arg1).trans ((tail_kept m c main_arg1 (by decide) (by decide)).trans (V_main_arg1 m c))⟩)
    (run_main m ρ)

end Cert.Kernel.Hand

end
-- ==== Proof.KI.Kit.lean ====
/-
  The launch side of the idealized program's one pipelined region, and what its three control cases share.

  The program is: host operations (the bilinear weights and corner rows, four scatter-adds building the weight
  matrix, two changes of float format), the region (grid 8 × 4: an image, a quarter of the contraction axis), one
  reshape. The region's body keeps a 256 × 2048 accumulator in scratch memory across the four quarters of an
  image: it zeroes it at the first quarter, adds the quarter's product at every quarter, and copies it into the
  output block at the last quarter, the only point at which that block is written back.
-/
import proofs.«414405_j2654289789699_3_alg».proof.Proof.Gen.KernelIdeal.Launch
import proofs.«414405_j2654289789699_3_alg».proof.Proof.Gen.KernelIdeal.Skeleton
import proofs.«414405_j2654289789699_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- The stretches of host operations before the region, in order. -/
abbrev preOps : List (List (HloOp τ sig (Elt F))) :=
  [hostOps0, hostOps0_1, hostOps0_2, hostOps0_3, hostOps0_4, hostOps0_5, hostOps0_6, hostOps0_7, hostOps0_8, hostOps0_9, hostOps0_10]

/-- A core's buffer contents when the region is entered: the launch contents after the host operations before it. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

/-- An operation with a family of operands writes its result buffer only. -/
theorem nary_writes {n : Nat} (xs : Fin n → Ref sig .tc) (y : Ref sig .tc) (f) (hxs) (hy) :
    (StableHlo.nary (τ := τ) (Val := Elt F) xs y f hxs hy).writes = {Proc.devRef .tc y} := rfl

theorem preOps_fresh : (preOps (F := F)).Forall fun ops => ops.Forall fun op => op.fresh = ∅ := by
  simp only [List.Forall]; repeat' constructor

theorem preOps_sub : (preOps (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub,
    hostOps0_7_sub, hostOps0_8_sub, hostOps0_9_sub, hostOps0_10_sub⟩

theorem hostOps1_fresh : (hostOps1 : List (HloOp τ sig (Elt F))).Forall fun op => op.fresh = ∅ := by
  simp only [List.Forall]; repeat' constructor

/-- @main is the host operations before the region, the region, and the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1] preOps_sub preOps_fresh main_chain

/-- The reshape after the region touches the region's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the region (only its own result). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 4000000 in
/-- No host operation before the region writes the feature map: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [preOps, hostOps0, hostOps0_1, hostOps0_2, hostOps0_3, hostOps0_4, hostOps0_5, hostOps0_6, hostOps0_7, hostOps0_8, hostOps0_9, hostOps0_10,
      List.flatten_cons, List.flatten_nil, List.append_nil, List.cons_append,
      List.nil_append, List.Forall, nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 4000000 in
/-- Nor the points. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [preOps, hostOps0, hostOps0_1, hostOps0_2, hostOps0_3, hostOps0_4, hostOps0_5, hostOps0_6, hostOps0_7, hostOps0_8, hostOps0_9, hostOps0_10,
      List.flatten_cons, List.flatten_nil, List.append_nil, List.cons_append,
      List.nil_append, List.Forall, nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, over the grid -/

/-- "This is the first quarter of the contraction axis." -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- "This is the last quarter." -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Before the last quarter the output window is idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last quarter it is live. -/
theorem liveAt0_2 : ∀ t : Fin cfg0.N, cond0_1 (grid0.coords t) → cfg0.idle 2 (grid0.coords t) = false := by decide +kernel

/-! ## The memrefs the body runs on -/

/-- One staging buffer of the output window, through which its contents are stated. -/
abbrev VO0_2 : View sig .tc .vmem S1x256x2048 .f32 := (Memref.whole cc0_stg2_0 : Memref sig .tc .vmem S1x256x2048 .f32).view
abbrev ms0_0 (t : Fin cfg0.N) : Memref sig .tc .vmem S1x256x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x2048 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S256x2048 .f32 := Memref.whole cc0_scratch0
abbrev VS0_0 : View sig .tc .vmem S256x2048 .f32 := scM0_0.view

/-- What the launch hands the region beside the windows: the accumulator at some contents, the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KI.RunA.lean ====
/-
  The body at the first quarter of an image's contraction axis: the accumulator, at anything, is zeroed, then the
  quarter's product is added; the output block is not touched.
-/
import proofs.«414405_j2654289789699_3_alg».proof.Proof.KI.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the output block's buffer and in the accumulator in this case, with the
    proof that on whole memrefs the body runs to a continuation holding them. -/
noncomputable def kernelRun0_A (c : Dev nD) (i : grid0.Coords) (arg2 : Memref sig .tc .vmem S1x256x1024 .bf16) (harg2 : arg2.IsWhole) (arg3 : Memref sig .tc .vmem S1x1024x2048 .bf16) (harg3 : arg3.IsWhole) (arg4 : Memref sig .tc .vmem S1x256x2048 .f32) (harg4 : arg4.IsWhole) (arg5 : Memref sig .tc .vmem S256x2048 .f32) (harg5 : arg5.IsWhole) (hc0 : cond0_0 i) (hc1 : ¬cond0_1 i)
    (x0 : Vec F S1x256x1024 .bf16) (x1 : Vec F S1x1024x2048 .bf16) :
    Σ' (L2 : List (View.Piece (Elt F) S1x256x2048 .f32)), { LS0 : List (View.Piece (Elt F) S256x2048 .f32) //
      ∀ (xi2 : Vec F S1x256x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_pool_kernel i arg2 harg2 arg3 harg3 arg4 harg4 arg5 harg5) K } := by
  refine ⟨[], ?_, fun xi2 E K => ?run⟩
  case run =>
    simp only [cc0__matmul_pool_kernel_eq_skeleton]; unfold cc0__matmul_pool_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.RunB.lean ====
/-
  The body at a middle quarter: the quarter's product is added to the accumulator the point before left; the output
  block is not touched.
-/
import proofs.«414405_j2654289789699_3_alg».proof.Proof.KI.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the output block's buffer and in the accumulator in this case, with the
    proof that on whole memrefs the body runs to a continuation holding them. -/
noncomputable def kernelRun0_B (c : Dev nD) (i : grid0.Coords) (arg2 : Memref sig .tc .vmem S1x256x1024 .bf16) (harg2 : arg2.IsWhole) (arg3 : Memref sig .tc .vmem S1x1024x2048 .bf16) (harg3 : arg3.IsWhole) (arg4 : Memref sig .tc .vmem S1x256x2048 .f32) (harg4 : arg4.IsWhole) (arg5 : Memref sig .tc .vmem S256x2048 .f32) (harg5 : arg5.IsWhole) (hc0 : ¬cond0_0 i) (hc1 : ¬cond0_1 i)
    (x0 : Vec F S1x256x1024 .bf16) (x1 : Vec F S1x1024x2048 .bf16) (xs0 : Vec F S256x2048 .f32) :
    Σ' (L2 : List (View.Piece (Elt F) S1x256x2048 .f32)), { LS0 : List (View.Piece (Elt F) S256x2048 .f32) //
      ∀ (xi2 : Vec F S1x256x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_pool_kernel i arg2 harg2 arg3 harg3 arg4 harg4 arg5 harg5) K } := by
  refine ⟨[], ?_, fun xi2 E K => ?run⟩
  case run =>
    simp only [cc0__matmul_pool_kernel_eq_skeleton]; unfold cc0__matmul_pool_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.RunC.lean ====
/-
  The body at the last quarter: the quarter's product is added to the accumulator the point before left, and the
  accumulator is copied into the output block.
-/
import proofs.«414405_j2654289789699_3_alg».proof.Proof.KI.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the output block's buffer and in the accumulator in this case, with the
    proof that on whole memrefs the body runs to a continuation holding them. -/
noncomputable def kernelRun0_C (c : Dev nD) (i : grid0.Coords) (arg2 : Memref sig .tc .vmem S1x256x1024 .bf16) (harg2 : arg2.IsWhole) (arg3 : Memref sig .tc .vmem S1x1024x2048 .bf16) (harg3 : arg3.IsWhole) (arg4 : Memref sig .tc .vmem S1x256x2048 .f32) (harg4 : arg4.IsWhole) (arg5 : Memref sig .tc .vmem S256x2048 .f32) (harg5 : arg5.IsWhole) (hc0 : ¬cond0_0 i) (hc1 : cond0_1 i)
    (x0 : Vec F S1x256x1024 .bf16) (x1 : Vec F S1x1024x2048 .bf16) (xs0 : Vec F S256x2048 .f32) :
    Σ' (L2 : List (View.Piece (Elt F) S1x256x2048 .f32)), { LS0 : List (View.Piece (Elt F) S256x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_pool_kernel i arg2 harg2 arg3 harg3 arg4 harg4 arg5 harg5) K } := by
  refine ⟨?_, ?_, fun E K => ?run⟩
  case run =>
    simp only [cc0__matmul_pool_kernel_eq_skeleton]; unfold cc0__matmul_pool_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.Frame.lean ====
/-
  The frame of the idealized program: what the accumulator and the output block hold after each grid point, the
  region's invariant, the body's obligation at every point, and the run of @main.

  Points are numbered 4·image + quarter. At quarter 0 the accumulator is reset and holds the first quarter's product;
  at quarters 1 and 2 it holds the previous contents plus the quarter's product; at quarter 3 the same, and the output
  block receives the accumulator. So the recursion over points restarts at every multiple of four.
-/
import proofs.«414405_j2654289789699_3_alg».proof.Proof.KI.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What case A leaves in the output block's buffer (nothing is stored: a placeholder no one consults, the window being idle and not written back). -/
def out0_A_2 (c : Dev nD) (i : grid0.Coords) (arg2 : Memref sig .tc .vmem S1x256x1024 .bf16) (harg2 : arg2.IsWhole) (arg3 : Memref sig .tc .vmem S1x1024x2048 .bf16) (harg3 : arg3.IsWhole) (arg4 : Memref sig .tc .vmem S1x256x2048 .f32) (harg4 : arg4.IsWhole) (arg5 : Memref sig .tc .vmem S256x2048 .f32) (harg5 : arg5.IsWhole) (hc0 : cond0_0 i) (hc1 : ¬cond0_1 i)
    (x0 : Vec F S1x256x1024 .bf16) (x1 : Vec F S1x1024x2048 .bf16) : Vec F S1x256x2048 .f32 :=
  VO0_2.read (Elt F) (VO0_2.writes (Elt F) VO0_2.junk (kernelRun0_A c i arg2 harg2 arg3 harg3 arg4 harg4 arg5 harg5 hc0 hc1 x0 x1).1)

/-- Case A's stores into the accumulator cover it. -/
theorem scover0_A_0 (c : Dev nD) (i : grid0.Coords) (arg2 : Memref sig .tc .vmem S1x256x1024 .bf16) (harg2 : arg2.IsWhole) (arg3 : Memref sig .tc .vmem S1x1024x2048 .bf16) (harg3 : arg3.IsWhole) (arg4 : Memref sig .tc .vmem S1x256x2048 .f32) (harg4 : arg4.IsWhole) (arg5 : Memref sig .tc .vmem S256x2048 .f32) (harg5 : arg5.IsWhole) (hc0 : cond0_0 i) (hc1 : ¬cond0_1 i)
    (x0 : Vec F S1x256x1024 .bf16) (x1 : Vec F S1x1024x2048 .bf16) (y : S256x2048.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S256x2048.size (by sl_kernel_rfl) y

/-- What case A leaves in the accumulator. -/
def sout0_A_0 (c : Dev nD) (i : grid0.Coords) (arg2 : Memref sig .tc .vmem S1x256x1024 .bf16) (harg2 : arg2.IsWhole) (arg3 : Memref sig .tc .vmem S1x1024x2048 .bf16) (harg3 : arg3.IsWhole) (arg4 : Memref sig .tc .vmem S1x256x2048 .f32) (harg4 : arg4.IsWhole) (arg5 : Memref sig .tc .vmem S256x2048 .f32) (harg5 : arg5.IsWhole) (hc0 : cond0_0 i) (hc1 : ¬cond0_1 i)
    (x0 : Vec F S1x256x1024 .bf16) (x1 : Vec F S1x1024x2048 .bf16) : Vec F S256x2048 .f32 :=
  VS0_0.read (Elt F) (VS0_0.writes (Elt F) VS0_0.junk (kernelRun0_A c i arg2 harg2 arg3 harg3 arg4 harg4 arg5 harg5 hc0 hc1 x0 x1).2.1)

/-- What case B leaves in the output block's buffer (nothing is stored: a placeholder no one consults, the window being idle and not written back). -/
def out0_B_2 (c : Dev nD) (i : grid0.Coords) (arg2 : Memref sig .tc .vmem S1x256x1024 .bf16) (harg2 : arg2.IsWhole) (arg3 : Memref sig .tc .vmem S1x1024x2048 .bf16) (harg3 : arg3.IsWhole) (arg4 : Memref sig .tc .vmem S1x256x2048 .f32) (harg4 : arg4.IsWhole) (arg5 : Memref sig .tc .vmem S256x2048 .f32) (harg5 : arg5.IsWhole) (hc0 : ¬cond0_0 i) (hc1 : ¬cond0_1 i)
    (x0 : Vec F S1x256x1024 .bf16) (x1 : Vec F S1x1024x2048 .bf16) (xs0 : Vec F S256x2048 .f32) : Vec F S1x256x2048 .f32 :=
  VO0_2.read (Elt F) (VO0_2.writes (Elt F) VO0_2.junk (kernelRun0_B c i arg2 harg2 arg3 harg3 arg4 harg4 arg5 harg5 hc0 hc1 x0 x1 xs0).1)

/-- Case B's stores into the accumulator cover it. -/
theorem scover0_B_0 (c : Dev nD) (i : grid0.Coords) (arg2 : Memref sig .tc .vmem S1x256x1024 .bf16) (harg2 : arg2.IsWhole) (arg3 : Memref sig .tc .vmem S1x1024x2048 .bf16) (harg3 : arg3.IsWhole) (arg4 : Memref sig .tc .vmem S1x256x2048 .f32) (harg4 : arg4.IsWhole) (arg5 : Memref sig .tc .vmem S256x2048 .f32) (harg5 : arg5.IsWhole) (hc0 : ¬cond0_0 i) (hc1 : ¬cond0_1 i)
    (x0 : Vec F S1x256x1024 .bf16) (x1 : Vec F S1x1024x2048 .bf16) (xs0 : Vec F S256x2048 .f32) (y : S256x2048.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S256x2048.size (by sl_kernel_rfl) y

/-- What case B leaves in the accumulator. -/
def sout0_B_0 (c : Dev nD) (i : grid0.Coords) (arg2 : Memref sig .tc .vmem S1x256x1024 .bf16) (harg2 : arg2.IsWhole) (arg3 : Memref sig .tc .vmem S1x1024x2048 .bf16) (harg3 : arg3.IsWhole) (arg4 : Memref sig .tc .vmem S1x256x2048 .f32) (harg4 : arg4.IsWhole) (arg5 : Memref sig .tc .vmem S256x2048 .f32) (harg5 : arg5.IsWhole) (hc0 : ¬cond0_0 i) (hc1 : ¬cond0_1 i)
    (x0 : Vec F S1x256x1024 .bf16) (x1 : Vec F S1x1024x2048 .bf16) (xs0 : Vec F S256x2048 .f32) : Vec F S256x2048 .f32 :=
  VS0_0.read (Elt F) (VS0_0.writes (Elt F) VS0_0.junk (kernelRun0_B c i arg2 harg2 arg3 harg3 arg4 harg4 arg5 harg5 hc0 hc1 x0 x1 xs0).2.1)

/-- At the last quarter the one store into the output block covers it. -/
theorem cover0_C_2 (c : Dev nD) (i : grid0.Coords) (arg2 : Memref sig .tc .vmem S1x256x1024 .bf16) (harg2 : arg2.IsWhole) (arg3 : Memref sig .tc .vmem S1x1024x2048 .bf16) (harg3 : arg3.IsWhole) (arg4 : Memref sig .tc .vmem S1x256x2048 .f32) (harg4 : arg4.IsWhole) (arg5 : Memref sig .tc .vmem S256x2048 .f32) (harg5 : arg5.IsWhole) (hc0 : ¬cond0_0 i) (hc1 : cond0_1 i)
    (x0 : Vec F S1x256x1024 .bf16) (x1 : Vec F S1x1024x2048 .bf16) (xs0 : Vec F S256x2048 .f32) (y : S1x256x2048.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x256x2048.size (by sl_kernel_rfl) y

/-- What case C leaves in the output block's buffer. -/
def out0_C_2 (c : Dev nD) (i : grid0.Coords) (arg2 : Memref sig .tc .vmem S1x256x1024 .bf16) (harg2 : arg2.IsWhole) (arg3 : Memref sig .tc .vmem S1x1024x2048 .bf16) (harg3 : arg3.IsWhole) (arg4 : Memref sig .tc .vmem S1x256x2048 .f32) (harg4 : arg4.IsWhole) (arg5 : Memref sig .tc .vmem S256x2048 .f32) (harg5 : arg5.IsWhole) (hc0 : ¬cond0_0 i) (hc1 : cond0_1 i)
    (x0 : Vec F S1x256x1024 .bf16) (x1 : Vec F S1x1024x2048 .bf16) (xs0 : Vec F S256x2048 .f32) : Vec F S1x256x2048 .f32 :=
  VO0_2.read (Elt F) (VO0_2.writes (Elt F) VO0_2.junk (kernelRun0_C c i arg2 harg2 arg3 harg3 arg4 harg4 arg5 harg5 hc0 hc1 x0 x1 xs0).1)

/-- Case C's stores into the accumulator cover it. -/
theorem scover0_C_0 (c : Dev nD) (i : grid0.Coords) (arg2 : Memref sig .tc .vmem S1x256x1024 .bf16) (harg2 : arg2.IsWhole) (arg3 : Memref sig .tc .vmem S1x1024x2048 .bf16) (harg3 : arg3.IsWhole) (arg4 : Memref sig .tc .vmem S1x256x2048 .f32) (harg4 : arg4.IsWhole) (arg5 : Memref sig .tc .vmem S256x2048 .f32) (harg5 : arg5.IsWhole) (hc0 : ¬cond0_0 i) (hc1 : cond0_1 i)
    (x0 : Vec F S1x256x1024 .bf16) (x1 : Vec F S1x1024x2048 .bf16) (xs0 : Vec F S256x2048 .f32) (y : S256x2048.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S256x2048.size (by sl_kernel_rfl) y

/-- What case C leaves in the accumulator. -/
def sout0_C_0 (c : Dev nD) (i : grid0.Coords) (arg2 : Memref sig .tc .vmem S1x256x1024 .bf16) (harg2 : arg2.IsWhole) (arg3 : Memref sig .tc .vmem S1x1024x2048 .bf16) (harg3 : arg3.IsWhole) (arg4 : Memref sig .tc .vmem S1x256x2048 .f32) (harg4 : arg4.IsWhole) (arg5 : Memref sig .tc .vmem S256x2048 .f32) (harg5 : arg5.IsWhole) (hc0 : ¬cond0_0 i) (hc1 : cond0_1 i)
    (x0 : Vec F S1x256x1024 .bf16) (x1 : Vec F S1x1024x2048 .bf16) (xs0 : Vec F S256x2048 .f32) : Vec F S256x2048 .f32 :=
  VS0_0.read (Elt F) (VS0_0.writes (Elt F) VS0_0.junk (kernelRun0_C c i arg2 harg2 arg3 harg3 arg4 harg4 arg5 harg5 hc0 hc1 x0 x1 xs0).2.1)

/-! ## What the output block's buffer and the accumulator hold after each point -/

/-- After the body at position `n`: the output block's buffer, then the accumulator. -/
def outsAt0 (c : Dev nD) : (n : ℕ) → n < cfg0.N → Vec F S1x256x2048 .f32 × Vec F S256x2048 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 4 = 0 then
      if h1 : (n + 1) % 4 = 3 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 4 = 0) (h1 : ¬t.val % 4 = 3) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands over; afterwards the
    accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The arrays as the region finds them; after the body each input's buffer at its block and the output's at
    `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 8000000 in
/-- The body at any point: the inputs' buffers hold their blocks; the point's quarter says which case applies; the
    invariant hands over the accumulator (at anything at the very first point, at what the point before left
    otherwise) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 4 = 0
  · by_cases h1 : t.val % 4 = 3
    · exfalso; omega
    · rw [Dat.leavesExact_idle (dats m 0 c) 2 t (idleAt0_2 t (fun h => h1 ((hcond0_1 t).mp h))) (noFlush0_2 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
  · have hz : t.val ≠ 0 := fun h => h0 (by rw [h])
    by_cases h1 : t.val % 4 = 3
    · rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold out0_C_2 sout0_C_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dats m 0 c) 2 t (idleAt0_2 t (fun h => h1 ((hcond0_1 t).mp h))) (noFlush0_2 t (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

/-! ## The run -/

set_option backward.isDefEq.respectTransparency.types false in
/-- Every weakly fair execution of @main terminates; at the end every array of the region holds what the library
    computes from the proof data, and every other unscoped buffer what the reshape after the region leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.KernelIdeal.Hand

end
-- ==== Proof.KI.Claim.lean ====
/-
  From the frame run to what the claims say: the two argument arrays end as they started, and the result buffer
  ends at the reshape of the region's output array.
-/
import proofs.«414405_j2654289789699_3_alg».proof.Proof.KI.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that is no array of the region and that the reshape after the region does not write ends at what the
    region found in it. -/
theorem tail_kept (c : Dev nD) (b : Ref sig .tc) (hb : ∀ w, Pipeline.arrRef spec0 w ≠ b) (hw : b ≠ main_v151) :
    Pipeline.afterTail₀ cfgs (dats m) 0 (V0 m) [hostOps1] c b = V m c b := by
  unfold Pipeline.afterTail₀
  rw [StableHlo.after_of_forall_not_mem (b := Proc.devRef .tc b)]
  · exact Pipeline.withArrays_of_ne spec0 c (V0 m c) _ b hb
  · intro op hop
    simp only [List.flatten_cons, List.flatten_nil, List.append_nil, hostOps1, List.mem_cons, List.mem_nil_iff, or_false] at hop
    rcases hop with rfl
    simp only [StableHlo.reshape_writes, Finset.mem_singleton]
    exact StableHlo.devRef_ne_of_ne hw

theorem mem_rest_arg0 : main_arg0 ∈ Pipeline.restRefs sig spec0 :=
  Pipeline.mem_restRefs_of main_arg0 rfl (by decide)
theorem mem_rest_arg1 : main_arg1 ∈ Pipeline.restRefs sig spec0 :=
  Pipeline.mem_restRefs_of main_arg1 rfl (by decide)
theorem mem_rest_v151 : main_v151 ∈ Pipeline.restRefs sig spec0 :=
  Pipeline.mem_restRefs_of main_v151 rfl (by decide)

/-- The frame: every weakly fair execution of @main terminates without a fault and leaves both arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 mem_rest_arg0).trans ((tail_kept m c main_arg0 (by decide) (by decide)).trans (V_main_arg0 m c)),
     ((h c).2 main_arg1 mem_rest_arg1).trans ((tail_kept m c main_arg1 (by decide) (by decide)).trans (V_main_arg1 m c))⟩)
    (run_main m ρ)

end Cert.KernelIdeal.Hand

end
-- ==== Proof.Spec.lean ====
/-
  The mathematics of the claim, with no program in sight.

  A feature map X : [8, 4096, 2048] (eight images, a 64 × 64 grid of pixels flattened to 4096 rows, 2048 channels)
  is sampled bilinearly at points P : [8, 4, 512, 2] (eight images, four masks, 512 points, a normalised (y, x)
  pair each), and the 512 samples of a mask are averaged in 64 consecutive runs of eight.

  A point's pixel coordinate on an axis is its normalised coordinate times 63; its lower neighbour is the floor,
  turned into a 32-bit integer and clipped into [0, 63]; its upper neighbour is the lower one plus one, clipped
  again; its weight towards the upper neighbour is the fractional part. A pixel (y, x) is row 64·y + x of the
  feature map.

  One program (`rout`) gathers the four neighbouring rows of every point, blends them with the fractional
  parts, sums each run of eight points and divides by eight. The other (`kout`) first builds, for every image, a
  256 × 4096 matrix W — row 64·mask + run, column = pixel row — into which every point adds its four corner
  weights, each already multiplied by one eighth, and then multiplies W with the image's feature map.
-/
import Idealize.ShloMosaic.PureOps.Ideal
import Idealize.ShloMosaic.Lib.ValueIdx

noncomputable section

open scoped BigOperators

namespace Cert.Spec

open Idealize.ShloMosaic Idealize.ShloMosaic.ValueIdx

/-- The points' shape, the feature map's, the result's. -/
abbrev SP : Shape := ⟨4, ![8, 4, 512, 2]⟩
abbrev SX : Shape := ⟨3, ![8, 4096, 2048]⟩
abbrev SO : Shape := ⟨4, ![8, 4, 64, 2048]⟩

/-- The four float constants of the two programs, as the extended reals their words denote. -/
def one : EReal := Ideal.ofBits .f32 0x3F800000#32
def eighth : EReal := Ideal.ofBits .f32 0x3E000000#32
def eight : EReal := Ideal.ofBits .f32 0x41000000#32
def sixtyThree : EReal := Ideal.ofBits .f32 0x427C0000#32
def zero : EReal := Ideal.ofBits .f32 0x00000000#32

variable (P : SP.Idx → EReal) (X : SX.Idx → EReal)

/-- The pixel coordinate of point `(b, mm, p)` on axis `a` (0: y, 1: x). -/
def pix (a : Fin 2) (b : Fin 8) (mm : Fin 4) (p : Fin 512) : EReal := P (ix4 b mm p a) * sixtyThree
/-- Its floor, as an extended real. -/
def flo (a : Fin 2) (b : Fin 8) (mm : Fin 4) (p : Fin 512) : EReal := Ideal.liftRound Int.floor (pix P a b mm p)
/-- Its fractional part: the weight towards the upper neighbour. -/
def frac (a : Fin 2) (b : Fin 8) (mm : Fin 4) (p : Fin 512) : EReal := pix P a b mm p - flo P a b mm p
/-- Clipping a 32-bit integer into [0, 63]. -/
def clip63 (v : BitVec 32) : BitVec 32 := IntOp.minsi 63#32 (IntOp.maxsi 0#32 v)
/-- The lower neighbour's coordinate, and the upper one's. -/
def lo (a : Fin 2) (b : Fin 8) (mm : Fin 4) (p : Fin 512) : BitVec 32 := clip63 (Ideal.fptosi 32 (flo P a b mm p))
def hi (a : Fin 2) (b : Fin 8) (mm : Fin 4) (p : Fin 512) : BitVec 32 := clip63 (IntOp.addi (lo P a b mm p) 1#32)
/-- Pixel (y, x) as a row of the flattened feature map, in 32-bit arithmetic. -/
def flat (y x : BitVec 32) : BitVec 32 := IntOp.addi (IntOp.muli y 64#32) x

/-- The four corners' rows: (lower y, lower x), (lower y, upper x), (upper y, lower x), (upper y, upper x). -/
def i00 (b : Fin 8) (mm : Fin 4) (p : Fin 512) : BitVec 32 := flat (lo P 0 b mm p) (lo P 1 b mm p)
def i01 (b : Fin 8) (mm : Fin 4) (p : Fin 512) : BitVec 32 := flat (lo P 0 b mm p) (hi P 1 b mm p)
def i10 (b : Fin 8) (mm : Fin 4) (p : Fin 512) : BitVec 32 := flat (hi P 0 b mm p) (lo P 1 b mm p)
def i11 (b : Fin 8) (mm : Fin 4) (p : Fin 512) : BitVec 32 := flat (hi P 0 b mm p) (hi P 1 b mm p)

/-- The four corners' weights, each times one eighth, in the order the matrix-building program multiplies. -/
def w00 (b : Fin 8) (mm : Fin 4) (p : Fin 512) : EReal := (one - frac P 1 b mm p) * (one - frac P 0 b mm p) * eighth
def w01 (b : Fin 8) (mm : Fin 4) (p : Fin 512) : EReal := frac P 1 b mm p * (one - frac P 0 b mm p) * eighth
def w10 (b : Fin 8) (mm : Fin 4) (p : Fin 512) : EReal := (one - frac P 1 b mm p) * frac P 0 b mm p * eighth
def w11 (b : Fin 8) (mm : Fin 4) (p : Fin 512) : EReal := frac P 1 b mm p * frac P 0 b mm p * eighth

/-- What one corner adds to entry `(r, l)` of image `b`'s matrix: the corner weights of the points `(mm, p)` whose
    output row `64·mm + p / 8` is `r` and whose corner row, read as a signed integer, is `l`. -/
def corner (w : Fin 8 → Fin 4 → Fin 512 → EReal) (i : Fin 8 → Fin 4 → Fin 512 → BitVec 32)
    (b : Fin 8) (r : Fin 256) (l : Fin 4096) : EReal :=
  ∑ e ∈ (Finset.univ : Finset (Fin 4 × Fin 512)).filter
      (fun e => e.1.val * 64 + e.2.val / 8 = r.val ∧ (i b e.1 e.2).toInt = (l.val : ℤ)), w b e.1 e.2

/-- Image `b`'s matrix at `(r, l)`: zero, then the four corners added one after the other. -/
def wd (b : Fin 8) (r : Fin 256) (l : Fin 4096) : EReal :=
  (((zero + corner (w00 P) (i00 P) b r l) + corner (w01 P) (i01 P) b r l) + corner (w10 P) (i10 P) b r l)
    + corner (w11 P) (i11 P) b r l

/-- The matrix-building program's result at `(b, mm, o, c)`: row `64·mm + o` of the matrix times column `c` of the
    feature map. -/
def koutAt (b : Fin 8) (mm : Fin 4) (o : Fin 64) (c : Fin 2048) : EReal :=
  ∑ l : Fin 4096, wd P b ⟨mm.val * 64 + o.val, by omega⟩ l * X (ix3 b l c)

/-- A row index as a gather takes it: the signed integer, clamped into the 4096 rows. -/
def cell (v : BitVec 32) : Fin 4096 := ⟨min v.toInt.toNat 4095, by omega⟩

/-- The bilinear sample of point `(b, mm, p)` at channel `c`, in the order the gathering program blends. -/
def sampled (b : Fin 8) (mm : Fin 4) (p : Fin 512) (c : Fin 2048) : EReal :=
  (X (ix3 b (cell (i00 P b mm p)) c) * (one - frac P 1 b mm p) + X (ix3 b (cell (i01 P b mm p)) c) * frac P 1 b mm p)
      * (one - frac P 0 b mm p)
    + (X (ix3 b (cell (i10 P b mm p)) c) * (one - frac P 1 b mm p) + X (ix3 b (cell (i11 P b mm p)) c) * frac P 1 b mm p)
      * frac P 0 b mm p

/-- The gathering program's result at `(b, mm, o, c)`: the samples of run `o` summed from zero, divided by eight. -/
def routAt (b : Fin 8) (mm : Fin 4) (o : Fin 64) (c : Fin 2048) : EReal :=
  Ideal.div (zero + ∑ k : Fin 8, sampled P X b mm ⟨o.val * 8 + k.val, by omega⟩ c) eight

/-- The two results as arrays. -/
def kout : SO.Idx → EReal := fun i => koutAt P X (i 0) (i 1) (i 2) (i 3)
def rout : SO.Idx → EReal := fun i => routAt P X (i 0) (i 1) (i 2) (i 3)

end Cert.Spec

end
-- ==== Proof.KI.Arrays.lean ====
/-
  The arrays of the idealized kernel program that the value statements speak of, each under a name of its literal
  type (arrays of extended reals indexed by their shape): the weight matrix and the feature map as the region finds
  them, the region's output array after the run, and the two argument arrays as launched.
-/
import proofs.«414405_j2654289789699_3_alg».proof.Proof.KI.Frame
import proofs.«414405_j2654289789699_3_alg».proof.Proof.Spec

noncomputable section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ)

/-- The weight matrix (bf16[8, 256, 4096]) as the region finds it. -/
abbrev warr (c : Dev nD) : S8x256x4096.Idx → EReal := V (F := Ideal) m c main_v148
/-- The feature map changed to bf16 (bf16[8, 4096, 2048]) as the region finds it. -/
abbrev xarr (c : Dev nD) : S8x4096x2048.Idx → EReal := V (F := Ideal) m c main_v149
/-- The region's output array (f32[8, 256, 2048]) after the run. -/
abbrev oarr (c : Dev nD) : S8x256x2048.Idx → EReal := (dats (F := Ideal) m 0 c).arrAt 2 cfg0.N
/-- The points and the feature map as launched. -/
abbrev pts (c : Dev nD) : Cert.Spec.SP.Idx → EReal := m ((c : Thread nD τ).loc main_arg1)
abbrev feats (c : Dev nD) : Cert.Spec.SX.Idx → EReal := m ((c : Thread nD τ).loc main_arg0)

end Cert.KernelIdeal.Hand

end
-- ==== Proof.KI.Final.lean ====
/-
  The matrix-building program's run, with its result named: from the frame run, the region's output array as a
  matrix product, the weight matrix and the feature map as the region finds them, and the reshape after the region.
-/
import proofs.«414405_j2654289789699_3_alg».proof.Proof.KI.Claim
import proofs.«414405_j2654289789699_3_alg».proof.Proof.KI.Arrays
import proofs.«414405_j2654289789699_3_alg».proof.Proof.Spec
import Idealize.ShloMosaic.Lib.StableHlo.Run
import Idealize.ShloMosaic.Lib.Pipeline.Value
import Idealize.ShloMosaic.Lib.ValueIdx

noncomputable section

open scoped BigOperators

namespace Cert.KernelIdeal.Final

open Idealize.ShloMosaic Idealize.ShloMosaic.TcCoe Idealize.ShloMosaic.ValueIdx Idealize.SL.Sem Idealize.ShloMosaic.StableHlo
open Cert.KernelIdeal Cert.KernelIdeal.Gen Cert.KernelIdeal.Hand

variable (m : (ℓ : Loc nD τ sig) → Buf (Elt Ideal) ℓ) (ρ : Dev nD → PrngReg)

/-- After the reshape that follows the region, the result buffer holds the region's output array reshaped. -/
theorem tail_v151 (c : Dev nD) :
    Pipeline.afterTail₀ cfgs (dats (F := Ideal) m) 0 (V0 m) [hostOps1] c main_v151
      = shapeCast S8x4x64x2048 ((dats (F := Ideal) m 0 c).arrAt 2 cfg0.N) shapeCasts_S8x256x2048_S8x4x64x2048 := by
  unfold Pipeline.afterTail₀
  show StableHlo.after hostOps1 _ (Proc.devRef .tc main_v151) = _
  after_results
  have e := Pipeline.withArrays_arr (cfgs 0).spec launch0.win.arr_inj c (V0 m c) (fun w => (dats (F := Ideal) m 0 c).arrAt w (cfgs 0).N) 2
  funext i
  show shapeCast S8x4x64x2048 (Pipeline.withArrays (cfgs 0).spec c (V0 m c) (fun w => (dats m 0 c).arrAt w (cfgs 0).N) (Proc.devRef .tc (Pipeline.arrRef (cfgs 0).spec 2))) shapeCasts_S8x256x2048_S8x4x64x2048 i = _
  rw [e]

/-- The reshape [8, 256, 2048] → [8, 4, 64, 2048] read at an entry: row 64·mm + o. -/
theorem reshape_read (x : S8x256x2048.Idx → EReal) (b : Fin 8) (mm : Fin 4) (o : Fin 64) (ch : Fin 2048) :
    shapeCast S8x4x64x2048 x shapeCasts_S8x256x2048_S8x4x64x2048 (ix4 b mm o ch) = x (ix3 b ⟨mm.val * 64 + o.val, by omega⟩ ch) := by
  refine shapeCast_apply x _ (ix4 b mm o ch) (ix3 b ⟨mm.val * 64 + o.val, by omega⟩ ch) ?_
  rw [Shape.rowMajor_val_three, Shape.rowMajor_val_four]
  show (b.val * 256 + (mm.val * 64 + o.val)) * 2048 + ch.val = ((b.val * 4 + mm.val) * 64 + o.val) * 2048 + ch.val
  ring

/-- The run, given the three facts about the region: its output array is the product of the two arrays it finds; the
    first is the scattered weight matrix of the points; the second is the feature map. -/
theorem run_spec_of
    (hout : ∀ (c : Dev nD) (b : Fin 8) (r : Fin 256) (ch : Fin 2048),
      oarr m c (ix3 b r ch) = ∑ l : Fin 4096, warr m c (ix3 b r l) * xarr m c (ix3 b l ch))
    (hW : ∀ (c : Dev nD) (b : Fin 8) (r : Fin 256) (l : Fin 4096), warr m c (ix3 b r l) = Cert.Spec.wd (pts m c) b r l)
    (hX : ∀ (c : Dev nD) (b : Fin 8) (l : Fin 4096) (ch : Fin 2048), xarr m c (ix3 b l ch) = feats m c (ix3 b l ch)) :
    θ_run (defs (F := Ideal)) (onTc (τ := τ) (main (F := Ideal))) ⟨m, fun _ => 0, ρ⟩ (fun r => ∀ c : Dev nD,
      r.2.mem ((c.tc : Thread nD τ).loc main_v151)
          = Cert.Spec.kout (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun _ h c => ⟨?_, ?_, ?_⟩) (run_main (F := Ideal) m ρ)
  · refine ((h c).2 main_v151 mem_rest_v151).trans ((tail_v151 m c).trans ?_)
    funext i
    obtain ⟨b, mm, o, ch, rfl⟩ : ∃ (b : Fin 8) (mm : Fin 4) (o : Fin 64) (ch : Fin 2048), i = ix4 b mm o ch :=
      ⟨i 0, i 1, i 2, i 3, eq_ix4 i⟩
    show shapeCast S8x4x64x2048 (oarr m c) shapeCasts_S8x256x2048_S8x4x64x2048 (ix4 b mm o ch)
        = Cert.Spec.koutAt (pts m c) (feats m c) b mm o ch
    rw [reshape_read, hout]
    unfold Cert.Spec.koutAt
    refine Finset.sum_congr rfl fun l _ => ?_
    rw [hW, hX]
  · exact ((h c).2 main_arg0 mem_rest_arg0).trans ((tail_kept m c main_arg0 (by decide) (by decide)).trans (V_main_arg0 m c))
  · exact ((h c).2 main_arg1 mem_rest_arg1).trans ((tail_kept m c main_arg1 (by decide) (by decide)).trans (V_main_arg1 m c))

end Cert.KernelIdeal.Final

end
-- ==== Proof.LibDot.lean ====
/-
  A matrix product with one contracted axis, read at one element of its result.

  A product of a rank-2 left operand and a rank-2 right operand with a single contracted axis on each side and
  no batch axis is, at an output position, the sum over the contracted coordinate of the two operands' entries
  there. The file states this for the three arrangements of axes a dense layer meets: rows by columns
  (left contracted on axis 1, right on axis 0), a left operand contracted on its FIRST axis against a right
  operand contracted on its last (the product written transposed), and both operands contracted on their first
  axis. Each lemma is generic in the extents and takes the dimension record's lists as hypotheses, which a
  printed record supplies by rfl.
-/
import Idealize.ShloMosaic.PureOps.Ideal
import Idealize.ShloMosaic.PureOps.Ideal.Laws
import Idealize.ShloMosaic.Lib.ValueIdx

open scoped BigOperators

namespace Cert.Lib.Dot

open Idealize.ShloMosaic
open Idealize.ShloMosaic.ValueIdx

variable {sl sr so : Shape} (d : DotDims sl sr so)

/-- Two reads of an index at positions with equal values agree. -/
theorem idx_val_congr {s : Shape} (j : s.Idx) (p q : Nat) (hp : p < s.rank) (hq : q < s.rank) (h : p = q) :
    (j ⟨p, hp⟩).val = (j ⟨q, hq⟩).val := by subst h; rfl

/-- With no batch axis and one kept left axis, the left operand's index on that axis is the result's first
    coordinate. -/
theorem lhsIdx_val_kept {nl : Fin sl.rank} (hb : d.lhsBatch = []) (hn : d.lhsNonContracting = [nl])
    (j : so.Idx) (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  exact idx_val_congr j _ _ _ _ (by simp [hb, hn])

/-- With no batch axis, one kept left axis and one kept right axis, the right operand's index on its kept axis
    is the result's second coordinate. -/
theorem rhsIdx_val_kept {nl : Fin sl.rank} {nr : Fin sr.rank} (hlb : d.lhsBatch = []) (hrb : d.rhsBatch = [])
    (hln : d.lhsNonContracting = [nl]) (hrn : d.rhsNonContracting = [nr])
    (j : so.Idx) (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hrn]; exact List.mem_singleton.mpr rfl
  unfold DotDims.rhsIdx
  rw [dif_neg hnb, dif_pos hmem]
  simp only [Fin.val_cast]
  exact idx_val_congr j _ _ _ _ (by simp [hlb, hln, hrn])

/-- One contracted axis: the contraction shape has rank one. -/
theorem contr_rank_one {cl : Fin sl.rank} (hc : d.lhsContracting = [cl]) : d.contr.rank = 1 := by
  rw [d.rank_contr, hc]; rfl

/-- One contracted axis: the contraction shape's extent is the left operand's extent on that axis. -/
theorem contr_size_one {cl : Fin sl.rank} (hc : d.lhsContracting = [cl]) :
    d.contr.size ⟨0, by rw [contr_rank_one d hc]; exact Nat.one_pos⟩ = sl.size cl := by
  have h := d.size_contr 0 (by rw [hc]; exact Nat.one_pos)
  rw [h]
  exact congrArg sl.size (by simp [hc])

/-! ## The three arrangements, as sums over the contracted coordinate -/

section Arrangements

open Cert.Lib.Dot

/-- Rows by columns: the left operand [M, K] contracted on axis 1, the right [K, N] on axis 0. -/
theorem sum_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 p k := by
    funext a; refine Fin.ext ?_
    match a with
    | ⟨0, _⟩ => exact lhsIdx_val_kept d hlb hln _ _ Nat.zero_lt_two
    | ⟨1, _⟩ => exact (d.lhsIdx_val_of_single hlc _ _).trans (contrEquiv1_symm_val d K _ _ k)
  have e2 : d.rhsIdx (ix2 p q) ((contrEquiv1 d K (contr_rank_one d hlc) (contr_size_one d hlc)).symm k) = ix2 k q := by
    funext a; refine Fin.ext ?_
    match a with
    | ⟨0, _⟩ => exact (d.rhsIdx_val_of_single hrc _ _).trans (contrEquiv1_symm_val d K _ _ k)
    | ⟨1, _⟩ => exact rhsIdx_val_kept d hlb hrb hln hrn _ _ Nat.one_lt_two
  rw [e1, e2]

/-- The product written transposed: the left operand [K, M] contracted on axis 0, the right [N, K] on axis 1;
    the result is [M, N]. -/
theorem sum_cols_rows {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (l : FVec Ideal ⟨2, ![K, M]⟩ φ₁) (r : FVec Ideal ⟨2, ![N, K]⟩ φ₂) (p : Fin M) (q : Fin N) :
    ∑ k : d.contr.Idx, l (d.lhsIdx (ix2 p q) k) * r (d.rhsIdx (ix2 p q) k) = ∑ k : Fin K, l (ix2 k p) * r (ix2 q k) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 k p := by
    funext a; refine Fin.ext ?_
    match a with
    | ⟨0, _⟩ => exact (d.lhsIdx_val_of_single hlc _ _).trans (contrEquiv1_symm_val d K _ _ k)
    | ⟨1, _⟩ => exact lhsIdx_val_kept d hlb hln _ _ Nat.zero_lt_two
  have e2 : d.rhsIdx (ix2 p q) ((contrEquiv1 d K (contr_rank_one d hlc) (contr_size_one d hlc)).symm k) = ix2 q k := by
    funext a; refine Fin.ext ?_
    match a with
    | ⟨0, _⟩ => exact rhsIdx_val_kept d hlb hrb hln hrn _ _ Nat.one_lt_two
    | ⟨1, _⟩ => exact (d.rhsIdx_val_of_single hrc _ _).trans (contrEquiv1_symm_val d K _ _ k)
  rw [e1, e2]

/-- Both operands contracted on their first axis: the left [K, M], the right [K, N]; the result is [M, N]. -/
theorem sum_cols_cols {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (l : FVec Ideal ⟨2, ![K, M]⟩ φ₁) (r : FVec Ideal ⟨2, ![K, N]⟩ φ₂) (p : Fin M) (q : Fin N) :
    ∑ k : d.contr.Idx, l (d.lhsIdx (ix2 p q) k) * r (d.rhsIdx (ix2 p q) k) = ∑ k : Fin K, l (ix2 k p) * r (ix2 k q) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 k p := by
    funext a; refine Fin.ext ?_
    match a with
    | ⟨0, _⟩ => exact (d.lhsIdx_val_of_single hlc _ _).trans (contrEquiv1_symm_val d K _ _ k)
    | ⟨1, _⟩ => exact lhsIdx_val_kept d hlb hln _ _ Nat.zero_lt_two
  have e2 : d.rhsIdx (ix2 p q) ((contrEquiv1 d K (contr_rank_one d hlc) (contr_size_one d hlc)).symm k) = ix2 k q := by
    funext a; refine Fin.ext ?_
    match a with
    | ⟨0, _⟩ => exact (d.rhsIdx_val_of_single hrc _ _).trans (contrEquiv1_symm_val d K _ _ k)
    | ⟨1, _⟩ => exact rhsIdx_val_kept d hlb hrb hln hrn _ _ Nat.one_lt_two
  rw [e1, e2]

/-! ## The three arrangements as properties of a dimension record (a printed record proves each by six rfl's) -/

/-- Rows by columns: left contracted on axis 1, right on axis 0, no batch axis. -/
def IsRowsCols {M K N : Nat} (d : DotDims ⟨2, ![M, K]⟩ ⟨2, ![K, N]⟩ ⟨2, ![M, N]⟩) : Prop :=
  d.lhsContracting = [1] ∧ d.rhsContracting = [0] ∧ d.lhsNonContracting = [0] ∧ d.rhsNonContracting = [1]
    ∧ d.lhsBatch = [] ∧ d.rhsBatch = []

/-- Left contracted on axis 0, right on axis 1, no batch axis. -/
def IsColsRows {M K N : Nat} (d : DotDims ⟨2, ![K, M]⟩ ⟨2, ![N, K]⟩ ⟨2, ![M, N]⟩) : Prop :=
  d.lhsContracting = [0] ∧ d.rhsContracting = [1] ∧ d.lhsNonContracting = [1] ∧ d.rhsNonContracting = [0]
    ∧ d.lhsBatch = [] ∧ d.rhsBatch = []

/-- Both contracted on axis 0, no batch axis. -/
def IsColsCols {M K N : Nat} (d : DotDims ⟨2, ![K, M]⟩ ⟨2, ![K, N]⟩ ⟨2, ![M, N]⟩) : Prop :=
  d.lhsContracting = [0] ∧ d.rhsContracting = [0] ∧ d.lhsNonContracting = [1] ∧ d.rhsNonContracting = [1]
    ∧ d.lhsBatch = [] ∧ d.rhsBatch = []

/-! ## The host product and the kernel's product into a zero accumulator, read at an element -/

/-- The host's rows-by-columns product at (p, q). -/
theorem hostDot_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    Host.dotGeneral (F := Ideal) d none l r (ix2 p q) = ∑ k : Fin K, l (ix2 p k) * r (ix2 k q) :=
  (Ideal.dotGeneral_apply d none .single l r (ix2 p q)).trans (sum_rows_cols d hlc hrc hln hrn hlb hrb l r p q)

/-- The kernel's rows-by-columns product into a zero accumulator at (p, q). -/
theorem matmul0_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 p k) * r (ix2 k q) :=
  (Ideal.matmul_constant_zero_apply d none l r (ix2 p q)).trans (sum_rows_cols d hlc hrc hln hrn hlb hrb l r p q)

/-- The kernel's transposed product into a zero accumulator at (p, q). -/
theorem matmul0_cols_rows {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (l : FVec Ideal ⟨2, ![K, M]⟩ φ₁) (r : FVec Ideal ⟨2, ![N, K]⟩ φ₂) (p : Fin M) (q : Fin N) :
    matmul (F := Ideal) d none l r (constant ⟨2, ![M, N]⟩ .f32 0x00000000#32) (ix2 p q)
      = ∑ k : Fin K, l (ix2 k p) * r (ix2 q k) :=
  (Ideal.matmul_constant_zero_apply d none l r (ix2 p q)).trans (sum_cols_rows d hlc hrc hln hrn hlb hrb l r p q)

/-- The kernel's product of two operands contracted on their first axes, into a zero accumulator, at (p, q). -/
theorem matmul0_cols_cols {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (l : FVec Ideal ⟨2, ![K, M]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 k p) * r (ix2 k q) :=
  (Ideal.matmul_constant_zero_apply d none l r (ix2 p q)).trans (sum_cols_cols d hlc hrc hln hrn hlb hrb l r p q)

/-- The host's rows-by-columns product at (p, q), from the record's property. -/
theorem hostDot_rc {M K N : Nat} {φ₁ φ₂ : FTy} (d : DotDims ⟨2, ![M, K]⟩ ⟨2, ![K, N]⟩ ⟨2, ![M, N]⟩) (h : IsRowsCols d)
    (l : FVec Ideal ⟨2, ![M, K]⟩ φ₁) (r : FVec Ideal ⟨2, ![K, N]⟩ φ₂) (p : Fin M) (q : Fin N) :
    Host.dotGeneral (F := Ideal) d none l r (ix2 p q) = ∑ k : Fin K, l (ix2 p k) * r (ix2 k q) :=
  hostDot_rows_cols d h.1 h.2.1 h.2.2.1 h.2.2.2.1 h.2.2.2.2.1 h.2.2.2.2.2 l r p q

/-- The kernel's rows-by-columns product into zeros at (p, q), from the record's property. -/
theorem matmul0_rc {M K N : Nat} {φ₁ φ₂ : FTy} (d : DotDims ⟨2, ![M, K]⟩ ⟨2, ![K, N]⟩ ⟨2, ![M, N]⟩) (h : IsRowsCols d)
    (l : FVec Ideal ⟨2, ![M, K]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 p k) * r (ix2 k q) :=
  matmul0_rows_cols d h.1 h.2.1 h.2.2.1 h.2.2.2.1 h.2.2.2.2.1 h.2.2.2.2.2 l r p q

/-- The kernel's transposed product into zeros at (p, q), from the record's property. -/
theorem matmul0_cr {M K N : Nat} {φ₁ φ₂ : FTy} (d : DotDims ⟨2, ![K, M]⟩ ⟨2, ![N, K]⟩ ⟨2, ![M, N]⟩) (h : IsColsRows d)
    (l : FVec Ideal ⟨2, ![K, M]⟩ φ₁) (r : FVec Ideal ⟨2, ![N, K]⟩ φ₂) (p : Fin M) (q : Fin N) :
    matmul (F := Ideal) d none l r (constant ⟨2, ![M, N]⟩ .f32 0x00000000#32) (ix2 p q)
      = ∑ k : Fin K, l (ix2 k p) * r (ix2 q k) :=
  matmul0_cols_rows d h.1 h.2.1 h.2.2.1 h.2.2.2.1 h.2.2.2.2.1 h.2.2.2.2.2 l r p q

/-- The kernel's product of two operands contracted on their first axes, into zeros, at (p, q), from the record's
    property. -/
theorem matmul0_cc {M K N : Nat} {φ₁ φ₂ : FTy} (d : DotDims ⟨2, ![K, M]⟩ ⟨2, ![K, N]⟩ ⟨2, ![M, N]⟩) (h : IsColsCols d)
    (l : FVec Ideal ⟨2, ![K, M]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 k p) * r (ix2 k q) :=
  matmul0_cols_cols d h.1 h.2.1 h.2.2.1 h.2.2.2.1 h.2.2.2.2.1 h.2.2.2.2.2 l r p q

end Arrangements

end Cert.Lib.Dot
-- ==== Proof.KI.Value.lean ====
/-
  The value of the idealized kernel's one pipelined region: after it, the output array is, entry by entry, row r of
  image b's weight matrix times column ch of its feature map, both as the region finds them.

  The grid is 8 images by 4 quarters of the contraction axis, point t = 4·b + k. The body keeps a [256, 2048]
  accumulator across an image's four quarters: at quarter 0 it is zeroed, at every quarter the product of the point's
  [256, 1024] weight block and [1024, 2048] feature block is added, and at quarter 3 it is copied into the output
  block, which is written back there and nowhere else. Over the extended reals addition is commutative and associative
  and a product into zeros is the plain sum over the contracted coordinate, so after quarter k the accumulator's entry
  is the sum of the first k + 1 quarters' shares, and four quarters of 1024 make the contraction axis of 4096.
-/
import proofs.«414405_j2654289789699_3_alg».proof.Proof.KI.Arrays
import proofs.«414405_j2654289789699_3_alg».proof.Proof.LibDot
import Idealize.ShloMosaic.Lib.ValueIdx
import Idealize.ShloMosaic.Lib.Pipeline.Value
import Idealize.ShloMosaic.PureOps.Ideal.Laws

set_option maxRecDepth 16384

noncomputable section

namespace Cert.KernelIdeal.HandValue

open Idealize.ShloMosaic Idealize.ShloMosaic.TcCoe Idealize.ShloMosaic.Tactic
open Idealize.SL.Sem
open Idealize.ShloMosaic.Pipeline (Dat)
open Idealize.ShloMosaic.ValueIdx
open Cert.KernelIdeal Cert.KernelIdeal.Gen Cert.KernelIdeal.Hand
open scoped BigOperators

/-! ## What each control case leaves, as the body's pure terms

The body's stores are whole-buffer stores and its loads whole-buffer loads, so what a case leaves in a buffer is
the payload of the last store into it, with every load replaced by what the loaded buffer held. -/

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First quarter: the accumulator is zeroed, read back, and the quarter's product added. -/
theorem acc_first (c : Dev nD) (i : grid0.Coords) (arg2 : Memref sig .tc .vmem S1x256x1024 .bf16) (harg2 : arg2.IsWhole) (arg3 : Memref sig .tc .vmem S1x1024x2048 .bf16) (harg3 : arg3.IsWhole) (arg4 : Memref sig .tc .vmem S1x256x2048 .f32) (harg4 : arg4.IsWhole) (arg5 : Memref sig .tc .vmem S256x2048 .f32) (harg5 : arg5.IsWhole) (hc0 : cond0_0 i) (hc1 : ¬cond0_1 i)
    (x0 : Vec F S1x256x1024 .bf16) (x1 : Vec F S1x1024x2048 .bf16) :
    sout0_A_0 c i arg2 harg2 arg3 harg3 arg4 harg4 arg5 harg5 hc0 hc1 x0 x1 = k0_pay2 (k0_pay1 (F := F)) x0 x1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S256x2048) hz2, View.readCov_unit_zero (S := S256x2048) _ hz2]
  simp only [View.readAt_eq_ld, harg5.read_unread, harg2.read_unread, harg3.read_unread, View.ld_unit_zero (S := S256x2048) hz2, View.ld_unit_zero (S := S1x256x1024) hz3, View.ld_unit_zero (S := S1x1024x2048) hz3]

/-- Middle quarters: the quarter's product is added to what the accumulator held. -/
theorem acc_middle (c : Dev nD) (i : grid0.Coords) (arg2 : Memref sig .tc .vmem S1x256x1024 .bf16) (harg2 : arg2.IsWhole) (arg3 : Memref sig .tc .vmem S1x1024x2048 .bf16) (harg3 : arg3.IsWhole) (arg4 : Memref sig .tc .vmem S1x256x2048 .f32) (harg4 : arg4.IsWhole) (arg5 : Memref sig .tc .vmem S256x2048 .f32) (harg5 : arg5.IsWhole) (hc0 : ¬cond0_0 i) (hc1 : ¬cond0_1 i)
    (x0 : Vec F S1x256x1024 .bf16) (x1 : Vec F S1x1024x2048 .bf16) (xs0 : Vec F S256x2048 .f32) :
    sout0_B_0 c i arg2 harg2 arg3 harg3 arg4 harg4 arg5 harg5 hc0 hc1 x0 x1 xs0 = k0_pay2 xs0 x0 x1 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero (S := S256x2048) hz2]
  simp only [View.readAt_eq_ld, harg5.read_unread, harg2.read_unread, harg3.read_unread, View.ld_unit_zero (S := S256x2048) hz2, View.ld_unit_zero (S := S1x256x1024) hz3, View.ld_unit_zero (S := S1x1024x2048) hz3]

/-- Last quarter: the accumulator likewise. -/
theorem acc_last (c : Dev nD) (i : grid0.Coords) (arg2 : Memref sig .tc .vmem S1x256x1024 .bf16) (harg2 : arg2.IsWhole) (arg3 : Memref sig .tc .vmem S1x1024x2048 .bf16) (harg3 : arg3.IsWhole) (arg4 : Memref sig .tc .vmem S1x256x2048 .f32) (harg4 : arg4.IsWhole) (arg5 : Memref sig .tc .vmem S256x2048 .f32) (harg5 : arg5.IsWhole) (hc0 : ¬cond0_0 i) (hc1 : cond0_1 i)
    (x0 : Vec F S1x256x1024 .bf16) (x1 : Vec F S1x1024x2048 .bf16) (xs0 : Vec F S256x2048 .f32) :
    sout0_C_0 c i arg2 harg2 arg3 harg3 arg4 harg4 arg5 harg5 hc0 hc1 x0 x1 xs0 = k0_pay2 xs0 x0 x1 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S256x2048) hz2]
  simp only [View.readAt_eq_ld, harg5.read_unread, harg2.read_unread, harg3.read_unread, View.ld_unit_zero (S := S256x2048) hz2, View.ld_unit_zero (S := S1x256x1024) hz3, View.ld_unit_zero (S := S1x1024x2048) hz3]

/-- Last quarter: the output block receives the updated accumulator. -/
theorem out_last (c : Dev nD) (i : grid0.Coords) (arg2 : Memref sig .tc .vmem S1x256x1024 .bf16) (harg2 : arg2.IsWhole) (arg3 : Memref sig .tc .vmem S1x1024x2048 .bf16) (harg3 : arg3.IsWhole) (arg4 : Memref sig .tc .vmem S1x256x2048 .f32) (harg4 : arg4.IsWhole) (arg5 : Memref sig .tc .vmem S256x2048 .f32) (harg5 : arg5.IsWhole) (hc0 : ¬cond0_0 i) (hc1 : cond0_1 i)
    (x0 : Vec F S1x256x1024 .bf16) (x1 : Vec F S1x1024x2048 .bf16) (xs0 : Vec F S256x2048 .f32) :
    out0_C_2 c i arg2 harg2 arg3 harg3 arg4 harg4 arg5 harg5 hc0 hc1 x0 x1 xs0 = k0_pay3 (k0_pay2 xs0 x0 x1) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S1x256x2048) hz3, View.readCov_unit_zero (S := S256x2048) _ hz2]
  simp only [View.readAt_eq_ld, harg5.read_unread, harg2.read_unread, harg3.read_unread, View.ld_unit_zero (S := S256x2048) hz2, View.ld_unit_zero (S := S1x256x1024) hz3, View.ld_unit_zero (S := S1x1024x2048) hz3]

end Pieces

/-! ## The body's arithmetic at one entry, over the extended reals -/

section Payloads

/-- The record of the body's product is rows by columns. -/
theorem dot_rc : Cert.Lib.Dot.IsRowsCols dot_S256x1024_S1024x2048_S256x2048_1_0_0_1_n_n :=
  ⟨rfl, rfl, rfl, rfl, rfl, rfl⟩

/-- The zeroed accumulator reads 0 everywhere. -/
theorem zeros_apply (r : Fin 256) (ch : Fin 2048) :
    (k0_pay1 (F := Ideal) : S256x2048.Idx → EReal) (ix2 r ch) = 0 := by
  unfold k0_pay1
  rw [shapeCast_self]
  exact Ideal.ofBits_zero_f32

/-- A weight block [1, 256, 1024] viewed [256, 1024] reads (r, j) at (0, r, j). -/
theorem wview_apply (w : S1x256x1024.Idx → EReal) (h : S1x256x1024.ShapeCasts S256x1024) (r : Fin 256) (j : Fin 1024) :
    shapeCast S256x1024 w h (ix2 r j) = w (ix3 (0 : Fin 1) r j) :=
  shapeCast_apply w h (ix2 r j) (ix3 (0 : Fin 1) r j) (by
    rw [Shape.rowMajor_val_three, Shape.rowMajor_val_two]
    show ((0 : Nat) * 256 + r.val) * 1024 + j.val = r.val * 1024 + j.val
    omega)

/-- A feature block [1, 1024, 2048] viewed [1024, 2048] reads (j, ch) at (0, j, ch). -/
theorem xview_apply (x : S1x1024x2048.Idx → EReal) (h : S1x1024x2048.ShapeCasts S1024x2048) (j : Fin 1024) (ch : Fin 2048) :
    shapeCast S1024x2048 x h (ix2 j ch) = x (ix3 (0 : Fin 1) j ch) :=
  shapeCast_apply x h (ix2 j ch) (ix3 (0 : Fin 1) j ch) (by
    rw [Shape.rowMajor_val_three, Shape.rowMajor_val_two]
    show ((0 : Nat) * 1024 + j.val) * 2048 + ch.val = j.val * 2048 + ch.val
    omega)

/-- The update at (r, ch): what the accumulator held there plus row r of the weight block times column ch of the
    feature block. -/
theorem update_apply (acc : S256x2048.Idx → EReal) (w : S1x256x1024.Idx → EReal) (x : S1x1024x2048.Idx → EReal)
    (r : Fin 256) (ch : Fin 2048) :
    (k0_pay2 (F := Ideal) acc w x : S256x2048.Idx → EReal) (ix2 r ch)
      = acc (ix2 r ch) + ∑ j : Fin 1024, w (ix3 (0 : Fin 1) r j) * x (ix3 (0 : Fin 1) j ch) := by
  unfold k0_pay2
  rw [shapeCast_self]
  refine (addf_apply _ _ _).trans ?_
  refine congrArg (acc (ix2 r ch) + ·) ?_
  refine (Cert.Lib.Dot.matmul0_rc _ dot_rc _ _ r ch).trans ?_
  refine Finset.sum_congr rfl fun j _ => ?_
  rw [wview_apply, xview_apply]

/-- The output block [1, 256, 2048] reads (0, r, ch) at the accumulator's (r, ch). -/
theorem store_apply (acc : S256x2048.Idx → EReal) (r : Fin 256) (ch : Fin 2048) :
    (k0_pay3 (F := Ideal) acc : S1x256x2048.Idx → EReal) (ix3 (0 : Fin 1) r ch) = acc (ix2 r ch) := by
  unfold k0_pay3
  exact shapeCast_apply acc _ (ix3 (0 : Fin 1) r ch) (ix2 r ch) (by
    rw [Shape.rowMajor_val_three, Shape.rowMajor_val_two]
    show r.val * 2048 + ch.val = ((0 : Nat) * 256 + r.val) * 2048 + ch.val
    omega)

end Payloads

/-! ## The blocks and the arrays, at the extended reals

Point t = 4·b + k works on image b and quarter k of the contraction axis. Its weight block is rows 0..255 and
columns 1024·k .. 1024·k + 1023 of image b's weight matrix; its feature block is rows 1024·k .. 1024·k + 1023 and all
columns of image b's feature map. -/

section Value
variable (m : (ℓ : Loc nD τ sig) → Buf (Elt Ideal) ℓ)

/-- The weight block of point t. -/
abbrev wblk (c : Dev nD) (t : Fin cfg0.N) : S1x256x1024.Idx → EReal := iblk (F := Ideal) m c 0 t
/-- The feature block of point t. -/
abbrev xblk (c : Dev nD) (t : Fin cfg0.N) : S1x1024x2048.Idx → EReal := iblk (F := Ideal) m c 1 t
/-- The accumulator after point n. -/
abbrev accv (c : Dev nD) (n : Nat) (hn : n < cfg0.N) : S256x2048.Idx → EReal := (outsAt0 (F := Ideal) m c n hn).2
/-- The output block's buffer after point n. -/
abbrev outv (c : Dev nD) (n : Nat) (hn : n < cfg0.N) : S1x256x2048.Idx → EReal := (outsAt0 (F := Ideal) m c n hn).1

/-- The three windows' block indices at point t: the image on axis 0; the quarter on the contraction axis of the two
    inputs; zero elsewhere. -/
theorem idx_facts : ∀ t : Fin cfg0.N,
    win0_0.index t (0 : Fin 3) = t.val / 4 ∧ win0_0.index t (1 : Fin 3) = 0 ∧ win0_0.index t (2 : Fin 3) = t.val % 4
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = 0 ∧ win0_2.index t (2 : Fin 3) = 0 :=
  (by decide +kernel : ∀ t : Fin grid0.N,
    win0_0.index t (0 : Fin 3) = t.val / 4 ∧ win0_0.index t (1 : Fin 3) = 0 ∧ win0_0.index t (2 : Fin 3) = t.val % 4
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = 0 ∧ win0_2.index t (2 : Fin 3) = 0)

/-- Position j of quarter s on the contraction axis (taken modulo the axis so that it is defined for every s; only
    s < 4 is ever used). -/
def col (s : Nat) (j : Fin 1024) : Fin 4096 := ⟨(1024 * s + j.val) % 4096, Nat.mod_lt _ (by decide)⟩

/-- The weight block of point 4·b + k at (0, r, j) is the weight matrix at (b, r, 1024·k + j). -/
theorem wblk_apply (c : Dev nD) (t : Fin cfg0.N) (b : Fin 8) (k : Nat) (hk : k < 4) (ht : t.val = 4 * b.val + k)
    (r : Fin 256) (j : Fin 1024) :
    wblk m c t (ix3 (0 : Fin 1) r j) = warr m c (ix3 b r (col k j)) := by
  obtain ⟨e0, e1, e2, -⟩ := idx_facts t
  unfold wblk iblk
  rw [View.read_apply]
  show V (F := Ideal) m c main_v148 _ = V (F := Ideal) m c main_v148 _
  congr 1
  funext a
  apply Fin.ext
  have hj : j.val < 1024 := j.isLt
  match a with
  | ⟨0, _⟩ => show win0_0.index t (0 : Fin 3) * 1 + 1 * 0 = b.val; rw [e0]; omega
  | ⟨1, _⟩ => show win0_0.index t (1 : Fin 3) * 256 + 1 * r.val = r.val; rw [e1]; omega
  | ⟨2, _⟩ => show win0_0.index t (2 : Fin 3) * 1024 + 1 * j.val = (1024 * k + j.val) % 4096; rw [e2]; omega

/-- The feature block of point 4·b + k at (0, j, ch) is the feature map at (b, 1024·k + j, ch). -/
theorem xblk_apply (c : Dev nD) (t : Fin cfg0.N) (b : Fin 8) (k : Nat) (hk : k < 4) (ht : t.val = 4 * b.val + k)
    (j : Fin 1024) (ch : Fin 2048) :
    xblk m c t (ix3 (0 : Fin 1) j ch) = xarr m c (ix3 b (col k j) ch) := by
  obtain ⟨-, -, -, e0, e1, e2, -⟩ := idx_facts t
  unfold xblk iblk
  rw [View.read_apply]
  show V (F := Ideal) m c main_v149 _ = V (F := Ideal) m c main_v149 _
  congr 1
  funext a
  apply Fin.ext
  have hj : j.val < 1024 := j.isLt
  match a with
  | ⟨0, _⟩ => show win0_1.index t (0 : Fin 3) * 1 + 1 * 0 = b.val; rw [e0]; omega
  | ⟨1, _⟩ => show win0_1.index t (1 : Fin 3) * 1024 + 1 * j.val = (1024 * k + j.val) % 4096; rw [e1]; omega
  | ⟨2, _⟩ => show win0_1.index t (2 : Fin 3) * 2048 + 1 * ch.val = ch.val; rw [e2]; omega

/-- Quarter s's share of entry (b, r, ch) of the product. -/
def quarter (c : Dev nD) (b : Fin 8) (r : Fin 256) (ch : Fin 2048) (s : Nat) : EReal :=
  ∑ j : Fin 1024, warr m c (ix3 b r (col s j)) * xarr m c (ix3 b (col s j) ch)

/-- The product of point 4·b + k's two blocks at (r, ch) is quarter k's share of entry (b, r, ch). -/
theorem block_product (c : Dev nD) (t : Fin cfg0.N) (b : Fin 8) (k : Nat) (hk : k < 4) (ht : t.val = 4 * b.val + k)
    (r : Fin 256) (ch : Fin 2048) :
    ∑ j : Fin 1024, wblk m c t (ix3 (0 : Fin 1) r j) * xblk m c t (ix3 (0 : Fin 1) j ch) = quarter m c b r ch k := by
  unfold quarter
  refine Finset.sum_congr rfl fun j _ => ?_
  rw [wblk_apply m c t b k hk ht r j, xblk_apply m c t b k hk ht j ch]

/-! ## The accumulator across an image's four quarters -/

/-- At an image's first quarter the accumulator ends at that quarter's block product (zero plus it). -/
theorem acc_at_first (c : Dev nD) (t : Fin cfg0.N) (h0 : t.val % 4 = 0) (r : Fin 256) (ch : Fin 2048) :
    accv m c t.val t.isLt (ix2 r ch)
      = ∑ j : Fin 1024, wblk m c t (ix3 (0 : Fin 1) r j) * xblk m c t (ix3 (0 : Fin 1) j ch) := by
  have h1 : ¬t.val % 4 = 3 := by omega
  show (outsAt0 (F := Ideal) m c t.val t.isLt).2 (ix2 r ch) = _
  rw [outsAt0_A m c t h0 h1]
  dsimp only
  refine (congrFun (acc_first (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (wblk m c t) (xblk m c t)) (ix2 r ch)).trans ?_
  refine (update_apply (k0_pay1 (F := Ideal)) (wblk m c t) (xblk m c t) r ch).trans ?_
  rw [zeros_apply, zero_add]

/-- At every later quarter it ends at what the point before left plus the quarter's block product. -/
theorem acc_at_next (c : Dev nD) (t : Fin cfg0.N) (h0 : ¬t.val % 4 = 0) (r : Fin 256) (ch : Fin 2048) :
    accv m c t.val t.isLt (ix2 r ch)
      = accv m c (t.val - 1) (Nat.lt_of_le_of_lt (Nat.sub_le _ _) t.isLt) (ix2 r ch)
        + ∑ j : Fin 1024, wblk m c t (ix3 (0 : Fin 1) r j) * xblk m c t (ix3 (0 : Fin 1) j ch) := by
  show (outsAt0 (F := Ideal) m c t.val t.isLt).2 (ix2 r ch) = _
  by_cases h1 : t.val % 4 = 3
  · rw [outsAt0_C m c t h0 h1]
    dsimp only
    refine (congrFun (acc_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (wblk m c t) (xblk m c t) (accv m c (t.val - 1) (Nat.lt_of_le_of_lt (Nat.sub_le _ _) t.isLt))) (ix2 r ch)).trans ?_
    exact update_apply (accv m c (t.val - 1) (Nat.lt_of_le_of_lt (Nat.sub_le _ _) t.isLt)) (wblk m c t) (xblk m c t) r ch
  · rw [outsAt0_B m c t h0 h1]
    dsimp only
    refine (congrFun (acc_middle (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (wblk m c t) (xblk m c t) (accv m c (t.val - 1) (Nat.lt_of_le_of_lt (Nat.sub_le _ _) t.isLt))) (ix2 r ch)).trans ?_
    exact update_apply (accv m c (t.val - 1) (Nat.lt_of_le_of_lt (Nat.sub_le _ _) t.isLt)) (wblk m c t) (xblk m c t) r ch

/-- At an image's last quarter the output block's buffer receives the accumulator. -/
theorem out_at_last (c : Dev nD) (t : Fin cfg0.N) (h1 : t.val % 4 = 3) (r : Fin 256) (ch : Fin 2048) :
    outv m c t.val t.isLt (ix3 (0 : Fin 1) r ch) = accv m c t.val t.isLt (ix2 r ch) := by
  have h0 : ¬t.val % 4 = 0 := by omega
  show (outsAt0 (F := Ideal) m c t.val t.isLt).1 (ix3 (0 : Fin 1) r ch) = (outsAt0 (F := Ideal) m c t.val t.isLt).2 (ix2 r ch)
  rw [outsAt0_C m c t h0 h1]
  dsimp only
  refine (congrFun (out_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (wblk m c t) (xblk m c t) (accv m c (t.val - 1) (Nat.lt_of_le_of_lt (Nat.sub_le _ _) t.isLt))) (ix3 (0 : Fin 1) r ch)).trans ?_
  refine (store_apply (k0_pay2 (F := Ideal) (accv m c (t.val - 1) (Nat.lt_of_le_of_lt (Nat.sub_le _ _) t.isLt)) (wblk m c t) (xblk m c t)) r ch).trans ?_
  exact (congrFun (acc_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (wblk m c t) (xblk m c t) (accv m c (t.val - 1) (Nat.lt_of_le_of_lt (Nat.sub_le _ _) t.isLt))) (ix2 r ch)).symm

/-- After quarter k of image b the accumulator's entry (r, ch) is the sum of the shares of quarters 0..k. -/
theorem acc_eq (c : Dev nD) (b : Fin 8) (r : Fin 256) (ch : Fin 2048) :
    ∀ (k : Nat) (hk : k < 4) (t : Fin cfg0.N) (ht : t.val = 4 * b.val + k),
      accv m c t.val t.isLt (ix2 r ch) = ∑ s ∈ Finset.range (k + 1), quarter m c b r ch s
  | 0, hk, t, ht => by
    rw [acc_at_first m c t (by omega) r ch, block_product m c t b 0 hk ht r ch, Finset.sum_range_one]
  | k + 1, hk, t, ht => by
    have hp : t.val - 1 < cfg0.N := Nat.lt_of_le_of_lt (Nat.sub_le _ _) t.isLt
    have ih := acc_eq c b r ch k (by omega) ⟨t.val - 1, hp⟩ (by show t.val - 1 = 4 * b.val + k; omega)
    rw [acc_at_next m c t (by omega) r ch, block_product m c t b (k + 1) hk ht r ch, Finset.sum_range_succ _ (k + 1)]
    exact congrArg (· + quarter m c b r ch (k + 1)) ih

/-! ## Four quarters make the contraction axis -/

/-- A position on the contraction axis is a quarter and a position inside it. -/
def quarterEquiv : Fin 4 × Fin 1024 ≃ Fin 4096 where
  toFun p := ⟨1024 * p.1.val + p.2.val, by have := p.1.isLt; have := p.2.isLt; omega⟩
  invFun l := (⟨l.val / 1024, by have := l.isLt; omega⟩, ⟨l.val % 1024, Nat.mod_lt _ (by decide)⟩)
  left_inv p := by
    have h1 := p.1.isLt
    have h2 := p.2.isLt
    refine Prod.ext (Fin.ext ?_) (Fin.ext ?_)
    · show (1024 * p.1.val + p.2.val) / 1024 = p.1.val
      omega
    · show (1024 * p.1.val + p.2.val) % 1024 = p.2.val
      omega
  right_inv l := Fin.ext (by
    show 1024 * (l.val / 1024) + l.val % 1024 = l.val
    omega)

theorem quarterEquiv_col (s : Fin 4) (j : Fin 1024) : quarterEquiv (s, j) = col s.val j :=
  Fin.ext (by
    show 1024 * s.val + j.val = (1024 * s.val + j.val) % 4096
    have := s.isLt
    have := j.isLt
    omega)

/-- A sum over the contraction axis is the sum over the quarters of the sums inside each. -/
theorem sum_quarters (f : Fin 4096 → EReal) :
    ∑ s ∈ Finset.range 4, ∑ j : Fin 1024, f (col s j) = ∑ l : Fin 4096, f l := by
  refine Eq.trans ?_ (Equiv.sum_comp quarterEquiv f)
  rw [Fintype.sum_prod_type, Finset.sum_range]
  refine Finset.sum_congr rfl fun s _ => Finset.sum_congr rfl fun j _ => ?_
  rw [quarterEquiv_col]

/-- After an image's last quarter the accumulator's entry (r, ch) is row r of the image's weight matrix times column
    ch of its feature map. -/
theorem acc_full (c : Dev nD) (t : Fin cfg0.N) (b : Fin 8) (ht : t.val = 4 * b.val + 3) (r : Fin 256) (ch : Fin 2048) :
    accv m c t.val t.isLt (ix2 r ch) = ∑ l : Fin 4096, warr m c (ix3 b r l) * xarr m c (ix3 b l ch) := by
  rw [acc_eq m c b r ch 3 (by decide) t ht]
  exact sum_quarters fun l => warr m c (ix3 b r l) * xarr m c (ix3 b l ch)

/-! ## From the blocks to the array

The output window's block at point t is image t / 4's whole [256, 2048] slab, written back at the image's last quarter
only; the eight flushing points' blocks tile the output array. -/

/-- Entry (b, r, ch) of the product: row r of image b's weight matrix times column ch of its feature map. -/
def entry (c : Dev nD) (b : Fin 8) (r : Fin 256) (ch : Fin 2048) : EReal :=
  ∑ l : Fin 4096, warr m c (ix3 b r l) * xarr m c (ix3 b l ch)

/-- The product as an array. -/
def product (c : Dev nD) : S8x256x2048.Idx → EReal := fun i => entry m c (i 0) (i 1) (i 2)

/-- The product array at an index with coordinates (b, r, ch). -/
theorem product_apply (c : Dev nD) (i : S8x256x2048.Idx) (b : Fin 8) (r : Fin 256) (ch : Fin 2048)
    (h0 : (i 0).val = b.val) (h1 : (i 1).val = r.val) (h2 : (i 2).val = ch.val) :
    product m c i = entry m c b r ch := by
  have e : i = ix3 b r ch := funext fun a => Fin.ext (match a with | ⟨0, _⟩ => h0 | ⟨1, _⟩ => h1 | ⟨2, _⟩ => h2)
  subst e
  rfl

/-- What a flushing point writes back is its block of the product array. -/
theorem flushed_eq (c : Dev nD) (t : Fin cfg0.N) (hf : (cfg0.win 2).flush t = true) :
    (dats (F := Ideal) m 0 c).flushed 2 t = ((cfg0.win 2).blk t).view.read (Elt Ideal) (product m c) := by
  have h3 : t.val % 4 = 3 := (flush0_2 t).mp hf
  have hN : cfg0.N = 32 := N_0
  have hb : t.val / 4 < 8 := by have := t.isLt; omega
  have ht : t.val = 4 * (⟨t.val / 4, hb⟩ : Fin 8).val + 3 := by
    show t.val = 4 * (t.val / 4) + 3
    omega
  obtain ⟨-, -, -, -, -, -, e0, e1, e2⟩ := idx_facts t
  show (cfg0.win 2).cut (grid0.coords t) ((dats (F := Ideal) m 0 c).after 2 t) = _
  rw [after0_2]
  funext y
  rw [View.read_apply]
  obtain ⟨r, ch, rfl⟩ : ∃ (r : Fin 256) (ch : Fin 2048), (y : S1x256x2048.Idx) = ix3 (0 : Fin 1) r ch :=
    ⟨y 1, y 2, funext fun a => match a with
      | ⟨0, _⟩ => Fin.ext (by have h : (y 0).val < 1 := (y 0).isLt; show (y 0).val = 0; omega)
      | ⟨1, _⟩ => rfl
      | ⟨2, _⟩ => rfl⟩
  show outv m c t.val t.isLt (ix3 (0 : Fin 1) r ch) = product m c (((cfg0.win 2).blk t).view.emb (ix3 (0 : Fin 1) r ch))
  rw [out_at_last m c t h3 r ch, acc_full m c t ⟨t.val / 4, hb⟩ ht r ch]
  refine (product_apply m c _ ⟨t.val / 4, hb⟩ r ch ?_ ?_ ?_).symm
  · show win0_2.index t (0 : Fin 3) * 1 + 1 * 0 = t.val / 4
    rw [e0]; omega
  · show win0_2.index t (1 : Fin 3) * 256 + 1 * r.val = r.val
    rw [e1]; omega
  · show win0_2.index t (2 : Fin 3) * 2048 + 1 * ch.val = ch.val
    rw [e2]; omega

/-- An index of the output array is in point t's block iff each coordinate is in the block's range on its axis. -/
theorem mem_blk (t : Fin cfg0.N) (i : S8x256x2048.Idx) :
    i ∈ ((cfg0.win 2).blk t).view.set ↔ ∀ a : Fin 3, win0_2.index t a * S1x256x2048.size a ≤ (i a).val
      ∧ (i a).val < win0_2.index t a * S1x256x2048.size a + S1x256x2048.size a := by
  show i ∈ ((View.whole main_v150).slice (win0_2.rect t)).set ↔ _
  rw [View.set_slice_whole, Rect.mem_set_unit]
  exact Iff.rfl

/-- Every index (b, r, ch) of the output array is in the block of image b's last quarter, a flushing point. -/
theorem cover (i : S8x256x2048.Idx) :
    ∃ t : Fin cfg0.N, (cfg0.win 2).flush t = true ∧ i ∈ ((cfg0.win 2).blk t).view.set := by
  have hi0 : (i 0).val < 8 := (i 0).isLt
  have hi1 : (i 1).val < 256 := (i 1).isLt
  have hi2 : (i 2).val < 2048 := (i 2).isLt
  have hN : cfg0.N = 32 := N_0
  obtain ⟨t, ht⟩ : ∃ t : Fin cfg0.N, t.val = 4 * (i 0).val + 3 := ⟨⟨4 * (i 0).val + 3, by omega⟩, rfl⟩
  obtain ⟨-, -, -, -, -, -, e0, e1, e2⟩ := idx_facts t
  refine ⟨t, (flush0_2 t).mpr (by omega), ?_⟩
  rw [mem_blk]
  intro a
  match a with
  | ⟨0, _⟩ =>
    show win0_2.index t (0 : Fin 3) * 1 ≤ (i 0).val ∧ (i 0).val < win0_2.index t (0 : Fin 3) * 1 + 1
    rw [e0]; omega
  | ⟨1, _⟩ =>
    show win0_2.index t (1 : Fin 3) * 256 ≤ (i 1).val ∧ (i 1).val < win0_2.index t (1 : Fin 3) * 256 + 256
    rw [e1]; omega
  | ⟨2, _⟩ =>
    show win0_2.index t (2 : Fin 3) * 2048 ≤ (i 2).val ∧ (i 2).val < win0_2.index t (2 : Fin 3) * 2048 + 2048
    rw [e2]; omega

/-- The output array after the region is the product array. -/
theorem final (c : Dev nD) : oarr m c = product m c :=
  (dats (F := Ideal) m 0 c).arrAt_eq_of_cover 2 (product m c) (flushed_eq m c) (cover)

end Value

/-- The output array after the region is, entry by entry, row r of image b's weight matrix times column ch of its
    feature map, both as the region finds them. -/
theorem out_read (m : (ℓ : Loc nD τ sig) → Buf (Elt Ideal) ℓ) (c : Dev nD) (b : Fin 8) (r : Fin 256) (ch : Fin 2048) :
    oarr m c (ix3 b r ch) = ∑ l : Fin 4096, warr m c (ix3 b r l) * xarr m c (ix3 b l ch) :=
  congrFun (final m c) (ix3 b r ch)

end Cert.KernelIdeal.HandValue

end
-- ==== Proof.LibClampIndex.lean ====
/-
  Scalar facts about the index arithmetic of a trilinear sampler, at the ideal
  (extended-real) reading of the float operations: a clipped and floored coordinate
  is an integer in [0, B]; its upper neighbour, capped at B, is too; a flat index
  z·(H·W) + y·W + x computed in 32-bit words does not wrap when D·H·W ≤ 2^31; the
  negative-index normalisation and the in-range test are then trivial.
-/
import Idealize.ShloMosaic.PureOps.Ideal

namespace Cert.Lib.ClampIndex

open Idealize.ShloMosaic

/-- A signed 32-bit word lies in [-2^31, 2^31). -/
theorem toInt_bounds (v : BitVec 32) : -2147483648 ≤ v.toInt ∧ v.toInt < 2147483648 := by
  have h1 := BitVec.le_toInt v
  have h2 := @BitVec.toInt_lt 32 v
  norm_num at h1 h2
  exact ⟨h1, h2⟩

/-- An integer in [-2^31, 2^31) is its own balanced residue modulo 2^32. -/
theorem bmod_self (v : ℤ) (h0 : -2147483648 ≤ v) (h1 : v < 2147483648) : v.bmod (2 ^ 32) = v := by
  apply Int.bmod_eq_of_le <;> norm_num <;> omega

/-- The word sum of two signed words whose integer sum fits in 32 bits is that integer sum. -/
theorem toInt_add_of_fits (a c : BitVec 32) (h0 : -2147483648 ≤ a.toInt + c.toInt)
    (h1 : a.toInt + c.toInt < 2147483648) : (a + c).toInt = a.toInt + c.toInt := by
  rw [BitVec.toInt_add]; exact bmod_self _ h0 h1

/-- The word product of two signed words whose integer product fits in 32 bits is that integer product. -/
theorem toInt_mul_of_fits (a c : BitVec 32) (h0 : -2147483648 ≤ a.toInt * c.toInt)
    (h1 : a.toInt * c.toInt < 2147483648) : (a * c).toInt = a.toInt * c.toInt := by
  rw [BitVec.toInt_mul]; exact bmod_self _ h0 h1

/-- The neighbour index min(i + 1, B) of an index 0 ≤ i ≤ B stays in [0, B]. -/
theorem next_range (i b : BitVec 32) (hi0 : 0 ≤ i.toInt) (hib : i.toInt ≤ b.toInt) (hb : b.toInt < 2^31 - 1) :
    0 ≤ (IntOp.minsi (IntOp.addi i 1#32) b).toInt ∧ (IntOp.minsi (IntOp.addi i 1#32) b).toInt ≤ b.toInt := by
  have h1 : (1#32 : BitVec 32).toInt = 1 := by decide
  have hadd : (i + 1#32).toInt = i.toInt + 1 := by
    have := toInt_add_of_fits i 1#32 (by rw [h1]; omega) (by rw [h1]; omega)
    rw [this, h1]
  have hs : (i + 1#32).slt b = decide (i.toInt + 1 < b.toInt) := by rw [BitVec.slt_eq_decide, hadd]
  unfold IntOp.minsi IntOp.addi
  rw [hs]
  by_cases h : i.toInt + 1 < b.toInt
  · rw [decide_eq_true h, if_pos rfl, hadd]; omega
  · rw [decide_eq_false h, if_neg (by decide)]; omega

/-- Over the integers: for 0 ≤ z < D, 0 ≤ y < H, 0 ≤ x < W, the row offset y·W + x is below H·W and
    the plane offset z·(H·W) leaves room for a whole plane below D·H·W. -/
theorem flat_int_bounds (z y x : ℤ) (D H W : ℕ) (hz0 : 0 ≤ z) (hz : z < D) (hy0 : 0 ≤ y) (hy : y < H)
    (hx0 : 0 ≤ x) (hx : x < W) :
    0 ≤ y * W ∧ y * W + x < (H : ℤ) * W ∧ 0 ≤ z * ((H : ℤ) * W) ∧ z * ((H : ℤ) * W) + (H : ℤ) * W ≤ (D : ℤ) * H * W := by
  have hW0 : (0 : ℤ) ≤ W := Int.natCast_nonneg W
  have hHW0 : (0 : ℤ) ≤ (H : ℤ) * W := Int.mul_nonneg (Int.natCast_nonneg H) hW0
  have hyW : y * W + x < (H : ℤ) * W := by
    have : (y + 1) * W ≤ (H : ℤ) * W := Int.mul_le_mul_of_nonneg_right (by omega) hW0
    rw [Int.add_mul, Int.one_mul] at this
    omega
  have hzHW : z * ((H : ℤ) * W) + (H : ℤ) * W ≤ (D : ℤ) * H * W := by
    have : (z + 1) * ((H : ℤ) * W) ≤ (D : ℤ) * ((H : ℤ) * W) :=
      Int.mul_le_mul_of_nonneg_right (by omega) hHW0
    rw [Int.add_mul, Int.one_mul] at this
    have e : (D : ℤ) * H * W = (D : ℤ) * ((H : ℤ) * W) := Int.mul_assoc _ _ _
    rw [e]; exact this
  exact ⟨Int.mul_nonneg hy0 hW0, hyW, Int.mul_nonneg hz0 hHW0, hzHW⟩

/-- The flat index z·(H·W) + y·W + x of a point of a D × H × W grid, computed in 32-bit words, does not
    wrap when D·H·W ≤ 2^31: it is the same expression over the integers. -/
theorem flat_toInt (z y x hw wc : BitVec 32) (D H W : ℕ) (hhw : hw.toInt = H * W) (hwc : wc.toInt = W)
    (hD : (D * H * W : ℤ) ≤ 2^31) (hz0 : 0 ≤ z.toInt) (hz : z.toInt < D) (hy0 : 0 ≤ y.toInt) (hy : y.toInt < H)
    (hx0 : 0 ≤ x.toInt) (hx : x.toInt < W) :
    (IntOp.addi (IntOp.addi (IntOp.muli z hw) (IntOp.muli y wc)) x).toInt
      = z.toInt * (H * W) + y.toInt * W + x.toInt := by
  -- every partial value lies in [0, D·H·W), hence in the signed 32-bit range
  obtain ⟨hyW0, hyW, hzHW0, hzHW⟩ := flat_int_bounds z.toInt y.toInt x.toInt D H W hz0 hz hy0 hy hx0 hx
  have hD' : (D : ℤ) * H * W ≤ 2147483648 := by norm_num at hD; exact hD
  unfold IntOp.addi IntOp.muli
  have hm1 : (z * hw).toInt = z.toInt * ((H : ℤ) * W) := by
    rw [toInt_mul_of_fits z hw (by rw [hhw]; omega) (by rw [hhw]; omega), hhw]
  have hm2 : (y * wc).toInt = y.toInt * W := by
    rw [toInt_mul_of_fits y wc (by rw [hwc]; omega) (by rw [hwc]; omega), hwc]
  have ha1 : (z * hw + y * wc).toInt = z.toInt * ((H : ℤ) * W) + y.toInt * W := by
    rw [toInt_add_of_fits _ _ (by rw [hm1, hm2]; omega) (by rw [hm1, hm2]; omega), hm1, hm2]
  rw [toInt_add_of_fits _ _ (by rw [ha1]; omega) (by rw [ha1]; omega), ha1]

/-- The flat index of a point of a D × H × W grid lies in [0, D·H·W). -/
theorem flat_range (z y x hw wc : BitVec 32) (D H W : ℕ) (hhw : hw.toInt = H * W) (hwc : wc.toInt = W)
    (hD : (D * H * W : ℤ) ≤ 2^31) (hz0 : 0 ≤ z.toInt) (hz : z.toInt < D) (hy0 : 0 ≤ y.toInt) (hy : y.toInt < H)
    (hx0 : 0 ≤ x.toInt) (hx : x.toInt < W) :
    0 ≤ (IntOp.addi (IntOp.addi (IntOp.muli z hw) (IntOp.muli y wc)) x).toInt
      ∧ (IntOp.addi (IntOp.addi (IntOp.muli z hw) (IntOp.muli y wc)) x).toInt < D * H * W := by
  rw [flat_toInt z y x hw wc D H W hhw hwc hD hz0 hz hy0 hy hx0 hx]
  obtain ⟨hyW0, hyW, hzHW0, hzHW⟩ := flat_int_bounds z.toInt y.toInt x.toInt D H W hz0 hz hy0 hy hx0 hx
  constructor <;> omega

/-- jnp's negative-index normalisation (add n when i < 0) is the identity on a non-negative index. -/
theorem norm_id (i n : BitVec 32) (hi0 : 0 ≤ i.toInt) :
    Scalar.select (IntOp.cmpi .slt i 0#32) (IntOp.addi i n) i = i := by
  have h0 : (0#32 : BitVec 32).toInt = 0 := by decide
  have hs : i.slt 0#32 = false := by
    rw [BitVec.slt_eq_decide, h0]; exact decide_eq_false (by omega)
  unfold Scalar.select IntOp.cmpi
  simp only [hs]
  rw [if_neg (by decide)]

/-- The in-range test 0 ≤ i ∧ i ≤ mx answers true on an index in [0, mx]. -/
theorem inrange_true (i mx : BitVec 32) (hi0 : 0 ≤ i.toInt) (hi : i.toInt ≤ mx.toInt) :
    IntOp.andi (IntOp.cmpi .sge i 0#32) (IntOp.cmpi .sle i mx) = 1#1 := by
  have h0 : (0#32 : BitVec 32).toInt = 0 := by decide
  have hs1 : (0#32 : BitVec 32).sle i = true := by
    rw [BitVec.sle_eq_decide, h0]; exact decide_eq_true hi0
  have hs2 : i.sle mx = true := by
    rw [BitVec.sle_eq_decide]; exact decide_eq_true hi
  unfold IntOp.andi IntOp.cmpi
  simp only [hs1, hs2]
  decide

/-- A non-negative signed word, read as a natural number and back as an integer, is itself. -/
theorem toNat_of_range (i : BitVec 32) (hi0 : 0 ≤ i.toInt) : (i.toInt.toNat : ℤ) = i.toInt :=
  Int.toNat_of_nonneg hi0

/-- Capping a natural index below M at M − 1 leaves it unchanged. -/
theorem min_toNat_of_lt (i : BitVec 32) (M : ℕ) (hi0 : 0 ≤ i.toInt) (hi : i.toInt < M) :
    min i.toInt.toNat (M - 1) = i.toInt.toNat := by
  have := toNat_of_range i hi0
  omega

/-- The natural-number reading of a signed word in [0, M) is below M. -/
theorem toNat_lt_of_range (i : BitVec 32) (M : ℕ) (hi0 : 0 ≤ i.toInt) (hi : i.toInt < M) :
    i.toInt.toNat < M := by
  have := toNat_of_range i hi0
  omega

/-- An extended real between 0 and a real B is itself a real, in [0, B]. -/
theorem exists_real_of_mem (c : EReal) (B : ℝ) (h0 : 0 ≤ c) (hB : c ≤ (B : EReal)) :
    ∃ r : ℝ, c = (r : EReal) ∧ 0 ≤ r ∧ r ≤ B := by
  induction c using EReal.rec with
  | bot => exact absurd h0 (not_le.mpr EReal.bot_lt_zero)
  | top => exact absurd hB (not_le.mpr (EReal.coe_lt_top B))
  | coe r => exact ⟨r, rfl, EReal.coe_nonneg.mp h0, EReal.coe_le_coe_iff.mp hB⟩

/-- Clipping any extended real x to [0, B] (B ≥ 0 a signed word read as a real) gives a real in [0, B],
    whatever x is: an infinity is clipped to an end of the interval. -/
theorem clamp_real (b : BitVec 32) (hb : 0 ≤ b.toInt) (x : Ideal .f32) :
    ∃ r : ℝ, FloatOps.minimumf (FloatOps.sitofp (F := Ideal) .f32 b)
        (FloatOps.maximumf (FloatOps.ofBits (F := Ideal) .f32 0x00000000#32) x) = ((r : ℝ) : EReal)
      ∧ 0 ≤ r ∧ r ≤ (b.toInt : ℝ) := by
  have hz : FloatOps.ofBits (F := Ideal) .f32 0x00000000#32 = (0 : EReal) := by
    simp [Ideal.ofBits, Ideal.ieee]
  apply exists_real_of_mem
  · show (0 : EReal) ≤ min (((b.toInt : ℝ)) : EReal) (max (FloatOps.ofBits (F := Ideal) .f32 0x00000000#32) x)
    rw [hz]
    exact le_min (EReal.coe_nonneg.mpr (by exact_mod_cast hb)) (le_max_left _ _)
  · exact min_le_left _ _

/-- Flooring a real r in [0, B], with B below 2^31, and converting to a signed 32-bit word gives the word
    whose signed value is ⌊r⌋: neither the conversion's clamp nor the word's wrap-around intervenes. -/
theorem fptosi_floor_coe (r : ℝ) (B : ℤ) (h0 : 0 ≤ r) (hB : r ≤ (B : ℝ)) (hB31 : B < 2147483648) :
    (Ideal.fptosi 32 (Ideal.liftRound Int.floor (r : EReal))).toInt = ⌊r⌋ := by
  have hf0 : 0 ≤ ⌊r⌋ := Int.floor_nonneg.mpr h0
  have hfB : ⌊r⌋ ≤ B := by
    have : ⌊r⌋ ≤ ⌊(B : ℝ)⌋ := Int.floor_le_floor hB
    rwa [Int.floor_intCast] at this
  have hnn : (0 : ℝ) ≤ ((⌊r⌋ : ℤ) : ℝ) := by exact_mod_cast hf0
  rw [Ideal.liftRound_coe, Ideal.fptosi, Ideal.toIntClamped_coe, if_pos hnn, Int.floor_intCast]
  have hmin : min ((((2 ^ (32 - 1) : ℕ)) : ℤ) - 1) ⌊r⌋ = ⌊r⌋ := min_eq_right (by norm_num; omega)
  have hmax : max (-(((2 ^ (32 - 1) : ℕ)) : ℤ)) ⌊r⌋ = ⌊r⌋ := max_eq_right (by norm_num; omega)
  rw [hmin, hmax, BitVec.toInt_ofInt]
  exact bmod_self _ (by omega) (by omega)

/-- The clipped, floored and converted coordinate equals the floor of the clipped real: there is a real
    r in [0, B] that the clip produces and the resulting signed word is ⌊r⌋. -/
theorem clampFloor_eq (b : BitVec 32) (hb : 0 ≤ b.toInt) (x : Ideal .f32) :
    ∃ r : ℝ, FloatOps.minimumf (FloatOps.sitofp (F := Ideal) .f32 b)
        (FloatOps.maximumf (FloatOps.ofBits (F := Ideal) .f32 0x00000000#32) x) = ((r : ℝ) : EReal)
      ∧ 0 ≤ r ∧ r ≤ (b.toInt : ℝ)
      ∧ (FloatOps.fptosi (F := Ideal) 32 (FloatOps.hostUnary (F := Ideal) .floor
          (FloatOps.minimumf (FloatOps.sitofp (F := Ideal) .f32 b)
            (FloatOps.maximumf (FloatOps.ofBits (F := Ideal) .f32 0x00000000#32) x)))).toInt = ⌊r⌋ := by
  obtain ⟨r, hr, hr0, hrB⟩ := clamp_real b hb x
  refine ⟨r, hr, hr0, hrB, ?_⟩
  rw [hr]
  exact fptosi_floor_coe r b.toInt hr0 hrB (toInt_bounds b).2

/-- A coordinate clipped to [0, B], floored and converted to a signed 32-bit word is an index in [0, B]. -/
theorem clampFloor_range (b : BitVec 32) (hb : 0 ≤ b.toInt) (x : Ideal .f32) :
    0 ≤ (FloatOps.fptosi (F := Ideal) 32 (FloatOps.hostUnary (F := Ideal) .floor
          (FloatOps.minimumf (FloatOps.sitofp (F := Ideal) .f32 b)
            (FloatOps.maximumf (FloatOps.ofBits (F := Ideal) .f32 0x00000000#32) x)))).toInt
      ∧ (FloatOps.fptosi (F := Ideal) 32 (FloatOps.hostUnary (F := Ideal) .floor
          (FloatOps.minimumf (FloatOps.sitofp (F := Ideal) .f32 b)
            (FloatOps.maximumf (FloatOps.ofBits (F := Ideal) .f32 0x00000000#32) x)))).toInt ≤ b.toInt := by
  obtain ⟨r, _, hr0, hrB, hi⟩ := clampFloor_eq b hb x
  rw [hi]
  refine ⟨Int.floor_nonneg.mpr hr0, ?_⟩
  have : ⌊r⌋ ≤ ⌊(b.toInt : ℝ)⌋ := Int.floor_le_floor hrB
  rwa [Int.floor_intCast] at this

end Cert.Lib.ClampIndex
-- ==== Proof.LibSumIdx.lean ====
/-
  Sums over a rank-1 and a rank-3 index set as iterated sums over the coordinates: the index set of a shape
  `[n]` is `Fin n`, that of `[n0, n1, n2]` is `Fin n0 × Fin n1 × Fin n2`, so a sum over all indices of an array
  is the sum over its first coordinate of the sum over its second of the sum over its third. Stated for any
  additive commutative monoid; the rank-2 case is the library's `ValueIdx.sum_idx2`.
-/
import Idealize.ShloMosaic.Lib.ValueIdx

noncomputable section

open scoped BigOperators

namespace Cert.LibSumIdx

open Idealize.ShloMosaic Idealize.ShloMosaic.ValueIdx

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates, outermost first. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibSumIdx

end
-- ==== Proof.KI.Host.lean ====
/-
  The host side of the idealized program, read at the region's entry.

  Before the pipelined region the program computes, from the points P : [8, 4, 512, 2], each point's pixel
  coordinates (times 63), their floors and fractional parts, the lower and upper neighbours clipped into [0, 63],
  the four corner rows 64·y + x and the four corner weights (each times one eighth); then, from a zero matrix
  [8, 256, 4096], four scatter-adds, one per corner, at the index triples (image, 64·mask + point / 8, corner row);
  then it changes the matrix and the feature map to the matrix unit's float format, which is the identity on the
  extended reals.

  This file names each of those stages as a function of its operands, shows stretch by stretch that the region's
  entry contents are those functions of the launched points, reads every stage at a point (the scatter-add as a
  sum over the points that land on an entry), and concludes: the matrix the region finds is Spec.wd of the launched
  points, the feature map it finds is the launched one.
-/
import proofs.«414405_j2654289789699_3_alg».proof.Proof.KI.Kit
import proofs.«414405_j2654289789699_3_alg».proof.Proof.KI.Arrays
import proofs.«414405_j2654289789699_3_alg».proof.Proof.Spec
import proofs.«414405_j2654289789699_3_alg».proof.Proof.LibClampIndex
import proofs.«414405_j2654289789699_3_alg».proof.Proof.LibSumIdx
import Idealize.ShloMosaic.Lib.IdealHost
import Idealize.ShloMosaic.Lib.ValueIdx
import Idealize.ShloMosaic.Lib.Pipeline.Value

set_option maxRecDepth 16384

noncomputable section

namespace Cert.KernelIdeal.HostValue

open Idealize.ShloMosaic Idealize.ShloMosaic.TcCoe Idealize.ShloMosaic.ValueIdx Idealize.ShloMosaic.StableHlo
open Cert.KernelIdeal Cert.KernelIdeal.Gen Cert.KernelIdeal.Hand
open scoped BigOperators

/-! ## The host operations' stages, as functions of their operands -/

section Stages
variable {F : FTy → Type} [FloatOps F]

/-- A scalar constant spread over the points' grid. -/
abbrev splatF (w : BitVec 32) : FVec F S8x4x512 .f32 := broadcastInDim S8x4x512 ![] Gen.bcast_S_S8x4x512 (constant S_ .f32 w)
abbrev splatI (w : BitVec 32) : IVec S8x4x512 32 := broadcastInDim S8x4x512 ![] Gen.bcast_S_S8x4x512 (constantI S_ 32 w)

/-- One coordinate column of the points, times 63. -/
def pix0F (P : FVec F S8x4x512x2 .f32) : FVec F S8x4x512 .f32 :=
  mulf (shapeCast S8x4x512 (extractStridedSlice S8x4x512x1 ![0, 0, 0, 0] P Gen.slices_S8x4x512x2_S8x4x512x1_0_0_0_0) Gen.shapeCasts_S8x4x512x1_S8x4x512)
    (splatF 0x427C0000#32)
def pix1F (P : FVec F S8x4x512x2 .f32) : FVec F S8x4x512 .f32 :=
  mulf (shapeCast S8x4x512 (extractStridedSlice S8x4x512x1 ![0, 0, 0, 1] P Gen.slices_S8x4x512x2_S8x4x512x1_0_0_0_1) Gen.shapeCasts_S8x4x512x1_S8x4x512)
    (splatF 0x427C0000#32)
/-- The fractional part. -/
def fracF (x : FVec F S8x4x512 .f32) : FVec F S8x4x512 .f32 := subf x (Host.floor x)
/-- Clipping into [0, 63], as the called function spells it. -/
def clipF (v : IVec S8x4x512 32) : IVec S8x4x512 32 :=
  minsi (broadcastInDim S8x4x512 ![] Gen.bcast_S_S8x4x512 (id (constantI S_ 32 63#32)))
    (maxsi (broadcastInDim S8x4x512 ![] Gen.bcast_S_S8x4x512 (id (constantI S_ 32 0#32))) v)
/-- The lower neighbour of a floored coordinate, and the upper neighbour of a lower one. -/
def loF (fl : FVec F S8x4x512 .f32) : IVec S8x4x512 32 := clipF (fptosi 32 fl)
def hiF (lo : IVec S8x4x512 32) : IVec S8x4x512 32 := clipF (addi lo (splatI 1#32))
/-- A pixel's row. -/
def flatF (y x : IVec S8x4x512 32) : IVec S8x4x512 32 := addi (muli y (splatI 64#32)) x
/-- The four corner weights, from the two fractional parts (axis 0's, axis 1's). -/
def w00F (f0 f1 : FVec F S8x4x512 .f32) : FVec F S8x4x512 .f32 :=
  mulf (mulf (subf (splatF 0x3F800000#32) f1) (subf (splatF 0x3F800000#32) f0)) (splatF 0x3E000000#32)
def w01F (f0 f1 : FVec F S8x4x512 .f32) : FVec F S8x4x512 .f32 :=
  mulf (mulf f1 (subf (splatF 0x3F800000#32) f0)) (splatF 0x3E000000#32)
def w10F (f0 f1 : FVec F S8x4x512 .f32) : FVec F S8x4x512 .f32 :=
  mulf (mulf (subf (splatF 0x3F800000#32) f1) f0) (splatF 0x3E000000#32)
def w11F (f0 f1 : FVec F S8x4x512 .f32) : FVec F S8x4x512 .f32 :=
  mulf (mulf f1 f0) (splatF 0x3E000000#32)
/-- The image number and the mask number of a point. -/
def bIdxA : IVec S8x4x512 32 :=
  broadcastInDim S8x4x512 ![0, 1, 2] Gen.bcast_S8x1x1_S8x4x512_0_1_2 (broadcastInDim S8x1x1 ![0] Gen.bcast_S8_S8x1x1_0 (iotaInDim S8 32 0))
def mmA : IVec S8x4x512 32 :=
  broadcastInDim S8x4x512 ![0, 1, 2] Gen.bcast_S1x4x1_S8x4x512_0_1_2 (broadcastInDim S1x4x1 ![1] Gen.bcast_S4_S1x4x1_1 (iotaInDim S4 32 0))
/-- The point number divided by eight, rounding down, as the called function spells it. -/
def fdivA : IVec S512 32 :=
  select
    (andi
      (cmpi .ne (signi (iotaInDim S512 32 0)) (broadcastInDim S512 ![] Gen.bcast_S_S512 (signi (id (constantI S_ 32 8#32)))))
      (cmpi .ne (Host.remsi (iotaInDim S512 32 0) (broadcastInDim S512 ![] Gen.bcast_S_S512 (id (constantI S_ 32 8#32))))
        (broadcastInDim S512 ![] Gen.bcast_S_S512 (constantI S_ 32 0#32))))
    (subi (Host.divsi (iotaInDim S512 32 0) (broadcastInDim S512 ![] Gen.bcast_S_S512 (id (constantI S_ 32 8#32))))
      (broadcastInDim S512 ![] Gen.bcast_S_S512 (constantI S_ 32 1#32)))
    (Host.divsi (iotaInDim S512 32 0) (broadcastInDim S512 ![] Gen.bcast_S_S512 (id (constantI S_ 32 8#32))))
/-- A point's output row: 64 · mask + point / 8. -/
def rowF (mm : IVec S8x4x512 32) (fd : IVec S512 32) : IVec S8x4x512 32 :=
  addi (muli mm (splatI 64#32))
    (broadcastInDim S8x4x512 ![0, 1, 2] Gen.bcast_S1x1x512_S8x4x512_0_1_2 (broadcastInDim S1x1x512 ![2] Gen.bcast_S512_S1x1x512_2 fd))
/-- The negative-index normalisation: add the extent where the index is negative. -/
def normF (ext : BitVec 32) (x : IVec S8x4x512 32) : IVec S8x4x512 32 :=
  select (cmpi .slt x (splatI 0#32)) (addi x (splatI ext)) x
/-- The index triples (image, output row, pixel row) of a scatter. -/
def idxF (b r i : IVec S8x4x512 32) : IVec S8x4x512x3 32 :=
  concatenate S8x4x512x3 3
    [⟨S8x4x512x1, broadcastInDim S8x4x512x1 ![0, 1, 2] Gen.bcast_S8x4x512_S8x4x512x1_0_1_2 (normF 8#32 b)⟩,
     ⟨S8x4x512x1, broadcastInDim S8x4x512x1 ![0, 1, 2] Gen.bcast_S8x4x512_S8x4x512x1_0_1_2 (normF 256#32 r)⟩,
     ⟨S8x4x512x1, broadcastInDim S8x4x512x1 ![0, 1, 2] Gen.bcast_S8x4x512_S8x4x512x1_0_1_2 (normF 4096#32 i)⟩]
    Gen.concatenates_S8x4x512x1_S8x4x512x1_S8x4x512x1_S8x4x512x3_d3
/-- One corner added into the weight matrix. -/
def scatF (x : FVec F S8x256x4096 .f32) (b r i : IVec S8x4x512 32) (u : FVec F S8x4x512 .f32) : FVec F S8x256x4096 .f32 :=
  Host.scatterAdd scatter_S8x256x4096_S8x4x512x3_S8x4x512_n_012_012_3 x (idxF b r i) u
/-- The weight matrix: zero, the four corners added, the format changed. -/
def matF (b mm : IVec S8x4x512 32) (fd : IVec S512 32) (i00 i01 i10 i11 : IVec S8x4x512 32) (w00 w01 w10 w11 : FVec F S8x4x512 .f32) :
    FVec F S8x256x4096 .bf16 :=
  truncf .bf16
    (scatF (scatF (scatF (scatF (broadcastInDim S8x256x4096 ![] Gen.bcast_S_S8x256x4096 (constant S_ .f32 0x00000000#32))
      b (rowF mm fd) i00 w00) b (rowF mm fd) i01 w01) b (rowF mm fd) i10 w10) b (rowF mm fd) i11 w11)
    Gen.bitsLt_bf16_f32

end Stages

section MatA
variable {F : FTy → Type} [FloatOps F]
/-- The weight matrix as a function of the points alone. -/
def matA (P : FVec F S8x4x512x2 .f32) : FVec F S8x256x4096 .bf16 :=
  matF bIdxA mmA fdivA
    (flatF (loF (Host.floor (pix0F P))) (loF (Host.floor (pix1F P))))
    (flatF (loF (Host.floor (pix0F P))) (hiF (loF (Host.floor (pix1F P)))))
    (flatF (hiF (loF (Host.floor (pix0F P)))) (loF (Host.floor (pix1F P))))
    (flatF (hiF (loF (Host.floor (pix0F P)))) (hiF (loF (Host.floor (pix1F P)))))
    (w00F (fracF (pix0F P)) (fracF (pix1F P))) (w01F (fracF (pix0F P)) (fracF (pix1F P)))
    (w10F (fracF (pix0F P)) (fracF (pix1F P))) (w11F (fracF (pix0F P)) (fracF (pix1F P)))
end MatA

/-! ## The stages read at a point, at the ideal instance -/

section Reads

/-- A scatter's update index lands at an operand index exactly when, on every axis, the start plus the window
    coordinate is that index's coordinate. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split
  · next h =>
    constructor
    · intro e a
      have e' := Option.some.inj e
      have := congrFun e' a
      rw [← this]
      exact (Int.toNat_of_nonneg (h a).1).symm
    · intro hall
      refine congrArg some (funext fun a => Fin.ext ?_)
      show (d.start j idx a + (d.window j a : ℤ)).toNat = (i a).val
      rw [hall a]; exact Int.toNat_natCast _
  · next h =>
    constructor
    · intro e; exact absurd e (by simp)
    · intro hall
      exact absurd (fun a => by rw [hall a]; exact ⟨Int.natCast_nonneg _, by exact_mod_cast (i a).isLt⟩) h

abbrev dS := scatter_S8x256x4096_S8x4x512x3_S8x4x512_n_012_012_3

theorem dS_window (j : S8x4x512.Idx) (a : Fin 3) : dS.window j a = 0 := by
  have hk : dS.sKept = [] := by decide
  unfold ScatterDims.window
  split
  · next ha => exact absurd ha (by rw [hk]; exact List.not_mem_nil)
  · rfl

theorem dS_start (b : Fin 8) (mm : Fin 4) (p : Fin 512) (idx : IVec S8x4x512x3 32) (a : Fin 3) :
    dS.start (ix3 b mm p) idx a = (idx (ix4 b mm p a)).toInt := by
  unfold ScatterDims.start
  fin_cases a
  · rw [dif_pos (by decide)]; congr 2; funext q; fin_cases q <;> rfl
  · rw [dif_pos (by decide)]; congr 2; funext q; fin_cases q <;> rfl
  · rw [dif_pos (by decide)]; congr 2; funext q; fin_cases q <;> rfl

end Reads

section IdealReads

open Cert.Spec

variable (P : FVec Ideal S8x4x512x2 .f32)

/-- A coordinate column of the points, reshaped, read at a point. -/
theorem col_apply (k : Fin 2) (off : Fin 4 → Nat) (hoff : off = ![0, 0, 0, k.val])
    (hs : S8x4x512x2.Slices off S8x4x512x1) (hc : S8x4x512x1.ShapeCasts S8x4x512) (b : Fin 8) (mm : Fin 4) (p : Fin 512) :
    shapeCast S8x4x512 (extractStridedSlice S8x4x512x1 off P hs) hc (ix3 b mm p) = P (ix4 b mm p k) := by
  subst hoff
  rw [shapeCast_apply _ hc (ix3 b mm p) (ix4 b mm p (0 : Fin 1)) (by
    rw [Shape.rowMajor_val_four, Shape.rowMajor_val_three]
    show ((b.val * 4 + mm.val) * 512 + p.val) * 1 + 0 = (b.val * 4 + mm.val) * 512 + p.val
    omega)]
  exact extractStridedSlice_apply _ P hs _ (ix4 b mm p k) (by
    intro a; fin_cases a
    · show b.val = 0 + b.val; omega
    · show mm.val = 0 + mm.val; omega
    · show p.val = 0 + p.val; omega
    · show k.val = k.val + 0; omega)

theorem pix0F_apply (b : Fin 8) (mm : Fin 4) (p : Fin 512) : pix0F P (ix3 b mm p) = pix P 0 b mm p := by
  unfold pix0F pix sixtyThree
  rw [mulf_apply, col_apply P 0 ![0, 0, 0, 0] rfl]
  rfl
theorem pix1F_apply (b : Fin 8) (mm : Fin 4) (p : Fin 512) : pix1F P (ix3 b mm p) = pix P 1 b mm p := by
  unfold pix1F pix sixtyThree
  rw [mulf_apply, col_apply P 1 ![0, 0, 0, 1] rfl]
  rfl

/-- The floors, the fractional parts, the neighbours. -/
theorem flo0_apply (b : Fin 8) (mm : Fin 4) (p : Fin 512) : Host.floor (pix0F P) (ix3 b mm p) = flo P 0 b mm p := by
  show Ideal.liftRound Int.floor (pix0F P (ix3 b mm p)) = _
  rw [pix0F_apply]; rfl
theorem flo1_apply (b : Fin 8) (mm : Fin 4) (p : Fin 512) : Host.floor (pix1F P) (ix3 b mm p) = flo P 1 b mm p := by
  show Ideal.liftRound Int.floor (pix1F P (ix3 b mm p)) = _
  rw [pix1F_apply]; rfl
theorem frac0_apply (b : Fin 8) (mm : Fin 4) (p : Fin 512) : fracF (pix0F P) (ix3 b mm p) = frac P 0 b mm p := by
  show pix0F P (ix3 b mm p) - Host.floor (pix0F P) (ix3 b mm p) = _
  rw [pix0F_apply, flo0_apply]; rfl
theorem frac1_apply (b : Fin 8) (mm : Fin 4) (p : Fin 512) : fracF (pix1F P) (ix3 b mm p) = frac P 1 b mm p := by
  show pix1F P (ix3 b mm p) - Host.floor (pix1F P) (ix3 b mm p) = _
  rw [pix1F_apply, flo1_apply]; rfl
theorem lo0_apply (b : Fin 8) (mm : Fin 4) (p : Fin 512) : loF (Host.floor (pix0F P)) (ix3 b mm p) = lo P 0 b mm p := by
  show clip63 (Ideal.fptosi 32 (Host.floor (pix0F P) (ix3 b mm p))) = _
  rw [flo0_apply]; rfl
theorem lo1_apply (b : Fin 8) (mm : Fin 4) (p : Fin 512) : loF (Host.floor (pix1F P)) (ix3 b mm p) = lo P 1 b mm p := by
  show clip63 (Ideal.fptosi 32 (Host.floor (pix1F P) (ix3 b mm p))) = _
  rw [flo1_apply]; rfl
theorem hi0_apply (b : Fin 8) (mm : Fin 4) (p : Fin 512) : hiF (loF (Host.floor (pix0F P))) (ix3 b mm p) = hi P 0 b mm p := by
  show clip63 (IntOp.addi (loF (Host.floor (pix0F P)) (ix3 b mm p)) 1#32) = _
  rw [lo0_apply]; rfl
theorem hi1_apply (b : Fin 8) (mm : Fin 4) (p : Fin 512) : hiF (loF (Host.floor (pix1F P))) (ix3 b mm p) = hi P 1 b mm p := by
  show clip63 (IntOp.addi (loF (Host.floor (pix1F P)) (ix3 b mm p)) 1#32) = _
  rw [lo1_apply]; rfl

/-- The four corner rows. -/
theorem i00_apply (b : Fin 8) (mm : Fin 4) (p : Fin 512) :
    flatF (loF (Host.floor (pix0F P))) (loF (Host.floor (pix1F P))) (ix3 b mm p) = i00 P b mm p := by
  show flat (loF (Host.floor (pix0F P)) (ix3 b mm p)) (loF (Host.floor (pix1F P)) (ix3 b mm p)) = _
  rw [lo0_apply, lo1_apply]; rfl
theorem i01_apply (b : Fin 8) (mm : Fin 4) (p : Fin 512) :
    flatF (loF (Host.floor (pix0F P))) (hiF (loF (Host.floor (pix1F P)))) (ix3 b mm p) = i01 P b mm p := by
  show flat (loF (Host.floor (pix0F P)) (ix3 b mm p)) (hiF (loF (Host.floor (pix1F P))) (ix3 b mm p)) = _
  rw [lo0_apply, hi1_apply]; rfl
theorem i10_apply (b : Fin 8) (mm : Fin 4) (p : Fin 512) :
    flatF (hiF (loF (Host.floor (pix0F P)))) (loF (Host.floor (pix1F P))) (ix3 b mm p) = i10 P b mm p := by
  show flat (hiF (loF (Host.floor (pix0F P))) (ix3 b mm p)) (loF (Host.floor (pix1F P)) (ix3 b mm p)) = _
  rw [hi0_apply, lo1_apply]; rfl
theorem i11_apply (b : Fin 8) (mm : Fin 4) (p : Fin 512) :
    flatF (hiF (loF (Host.floor (pix0F P)))) (hiF (loF (Host.floor (pix1F P)))) (ix3 b mm p) = i11 P b mm p := by
  show flat (hiF (loF (Host.floor (pix0F P))) (ix3 b mm p)) (hiF (loF (Host.floor (pix1F P))) (ix3 b mm p)) = _
  rw [hi0_apply, hi1_apply]; rfl

/-- The four corner weights. -/
theorem w00_apply (b : Fin 8) (mm : Fin 4) (p : Fin 512) :
    w00F (fracF (pix0F P)) (fracF (pix1F P)) (ix3 b mm p) = w00 P b mm p := by
  show (one - fracF (pix1F P) (ix3 b mm p)) * (one - fracF (pix0F P) (ix3 b mm p)) * eighth = _
  rw [frac0_apply, frac1_apply]; rfl
theorem w01_apply (b : Fin 8) (mm : Fin 4) (p : Fin 512) :
    w01F (fracF (pix0F P)) (fracF (pix1F P)) (ix3 b mm p) = w01 P b mm p := by
  show fracF (pix1F P) (ix3 b mm p) * (one - fracF (pix0F P) (ix3 b mm p)) * eighth = _
  rw [frac0_apply, frac1_apply]; rfl
theorem w10_apply (b : Fin 8) (mm : Fin 4) (p : Fin 512) :
    w10F (fracF (pix0F P)) (fracF (pix1F P)) (ix3 b mm p) = w10 P b mm p := by
  show (one - fracF (pix1F P) (ix3 b mm p)) * fracF (pix0F P) (ix3 b mm p) * eighth = _
  rw [frac0_apply, frac1_apply]; rfl
theorem w11_apply (b : Fin 8) (mm : Fin 4) (p : Fin 512) :
    w11F (fracF (pix0F P)) (fracF (pix1F P)) (ix3 b mm p) = w11 P b mm p := by
  show fracF (pix1F P) (ix3 b mm p) * fracF (pix0F P) (ix3 b mm p) * eighth = _
  rw [frac0_apply, frac1_apply]; rfl

end IdealReads

section IndexReads

/-- The image number, the mask number. -/
theorem bIdxA_apply (b : Fin 8) (mm : Fin 4) (p : Fin 512) : bIdxA (ix3 b mm p) = BitVec.ofNat 32 b.val := by
  unfold bIdxA
  rw [broadcastInDim_apply _ _ _ (ix3 b mm p) (ix3 b (0 : Fin 1) (0 : Fin 1)) (by intro a; fin_cases a <;> rfl),
    broadcastInDim_apply _ _ _ (ix3 b (0 : Fin 1) (0 : Fin 1)) (ix1 b) (by intro a; fin_cases a; rfl)]
  rfl
theorem mmA_apply (b : Fin 8) (mm : Fin 4) (p : Fin 512) : mmA (ix3 b mm p) = BitVec.ofNat 32 mm.val := by
  unfold mmA
  rw [broadcastInDim_apply _ _ _ (ix3 b mm p) (ix3 (0 : Fin 1) mm (0 : Fin 1)) (by intro a; fin_cases a <;> rfl),
    broadcastInDim_apply _ _ _ (ix3 (0 : Fin 1) mm (0 : Fin 1)) (ix1 mm) (by intro a; fin_cases a; rfl)]
  rfl

/-- The rounding-down division of a point number by eight is the plain quotient. -/
theorem fdivA_apply : ∀ p : Fin 512, fdivA (ix1 p) = BitVec.ofNat 32 (p.val / 8) := by decide +kernel

/-- A point's output row, as a word … -/
theorem rowF_apply (b : Fin 8) (mm : Fin 4) (p : Fin 512) :
    rowF mmA fdivA (ix3 b mm p) = IntOp.addi (IntOp.muli (BitVec.ofNat 32 mm.val) 64#32) (BitVec.ofNat 32 (p.val / 8)) := by
  unfold rowF
  show IntOp.addi (IntOp.muli (mmA (ix3 b mm p)) 64#32) _ = _
  rw [mmA_apply,
    broadcastInDim_apply _ _ _ (ix3 b mm p) (ix3 (0 : Fin 1) (0 : Fin 1) p) (by intro a; fin_cases a <;> rfl),
    broadcastInDim_apply _ _ _ (ix3 (0 : Fin 1) (0 : Fin 1) p) (ix1 p) (by intro a; fin_cases a; rfl),
    fdivA_apply]
/-- … and as a number. -/
theorem row_toInt : ∀ (mm : Fin 4) (p : Fin 512),
    (IntOp.addi (IntOp.muli (BitVec.ofNat 32 mm.val) 64#32) (BitVec.ofNat 32 (p.val / 8))).toInt = ((mm.val * 64 + p.val / 8 : ℕ) : ℤ) := by
  decide +kernel
theorem img_toInt : ∀ b : Fin 8, (BitVec.ofNat 32 b.val).toInt = ((b.val : ℕ) : ℤ) := by decide +kernel

/-- The normalisation leaves a non-negative index alone. -/
theorem normF_apply (ext : BitVec 32) (x : IVec S8x4x512 32) (j : S8x4x512.Idx) (h : 0 ≤ (x j).toInt) : normF ext x j = x j :=
  Cert.Lib.ClampIndex.norm_id (x j) ext h

/-- The index triples, read column by column. -/
theorem idxF_apply (bI r i : IVec S8x4x512 32) (b : Fin 8) (mm : Fin 4) (p : Fin 512) :
    idxF bI r i (ix4 b mm p (0 : Fin 3)) = normF 8#32 bI (ix3 b mm p)
    ∧ idxF bI r i (ix4 b mm p (1 : Fin 3)) = normF 256#32 r (ix3 b mm p)
    ∧ idxF bI r i (ix4 b mm p (2 : Fin 3)) = normF 4096#32 i (ix3 b mm p) := by
  have hb : ∀ x : IVec S8x4x512 32, broadcastInDim S8x4x512x1 ![0, 1, 2] Gen.bcast_S8x4x512_S8x4x512x1_0_1_2 x (ix4 b mm p (0 : Fin 1)) = x (ix3 b mm p) :=
    fun x => broadcastInDim_apply _ _ x _ (ix3 b mm p) (by intro a; fin_cases a <;> rfl)
  have hc : ∀ (k : Fin 3) (A B C : S8x4x512x1.Idx → BitVec 32),
      concatenate S8x4x512x3 3 [⟨S8x4x512x1, A⟩, ⟨S8x4x512x1, B⟩, ⟨S8x4x512x1, C⟩]
          Gen.concatenates_S8x4x512x1_S8x4x512x1_S8x4x512x1_S8x4x512x3_d3 (ix4 b mm p k)
        = (![A, B, C] : Fin 3 → S8x4x512x1.Idx → BitVec 32) k (ix4 b mm p (0 : Fin 1)) := fun k A B C =>
    concatenate_ofFn_apply (t := S8x4x512x3) (s₁ := S8x4x512x1) (3 : Fin 4) (![A, B, C] : Fin 3 → S8x4x512x1.Idx → BitVec 32)
      Gen.concatenates_S8x4x512x1_S8x4x512x1_S8x4x512x1_S8x4x512x3_d3 rfl 1 rfl (ix4 b mm p k) k (Nat.div_one _)
      (ix4 b mm p (0 : Fin 1)) (Nat.mod_one _).symm (by
        intro q hq; fin_cases q
        · rfl
        · rfl
        · rfl
        · exact absurd rfl hq)
  unfold idxF
  refine ⟨?_, ?_, ?_⟩
  · rw [hc 0]; exact hb (normF 8#32 bI)
  · rw [hc 1]; exact hb (normF 256#32 r)
  · rw [hc 2]; exact hb (normF 4096#32 i)

end IndexReads

section Matrix

open Cert.Spec Cert.Lib.ClampIndex

/-- A clipped coordinate, read signed, is in [0, 63]. -/
theorem clip63_range (v : BitVec 32) : 0 ≤ (clip63 v).toInt ∧ (clip63 v).toInt ≤ 63 := by
  have h0 : (0#32 : BitVec 32).toInt = 0 := by decide
  have h63 : (63#32 : BitVec 32).toInt = 63 := by decide
  have hmax : 0 ≤ (IntOp.maxsi 0#32 v).toInt := by
    unfold IntOp.maxsi
    by_cases h : v.slt 0#32 = true
    · rw [if_pos h, h0]
    · rw [if_neg h]
      rw [BitVec.slt_eq_decide, decide_eq_true_eq, h0] at h
      omega
  show 0 ≤ (IntOp.minsi 63#32 (IntOp.maxsi 0#32 v)).toInt ∧ (IntOp.minsi 63#32 (IntOp.maxsi 0#32 v)).toInt ≤ 63
  generalize IntOp.maxsi 0#32 v = w at hmax
  unfold IntOp.minsi
  by_cases h : (63#32 : BitVec 32).slt w = true
  · rw [if_pos h, h63]; omega
  · rw [if_neg h]
    rw [BitVec.slt_eq_decide, decide_eq_true_eq, h63] at h
    omega

/-- A pixel's row, of coordinates in [0, 63], does not wrap and is not negative. -/
theorem flat_nonneg (y x : BitVec 32) (hy : 0 ≤ y.toInt ∧ y.toInt ≤ 63) (hx : 0 ≤ x.toInt ∧ x.toInt ≤ 63) : 0 ≤ (flat y x).toInt := by
  have h64 : (64#32 : BitVec 32).toInt = 64 := by decide
  unfold flat IntOp.addi IntOp.muli
  have hm : (y * 64#32).toInt = y.toInt * 64 := by
    rw [toInt_mul_of_fits _ _ (by rw [h64]; omega) (by rw [h64]; omega), h64]
  rw [toInt_add_of_fits _ _ (by rw [hm]; omega) (by rw [hm]; omega), hm]; omega

variable (P : FVec Ideal S8x4x512x2 .f32)

theorem i00_nonneg (b : Fin 8) (mm : Fin 4) (p : Fin 512) : 0 ≤ (i00 P b mm p).toInt := flat_nonneg _ _ (clip63_range _) (clip63_range _)
theorem i01_nonneg (b : Fin 8) (mm : Fin 4) (p : Fin 512) : 0 ≤ (i01 P b mm p).toInt := flat_nonneg _ _ (clip63_range _) (clip63_range _)
theorem i10_nonneg (b : Fin 8) (mm : Fin 4) (p : Fin 512) : 0 ≤ (i10 P b mm p).toInt := flat_nonneg _ _ (clip63_range _) (clip63_range _)
theorem i11_nonneg (b : Fin 8) (mm : Fin 4) (p : Fin 512) : 0 ≤ (i11 P b mm p).toInt := flat_nonneg _ _ (clip63_range _) (clip63_range _)

/-- Where an update lands: update (b', mm, p) lands at (b, r, l) exactly when b' = b, its output row is r and its
    corner row is l. -/
theorem lands_iff (iκ : IVec S8x4x512 32) (iS : Fin 8 → Fin 4 → Fin 512 → BitVec 32)
    (hi : ∀ b mm p, iκ (ix3 b mm p) = iS b mm p) (hnn : ∀ b mm p, 0 ≤ (iS b mm p).toInt)
    (b : Fin 8) (r : Fin 256) (l : Fin 4096) (b' : Fin 8) (mm : Fin 4) (p : Fin 512) :
    dS.resultIdx? (ix3 b' mm p) (idxF bIdxA (rowF mmA fdivA) iκ) = some (ix3 b r l)
      ↔ b' = b ∧ (mm.val * 64 + p.val / 8 = r.val ∧ (iS b' mm p).toInt = (l.val : ℤ)) := by
  rw [resultIdx?_eq_some_iff]
  obtain ⟨e0, e1, e2⟩ := idxF_apply bIdxA (rowF mmA fdivA) iκ b' mm p
  have c0 : (idxF bIdxA (rowF mmA fdivA) iκ (ix4 b' mm p (0 : Fin 3))).toInt = ((b'.val : ℕ) : ℤ) := by
    rw [e0, normF_apply _ _ _ (by rw [bIdxA_apply, img_toInt]; omega), bIdxA_apply, img_toInt]
  have c1 : (idxF bIdxA (rowF mmA fdivA) iκ (ix4 b' mm p (1 : Fin 3))).toInt = ((mm.val * 64 + p.val / 8 : ℕ) : ℤ) := by
    rw [e1, normF_apply _ _ _ (by rw [rowF_apply, row_toInt]; omega), rowF_apply, row_toInt]
  have c2 : (idxF bIdxA (rowF mmA fdivA) iκ (ix4 b' mm p (2 : Fin 3))).toInt = (iS b' mm p).toInt := by
    rw [e2, normF_apply _ _ _ (by rw [hi]; exact hnn _ _ _), hi]
  constructor
  · intro h
    have h0 := h (0 : Fin 3); have h1 := h (1 : Fin 3); have h2 := h (2 : Fin 3)
    rw [dS_start, dS_window] at h0 h1 h2
    rw [c0] at h0; rw [c1] at h1; rw [c2] at h2
    have g0 : ((b'.val : ℕ) : ℤ) + ((0 : ℕ) : ℤ) = ((b.val : ℕ) : ℤ) := h0
    have g1 : ((mm.val * 64 + p.val / 8 : ℕ) : ℤ) + ((0 : ℕ) : ℤ) = ((r.val : ℕ) : ℤ) := h1
    have g2 : (iS b' mm p).toInt + ((0 : ℕ) : ℤ) = ((l.val : ℕ) : ℤ) := h2
    refine ⟨Fin.ext (by omega), by omega, by omega⟩
  · rintro ⟨hb, hr, hl⟩ a
    fin_cases a
    · show dS.start (ix3 b' mm p) _ (0 : Fin 3) + ((dS.window (ix3 b' mm p) (0 : Fin 3) : ℕ) : ℤ) = ((b.val : ℕ) : ℤ)
      rw [dS_start, dS_window, c0, hb]; omega
    · show dS.start (ix3 b' mm p) _ (1 : Fin 3) + ((dS.window (ix3 b' mm p) (1 : Fin 3) : ℕ) : ℤ) = ((r.val : ℕ) : ℤ)
      rw [dS_start, dS_window, c1]; omega
    · show dS.start (ix3 b' mm p) _ (2 : Fin 3) + ((dS.window (ix3 b' mm p) (2 : Fin 3) : ℕ) : ℤ) = ((l.val : ℕ) : ℤ)
      rw [dS_start, dS_window, c2, hl]; omega

/-- One corner added into the matrix, read at an entry: what was there plus the corner's sum. -/
theorem scat_read (x : FVec Ideal S8x256x4096 .f32) (iκ : IVec S8x4x512 32) (u : FVec Ideal S8x4x512 .f32)
    (iS : Fin 8 → Fin 4 → Fin 512 → BitVec 32) (wS : Fin 8 → Fin 4 → Fin 512 → EReal)
    (hi : ∀ b mm p, iκ (ix3 b mm p) = iS b mm p) (hu : ∀ b mm p, u (ix3 b mm p) = wS b mm p)
    (hnn : ∀ b mm p, 0 ≤ (iS b mm p).toInt) (b : Fin 8) (r : Fin 256) (l : Fin 4096) :
    scatF x bIdxA (rowF mmA fdivA) iκ u (ix3 b r l) = x (ix3 b r l) + corner wS iS b r l := by
  have e : scatF x bIdxA (rowF mmA fdivA) iκ u (ix3 b r l)
      = x (ix3 b r l) + ∑ j ∈ Finset.univ.filter (fun j => dS.resultIdx? j (idxF bIdxA (rowF mmA fdivA) iκ) = some (ix3 b r l)), u j := rfl
  rw [e]
  refine congrArg (fun z => x (ix3 b r l) + z) ?_
  unfold corner
  rw [Finset.sum_filter, Cert.LibSumIdx.sum_idx3, Finset.sum_filter, Fintype.sum_prod_type, Finset.sum_eq_single b]
  · refine Finset.sum_congr rfl fun mm _ => Finset.sum_congr rfl fun p _ => ?_
    rw [hu]
    refine if_congr ((lands_iff iκ iS hi hnn b r l b mm p).trans ?_) rfl rfl
    exact ⟨fun h => h.2, fun h => ⟨rfl, h⟩⟩
  · intro b' _ hne
    refine Finset.sum_eq_zero fun mm _ => Finset.sum_eq_zero fun p _ => ?_
    rw [if_neg]
    intro h
    exact hne ((lands_iff iκ iS hi hnn b r l b' mm p).mp h).1
  · intro h; exact absurd (Finset.mem_univ b) h

/-- The weight matrix of the points, read at an entry. -/
theorem matA_apply (b : Fin 8) (r : Fin 256) (l : Fin 4096) : matA P (ix3 b r l) = wd P b r l := by
  unfold matA matF wd
  rw [truncf_apply,
    scat_read _ _ _ (i11 P) (w11 P) (i11_apply P) (w11_apply P) (i11_nonneg P),
    scat_read _ _ _ (i10 P) (w10 P) (i10_apply P) (w10_apply P) (i10_nonneg P),
    scat_read _ _ _ (i01 P) (w01 P) (i01_apply P) (w01_apply P) (i01_nonneg P),
    scat_read _ _ _ (i00 P) (w00 P) (i00_apply P) (w00_apply P) (i00_nonneg P)]
  rfl

end Matrix

section Chain
variable {F : FTy → Type} [FloatOps F]

macro "open_trefs" : tactic => `(tactic| (try simp only [TRef.ofBuf, TRef.toBuf, cast_eq]))

/-- An operation over a literal family of three references: its result with each operand's contents at its own reference. -/
theorem nary3_result' {Val : EltTy → Type} {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [nary_result]; congr 1; funext k; fin_cases k <;> rfl

/-- The results of a stretch by one pass, a three-piece concatenate's operands included. -/
macro "stretch_results" : tactic =>
  `(tactic| (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne']))

/-! ### What each group of stretches computes, from any contents -/

/-- The first stretch and the first clip: the two fractional parts, axis 1's floor, axis 0's lower neighbour. -/
theorem g1_v10 (W : Valuation τ sig (Elt F)) :
    after (hostOps0 (F := F) ++ hostOps0_1) W (Proc.devRef .tc main_v10) = fracF (pix0F (W (Proc.devRef .tc main_arg1))) := by
  simp only [hostOps0, hostOps0_1, List.cons_append, List.nil_append]
  after_results_simp <;> open_trefs <;> rfl
theorem g1_v11 (W : Valuation τ sig (Elt F)) :
    after (hostOps0 (F := F) ++ hostOps0_1) W (Proc.devRef .tc main_v11) = fracF (pix1F (W (Proc.devRef .tc main_arg1))) := by
  simp only [hostOps0, hostOps0_1, List.cons_append, List.nil_append]
  after_results_simp <;> open_trefs <;> rfl
theorem g1_v9 (W : Valuation τ sig (Elt F)) :
    after (hostOps0 (F := F) ++ hostOps0_1) W (Proc.devRef .tc main_v9) = Host.floor (pix1F (W (Proc.devRef .tc main_arg1))) := by
  simp only [hostOps0, hostOps0_1, List.cons_append, List.nil_append]
  after_results_simp <;> open_trefs <;> rfl
theorem g1_v13 (W : Valuation τ sig (Elt F)) :
    after (hostOps0 (F := F) ++ hostOps0_1) W (Proc.devRef .tc main_v13) = loF (Host.floor (pix0F (W (Proc.devRef .tc main_arg1)))) := by
  simp only [hostOps0, hostOps0_1, List.cons_append, List.nil_append]
  after_results_simp <;> open_trefs <;> rfl

/-- The second clip: axis 1's lower neighbour. -/
theorem g2_v15 (W : Valuation τ sig (Elt F)) :
    after (hostOps0_2 (F := F) ++ hostOps0_3) W (Proc.devRef .tc main_v15) = loF (W (Proc.devRef .tc main_v9)) := by
  simp only [hostOps0_2, hostOps0_3, List.cons_append, List.nil_append]
  after_results_simp <;> open_trefs <;> rfl
/-- The third: axis 0's upper neighbour. -/
theorem g3_v18 (W : Valuation τ sig (Elt F)) :
    after (hostOps0_4 (F := F) ++ hostOps0_5) W (Proc.devRef .tc main_v18) = hiF (W (Proc.devRef .tc main_v13)) := by
  simp only [hostOps0_4, hostOps0_5, List.cons_append, List.nil_append]
  after_results_simp <;> open_trefs <;> rfl
/-- The fourth: axis 1's upper neighbour. -/
theorem g4_v21 (W : Valuation τ sig (Elt F)) :
    after (hostOps0_6 (F := F) ++ hostOps0_7) W (Proc.devRef .tc main_v21) = hiF (W (Proc.devRef .tc main_v15)) := by
  simp only [hostOps0_6, hostOps0_7, List.cons_append, List.nil_append]
  after_results_simp <;> open_trefs <;> rfl

/-- What those three stretches leave alone. -/
theorem g2_keep {r : Ref sig .tc} (W : Valuation τ sig (Elt F))
    (hr : r ∉ [main_v14, main_c_2, main_c_3, main_call1_v0, main_call1_v1, main_call1_v2, main_call1_v3, main_call1_v4, main_v15]) :
    after (hostOps0_2 (F := F) ++ hostOps0_3) W (Proc.devRef .tc r) = W (Proc.devRef .tc r) :=
  after_of_writes_sub _ W (by
    simp only [hostOps0_2, hostOps0_3, List.cons_append, List.nil_append, List.Forall, nullary_writes, unary_writes, binary_writes, TRef.unary, TRef.binary]
    decide) hr

theorem g3_keep {r : Ref sig .tc} (W : Valuation τ sig (Elt F))
    (hr : r ∉ [main_c_4, main_v16, main_v17, main_c_5, main_c_6, main_call2_v0, main_call2_v1, main_call2_v2, main_call2_v3, main_call2_v4, main_v18]) :
    after (hostOps0_4 (F := F) ++ hostOps0_5) W (Proc.devRef .tc r) = W (Proc.devRef .tc r) :=
  after_of_writes_sub _ W (by
    simp only [hostOps0_4, hostOps0_5, List.cons_append, List.nil_append, List.Forall, nullary_writes, unary_writes, binary_writes, TRef.unary, TRef.binary]
    decide) hr
theorem g4_keep {r : Ref sig .tc} (W : Valuation τ sig (Elt F))
    (hr : r ∉ [main_c_7, main_v19, main_v20, main_c_8, main_c_9, main_call3_v0, main_call3_v1, main_call3_v2, main_call3_v3, main_call3_v4, main_v21]) :
    after (hostOps0_6 (F := F) ++ hostOps0_7) W (Proc.devRef .tc r) = W (Proc.devRef .tc r) :=
  after_of_writes_sub _ W (by
    simp only [hostOps0_6, hostOps0_7, List.cons_append, List.nil_append, List.Forall, nullary_writes, unary_writes, binary_writes, TRef.unary, TRef.binary]
    decide) hr

/-- The long stretch and the division: the four weights, the four corner rows, the image and mask numbers, the point
    number over eight. -/
theorem g5_v28 (W : Valuation τ sig (Elt F)) :
    after (hostOps0_8 (F := F) ++ hostOps0_9) W (Proc.devRef .tc main_v28)
      = w00F (W (Proc.devRef .tc main_v10)) (W (Proc.devRef .tc main_v11)) := by
  simp only [hostOps0_8, hostOps0_9, List.cons_append, List.nil_append]
  after_results_simp <;> open_trefs <;> rfl
theorem g5_v33 (W : Valuation τ sig (Elt F)) :
    after (hostOps0_8 (F := F) ++ hostOps0_9) W (Proc.devRef .tc main_v33)
      = w01F (W (Proc.devRef .tc main_v10)) (W (Proc.devRef .tc main_v11)) := by
  simp only [hostOps0_8, hostOps0_9, List.cons_append, List.nil_append]
  after_results_simp <;> open_trefs <;> rfl
theorem g5_v38 (W : Valuation τ sig (Elt F)) :
    after (hostOps0_8 (F := F) ++ hostOps0_9) W (Proc.devRef .tc main_v38)
      = w10F (W (Proc.devRef .tc main_v10)) (W (Proc.devRef .tc main_v11)) := by
  simp only [hostOps0_8, hostOps0_9, List.cons_append, List.nil_append]
  after_results_simp <;> open_trefs <;> rfl
theorem g5_v41 (W : Valuation τ sig (Elt F)) :
    after (hostOps0_8 (F := F) ++ hostOps0_9) W (Proc.devRef .tc main_v41)
      = w11F (W (Proc.devRef .tc main_v10)) (W (Proc.devRef .tc main_v11)) := by
  simp only [hostOps0_8, hostOps0_9, List.cons_append, List.nil_append]
  after_results_simp <;> open_trefs <;> rfl
theorem g5_v44 (W : Valuation τ sig (Elt F)) :
    after (hostOps0_8 (F := F) ++ hostOps0_9) W (Proc.devRef .tc main_v44)
      = flatF (W (Proc.devRef .tc main_v13)) (W (Proc.devRef .tc main_v15)) := by
  simp only [hostOps0_8, hostOps0_9, List.cons_append, List.nil_append]
  after_results_simp <;> open_trefs <;> rfl
theorem g5_v47 (W : Valuation τ sig (Elt F)) :
    after (hostOps0_8 (F := F) ++ hostOps0_9) W (Proc.devRef .tc main_v47)
      = flatF (W (Proc.devRef .tc main_v13)) (W (Proc.devRef .tc main_v21)) := by
  simp only [hostOps0_8, hostOps0_9, List.cons_append, List.nil_append]
  after_results_simp <;> open_trefs <;> rfl
theorem g5_v50 (W : Valuation τ sig (Elt F)) :
    after (hostOps0_8 (F := F) ++ hostOps0_9) W (Proc.devRef .tc main_v50)
      = flatF (W (Proc.devRef .tc main_v18)) (W (Proc.devRef .tc main_v15)) := by
  simp only [hostOps0_8, hostOps0_9, List.cons_append, List.nil_append]
  after_results_simp <;> open_trefs <;> rfl
theorem g5_v53 (W : Valuation τ sig (Elt F)) :
    after (hostOps0_8 (F := F) ++ hostOps0_9) W (Proc.devRef .tc main_v53)
      = flatF (W (Proc.devRef .tc main_v18)) (W (Proc.devRef .tc main_v21)) := by
  simp only [hostOps0_8, hostOps0_9, List.cons_append, List.nil_append]
  after_results_simp <;> open_trefs <;> rfl
theorem g5_v56 (W : Valuation τ sig (Elt F)) :
    after (hostOps0_8 (F := F) ++ hostOps0_9) W (Proc.devRef .tc main_v56) = bIdxA := by
  simp only [hostOps0_8, hostOps0_9, List.cons_append, List.nil_append]
  after_results_simp <;> open_trefs <;> rfl
theorem g5_v59 (W : Valuation τ sig (Elt F)) :
    after (hostOps0_8 (F := F) ++ hostOps0_9) W (Proc.devRef .tc main_v59) = mmA := by
  simp only [hostOps0_8, hostOps0_9, List.cons_append, List.nil_append]
  after_results_simp <;> open_trefs <;> rfl
theorem g5_v61 (W : Valuation τ sig (Elt F)) :
    after (hostOps0_8 (F := F) ++ hostOps0_9) W (Proc.devRef .tc main_v61) = fdivA := by
  simp only [hostOps0_8, hostOps0_9, List.cons_append, List.nil_append]
  after_results_simp <;> open_trefs <;> rfl

/-- No stretch before the last writes the feature map. -/
theorem g1_arg0 (W : Valuation τ sig (Elt F)) :
    after (hostOps0 (F := F) ++ hostOps0_1) W (Proc.devRef .tc main_arg0) = W (Proc.devRef .tc main_arg0) := by
  simp only [hostOps0, hostOps0_1, List.cons_append, List.nil_append]
  after_results_simp
theorem g5_arg0 (W : Valuation τ sig (Elt F)) :
    after (hostOps0_8 (F := F) ++ hostOps0_9) W (Proc.devRef .tc main_arg0) = W (Proc.devRef .tc main_arg0) := by
  simp only [hostOps0_8, hostOps0_9, List.cons_append, List.nil_append]
  after_results_simp

set_option maxHeartbeats 4000000 in
/-- The last stretch: the weight matrix, from the operands the earlier stretches left. -/
theorem g6_v148 (W : Valuation τ sig (Elt F)) :
    after (hostOps0_10 (F := F)) W (Proc.devRef .tc main_v148)
      = matF (W (Proc.devRef .tc main_v56)) (W (Proc.devRef .tc main_v59)) (W (Proc.devRef .tc main_v61))
          (W (Proc.devRef .tc main_v44)) (W (Proc.devRef .tc main_v47)) (W (Proc.devRef .tc main_v50)) (W (Proc.devRef .tc main_v53))
          (W (Proc.devRef .tc main_v28)) (W (Proc.devRef .tc main_v33)) (W (Proc.devRef .tc main_v38)) (W (Proc.devRef .tc main_v41)) := by
  simp only [hostOps0_10]
  stretch_results <;> rfl
set_option maxHeartbeats 4000000 in
/-- And the feature map in the matrix unit's format. -/
theorem g6_v149 (W : Valuation τ sig (Elt F)) :
    after (hostOps0_10 (F := F)) W (Proc.devRef .tc main_v149) = truncf .bf16 (W (Proc.devRef .tc main_arg0)) Gen.bitsLt_bf16_f32 := by
  simp only [hostOps0_10]
  stretch_results <;> rfl

/-! ### The contents between the groups, and at the region's entry -/

section Levels
variable (m : (ℓ : Loc nD τ sig) → Buf (Elt F) ℓ) (c : Dev nD)

/-- The launch contents, and the contents after each group of stretches. -/
def L0 : Valuation τ sig (Elt F) := fun b => m (c, b)
def L1 : Valuation τ sig (Elt F) := after (hostOps0 ++ hostOps0_1) (L0 m c)
def L2 : Valuation τ sig (Elt F) := after (hostOps0_2 ++ hostOps0_3) (L1 m c)
def L3 : Valuation τ sig (Elt F) := after (hostOps0_4 ++ hostOps0_5) (L2 m c)
def L4 : Valuation τ sig (Elt F) := after (hostOps0_6 ++ hostOps0_7) (L3 m c)
def L5 : Valuation τ sig (Elt F) := after (hostOps0_8 ++ hostOps0_9) (L4 m c)

/-- The region's entry contents are the last stretch's results from the fifth level. -/
theorem V0_eq : V0 (F := F) m c = after hostOps0_10 (L5 m c) := by
  unfold L5 L4 L3 L2 L1 L0
  show after (List.flatten preOps) (fun b => m (c, b)) = _
  simp only [preOps, List.flatten_cons, List.flatten_nil, List.append_nil, StableHlo.after_append]

/-- The points, as launched. -/
abbrev PT : FVec F S8x4x512x2 .f32 := m ((c : Thread nD τ).loc main_arg1)

theorem L1_v9 : L1 m c (Proc.devRef .tc main_v9) = Host.floor (pix1F (PT m c)) := by unfold L1; rw [g1_v9]; rfl
theorem L1_v10 : L1 m c (Proc.devRef .tc main_v10) = fracF (pix0F (PT m c)) := by unfold L1; rw [g1_v10]; rfl
theorem L1_v11 : L1 m c (Proc.devRef .tc main_v11) = fracF (pix1F (PT m c)) := by unfold L1; rw [g1_v11]; rfl
theorem L1_v13 : L1 m c (Proc.devRef .tc main_v13) = loF (Host.floor (pix0F (PT m c))) := by unfold L1; rw [g1_v13]; rfl

theorem L2_v15 : L2 m c (Proc.devRef .tc main_v15) = loF (Host.floor (pix1F (PT m c))) := by unfold L2; rw [g2_v15, L1_v9]
theorem L2_v10 : L2 m c (Proc.devRef .tc main_v10) = fracF (pix0F (PT m c)) := by unfold L2; rw [g2_keep _ (by decide), L1_v10]
theorem L2_v11 : L2 m c (Proc.devRef .tc main_v11) = fracF (pix1F (PT m c)) := by unfold L2; rw [g2_keep _ (by decide), L1_v11]
theorem L2_v13 : L2 m c (Proc.devRef .tc main_v13) = loF (Host.floor (pix0F (PT m c))) := by unfold L2; rw [g2_keep _ (by decide), L1_v13]

theorem L3_v18 : L3 m c (Proc.devRef .tc main_v18) = hiF (loF (Host.floor (pix0F (PT m c)))) := by unfold L3; rw [g3_v18, L2_v13]
theorem L3_v10 : L3 m c (Proc.devRef .tc main_v10) = fracF (pix0F (PT m c)) := by unfold L3; rw [g3_keep _ (by decide), L2_v10]
theorem L3_v11 : L3 m c (Proc.devRef .tc main_v11) = fracF (pix1F (PT m c)) := by unfold L3; rw [g3_keep _ (by decide), L2_v11]
theorem L3_v13 : L3 m c (Proc.devRef .tc main_v13) = loF (Host.floor (pix0F (PT m c))) := by unfold L3; rw [g3_keep _ (by decide), L2_v13]
theorem L3_v15 : L3 m c (Proc.devRef .tc main_v15) = loF (Host.floor (pix1F (PT m c))) := by unfold L3; rw [g3_keep _ (by decide), L2_v15]

theorem L4_v21 : L4 m c (Proc.devRef .tc main_v21) = hiF (loF (Host.floor (pix1F (PT m c)))) := by unfold L4; rw [g4_v21, L3_v15]
theorem L4_v10 : L4 m c (Proc.devRef .tc main_v10) = fracF (pix0F (PT m c)) := by unfold L4; rw [g4_keep _ (by decide), L3_v10]
theorem L4_v11 : L4 m c (Proc.devRef .tc main_v11) = fracF (pix1F (PT m c)) := by unfold L4; rw [g4_keep _ (by decide), L3_v11]
theorem L4_v13 : L4 m c (Proc.devRef .tc main_v13) = loF (Host.floor (pix0F (PT m c))) := by unfold L4; rw [g4_keep _ (by decide), L3_v13]
theorem L4_v15 : L4 m c (Proc.devRef .tc main_v15) = loF (Host.floor (pix1F (PT m c))) := by unfold L4; rw [g4_keep _ (by decide), L3_v15]
theorem L4_v18 : L4 m c (Proc.devRef .tc main_v18) = hiF (loF (Host.floor (pix0F (PT m c)))) := by unfold L4; rw [g4_keep _ (by decide), L3_v18]

/-- The feature map is untouched up to the fifth level. -/
theorem L5_arg0 : L5 m c (Proc.devRef .tc main_arg0) = m ((c : Thread nD τ).loc main_arg0) := by
  unfold L5 L4 L3 L2 L1
  rw [g5_arg0, g4_keep _ (by decide), g3_keep _ (by decide), g2_keep _ (by decide), g1_arg0]; rfl

end Levels

/-- The region finds the weight matrix of the launched points … -/
theorem V_v148 (m : (ℓ : Loc nD τ sig) → Buf (Elt F) ℓ) (c : Dev nD) :
    V m c main_v148 = matA (PT m c) := by
  show V0 m c (Proc.devRef .tc main_v148) = _
  rw [V0_eq, g6_v148]
  unfold L5
  rw [g5_v56, g5_v59, g5_v61, g5_v44, g5_v47, g5_v50, g5_v53, g5_v28, g5_v33, g5_v38, g5_v41,
    L4_v10, L4_v11, L4_v13, L4_v15, L4_v18, L4_v21]
  rfl
/-- … and the launched feature map in the matrix unit's format. -/
theorem V_v149 (m : (ℓ : Loc nD τ sig) → Buf (Elt F) ℓ) (c : Dev nD) :
    V m c main_v149 = truncf .bf16 (m ((c : Thread nD τ).loc main_arg0) : FVec F S8x4096x2048 .f32) Gen.bitsLt_bf16_f32 := by
  show V0 m c (Proc.devRef .tc main_v149) = _
  rw [V0_eq, g6_v149, L5_arg0]

end Chain

/-! ## The two arrays the region finds -/

/-- The weight matrix the region finds is the points' matrix. -/
theorem W_read (m : (ℓ : Loc nD τ sig) → Buf (Elt Ideal) ℓ) (c : Dev nD) (b : Fin 8) (r : Fin 256) (l : Fin 4096) :
    warr m c (ix3 b r l) = Cert.Spec.wd (pts m c) b r l := by
  show (V (F := Ideal) m c main_v148 : S8x256x4096.Idx → EReal) (ix3 b r l) = _
  rw [V_v148]
  exact matA_apply _ b r l

/-- The feature map the region finds is the launched one. -/
theorem X_read (m : (ℓ : Loc nD τ sig) → Buf (Elt Ideal) ℓ) (c : Dev nD) (b : Fin 8) (l : Fin 4096) (ch : Fin 2048) :
    xarr m c (ix3 b l ch) = feats m c (ix3 b l ch) := by
  show (V (F := Ideal) m c main_v149 : S8x4096x2048.Idx → EReal) (ix3 b l ch) = _
  rw [V_v149]
  rfl

end Cert.KernelIdeal.HostValue

end
-- ==== Proof.RefValue.lean ====
/-
  The gathering program's result, read back index by index: it is `Cert.Spec.rout` of the argument arrays.

  The program computes, for every point (b, mm, p), the two pixel coordinates, their floors and fractional parts,
  the clipped lower and upper neighbours and the four corner rows 64·y + x; takes the four corner rows of the
  feature map along axis 1; blends them with the fractional parts; sums runs of eight points and divides by eight.

  A take along axis 1 first adds 4096 to a negative row index, then tests the index against [0, 4095], gathers the
  row (the gather clamps its index into the 4096 rows) and keeps the gathered value where the test holds, a
  not-a-number fill elsewhere. Every corner row is 64·y + x with y and x clipped into [0, 63], so it lies in
  [0, 4095]: the normalisation is the identity, the test holds everywhere, and the fill is never read.
-/
import proofs.«414405_j2654289789699_3_alg».proof.Defs
import proofs.«414405_j2654289789699_3_alg».proof.Proof.RefRun
import proofs.«414405_j2654289789699_3_alg».proof.Proof.RefRead
import proofs.«414405_j2654289789699_3_alg».proof.Proof.Spec
import proofs.«414405_j2654289789699_3_alg».proof.Proof.LibClampIndex

noncomputable section

namespace Cert.ReferenceIdeal.RefValue

open Idealize.ShloMosaic Idealize.ShloMosaic.TcCoe Idealize.SL.Sem Cert.ReferenceIdeal

section Value

open Cert.ReferenceIdeal.Gen Cert.ReferenceIdeal.ReadP Idealize.ShloMosaic.StableHlo
open Idealize.ShloMosaic.ValueIdx Cert.Lib.ClampIndex

/-! ## Words: the clipped neighbours and the corner rows are in range -/

/-- The larger of zero and a signed word is non-negative. -/
theorem maxsi_zero_nonneg (v : BitVec 32) : 0 ≤ (IntOp.maxsi 0#32 v).toInt := by
  have h0 : (0#32 : BitVec 32).toInt = 0 := by decide
  unfold IntOp.maxsi
  split
  · rw [h0]
  · next h =>
    rw [BitVec.slt_eq_decide, h0] at h
    have : ¬ (v.toInt < 0) := by simpa using h
    omega

/-- The smaller of 63 and a non-negative signed word lies in [0, 63]. -/
theorem minsi63_range (w : BitVec 32) (hw : 0 ≤ w.toInt) :
    0 ≤ (IntOp.minsi 63#32 w).toInt ∧ (IntOp.minsi 63#32 w).toInt ≤ 63 := by
  have h63 : (63#32 : BitVec 32).toInt = 63 := by decide
  unfold IntOp.minsi
  split
  · rw [h63]; omega
  · next h =>
    rw [BitVec.slt_eq_decide, h63] at h
    have : ¬ (63 < w.toInt) := by simpa using h
    omega

/-- A word clipped into [0, 63] lies there. -/
theorem clip63_range (v : BitVec 32) : 0 ≤ (Spec.clip63 v).toInt ∧ (Spec.clip63 v).toInt ≤ 63 :=
  minsi63_range _ (maxsi_zero_nonneg v)

/-- The row 64·y + x of a pixel with both coordinates in [0, 63], computed in 32-bit words, does not wrap. -/
theorem flat_toInt (y x : BitVec 32) (hy0 : 0 ≤ y.toInt) (hy : y.toInt ≤ 63) (hx0 : 0 ≤ x.toInt) (hx : x.toInt ≤ 63) :
    (Spec.flat y x).toInt = y.toInt * 64 + x.toInt := by
  have h64 : (64#32 : BitVec 32).toInt = 64 := by decide
  unfold Spec.flat IntOp.addi IntOp.muli
  have hm : (y * 64#32).toInt = y.toInt * 64 := by
    rw [toInt_mul_of_fits y 64#32 (by rw [h64]; omega) (by rw [h64]; omega), h64]
  rw [toInt_add_of_fits _ _ (by rw [hm]; omega) (by rw [hm]; omega), hm]

/-- The row of a pixel whose coordinates are clipped into [0, 63] lies in [0, 4095]. -/
theorem flat_clip_range (u v : BitVec 32) :
    0 ≤ (Spec.flat (Spec.clip63 u) (Spec.clip63 v)).toInt ∧ (Spec.flat (Spec.clip63 u) (Spec.clip63 v)).toInt ≤ 4095 := by
  obtain ⟨hu0, hu⟩ := clip63_range u
  obtain ⟨hv0, hv⟩ := clip63_range v
  rw [flat_toInt _ _ hu0 hu hv0 hv]; omega

/-! ## The take along axis 1, generic in the row indices -/

section Take

variable {F : FTy → Type} [FloatOps F]

/-- Folding "and" from true over any list of positions of an all-true array stays true. -/
theorem foldl_andi_ones {ι : Type} (l : List ι) (g : ι → BitVec 1) (hg : ∀ n, g n = 1#1) :
    l.foldl (fun r n => IntOp.andi r (g n)) 1#1 = 1#1 := by
  induction l with
  | nil => rfl
  | cons a t ih =>
    rw [List.foldl_cons, hg a]
    exact ih

/-- The "and" of an all-true array along any axes, from true, is true. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  unfold Host.reduce
  rw [hi]
  exact foldl_andi_ones _ _ (fun n => hx _)

/-- The batched gather along axis 1: result element (b, n, ch) reads the operand in image b, at the row that start
    index (b, n, 0) holds, read signed and clamped into the 4096 rows, at channel ch. Axis 0 is the batching axis
    (no start, no offset, the result's image coordinate); axis 1 is collapsed and is the one axis the start index
    names; axis 2 is the offset axis (start 0, the result's channel coordinate). -/
theorem gather_read {α : Type} (x : S8x4096x2048.Idx → α) (idx : IVec S8x2048x1 32) (b : Fin 8) (n : Fin 2048)
    (ch : Fin 2048) :
    Host.gather gather_S8x4096x2048_S8x2048x1_S8x2048x2048_2_1_0_0_1_2_112048 x idx (ix3 b n ch)
      = x (ix3 b ⟨min (idx (ix3 b n (0 : Fin 1))).toInt.toNat 4095, by omega⟩ ch) := by
  unfold Host.gather
  refine congrArg x (funext fun a => Fin.ext ?_)
  match a with
  | ⟨0, _⟩ =>
    show gather_S8x4096x2048_S8x2048x1_S8x2048x2048_2_1_0_0_1_2_112048.start (ix3 b n ch) idx 0
      + gather_S8x4096x2048_S8x2048x1_S8x2048x2048_2_1_0_0_1_2_112048.batchCoord (ix3 b n ch) 0
      + gather_S8x4096x2048_S8x2048x1_S8x2048x2048_2_1_0_0_1_2_112048.offCoord (ix3 b n ch) 0 = b.val
    rw [GatherDims.start_batching _ _ idx 0 (by decide), GatherDims.offCoord_eq_zero _ _ 0 (by decide), Nat.zero_add,
      Nat.add_zero]
    rfl
  | ⟨1, _⟩ =>
    show gather_S8x4096x2048_S8x2048x1_S8x2048x2048_2_1_0_0_1_2_112048.start (ix3 b n ch) idx 1
      + gather_S8x4096x2048_S8x2048x1_S8x2048x2048_2_1_0_0_1_2_112048.batchCoord (ix3 b n ch) 1
      + gather_S8x4096x2048_S8x2048x1_S8x2048x2048_2_1_0_0_1_2_112048.offCoord (ix3 b n ch) 1
        = min (idx (ix3 b n (0 : Fin 1))).toInt.toNat 4095
    rw [GatherDims.batchCoord_eq_zero _ _ 1 (by decide), GatherDims.offCoord_eq_zero _ _ 1 (by decide)]
    unfold GatherDims.start
    rw [dif_pos (by decide)]
    have hsi : gather_S8x4096x2048_S8x2048x1_S8x2048x2048_2_1_0_0_1_2_112048.siIdx (ix3 b n ch)
        ⟨List.idxOf (1 : Fin 3) gather_S8x4096x2048_S8x2048x1_S8x2048x2048_2_1_0_0_1_2_112048.startIndexMap,
          List.idxOf_lt_length_iff.2 (by decide)⟩ = ix3 b n (0 : Fin 1) := by
      funext c; refine Fin.ext ?_
      match c with
      | ⟨0, _⟩ => rfl
      | ⟨1, _⟩ => rfl
      | ⟨2, _⟩ => rfl
    rw [hsi]
    rfl
  | ⟨2, _⟩ =>
    show gather_S8x4096x2048_S8x2048x1_S8x2048x2048_2_1_0_0_1_2_112048.start (ix3 b n ch) idx 2
      + gather_S8x4096x2048_S8x2048x1_S8x2048x2048_2_1_0_0_1_2_112048.batchCoord (ix3 b n ch) 2
      + gather_S8x4096x2048_S8x2048x1_S8x2048x2048_2_1_0_0_1_2_112048.offCoord (ix3 b n ch) 2 = ch.val
    rw [GatherDims.batchCoord_eq_zero _ _ 2 (by decide)]
    unfold GatherDims.start
    rw [dif_neg (by decide), Nat.zero_add]
    rfl

/-- The row indices after the negative-index normalisation: 4096 added where an index is negative. -/
def normIdx (I : (⟨S8x2048x1, .i32⟩ : BufTy).Contents (Elt F)) : (⟨S8x2048x1, .i32⟩ : BufTy).Contents (Elt F) :=
  select (cmpi .slt I (broadcastInDim S8x2048x1 ![] bcast_S_S8x2048x1 (constantI S_ 32 0#32)))
    (addi I (broadcastInDim S8x2048x1 ![] bcast_S_S8x2048x1 (constantI S_ 32 4096#32))) I

/-- Whether the (one-component) row index of a result row lies in [0, 4095]. -/
def inRange (I : (⟨S8x2048x1, .i32⟩ : BufTy).Contents (Elt F)) : (⟨S8x2048, .i1⟩ : BufTy).Contents (Elt F) :=
  Host.reduce IntOp.andi
    (andi (cmpi .sge (normIdx (F := F) I) (broadcastInDim S8x2048x1 ![] bcast_S_S8x2048x1 (constantI S_ 32 0#32)))
      (cmpi .sle (normIdx (F := F) I) (broadcastInDim S8x2048x1 ![0, 1, 2] bcast_S1x1x1_S8x2048x1_0_1_2
        (broadcastInDim S1x1x1 ![2] bcast_S1_S1x1x1_2 (constantI S1 32 4095#32)))))
    (constantI S_ 1 1#1) reducesTo_S8x2048x1_S8x2048_d2 h_S_

/-- Taking rows of X along axis 1 at the row indices I: the gathered row where the index is in range, a
    not-a-number fill elsewhere. -/
def taa (X : (⟨S8x4096x2048, .f32⟩ : BufTy).Contents (Elt F)) (I : (⟨S8x2048x1, .i32⟩ : BufTy).Contents (Elt F)) :
    (⟨S8x2048x2048, .f32⟩ : BufTy).Contents (Elt F) :=
  select (broadcastInDim S8x2048x2048 ![0, 1] bcast_S8x2048_S8x2048x2048_0_1 (inRange (F := F) I))
    (Host.gather gather_S8x4096x2048_S8x2048x1_S8x2048x2048_2_1_0_0_1_2_112048 X (normIdx (F := F) I))
    (broadcastInDim S8x2048x2048 ![] bcast_S_S8x2048x2048 (constant S_ .f32 0x7FC00000#32))

/-- On non-negative row indices the normalisation is the identity. -/
theorem normIdx_eq (I : (⟨S8x2048x1, .i32⟩ : BufTy).Contents (Elt F)) (hI : ∀ j, 0 ≤ (I j).toInt) :
    normIdx (F := F) I = I :=
  funext fun j => norm_id (I j) 4096#32 (hI j)

/-- On row indices in [0, 4095] the range test holds everywhere. -/
theorem inRange_eq (I : (⟨S8x2048x1, .i32⟩ : BufTy).Contents (Elt F))
    (hI : ∀ j, 0 ≤ (I j).toInt ∧ (I j).toInt ≤ 4095) (j : S8x2048.Idx) : inRange (F := F) I j = 1#1 := by
  have h4095 : (4095#32 : BitVec 32).toInt = 4095 := by decide
  unfold inRange
  rw [normIdx_eq I fun j => (hI j).1]
  exact reduce_andi_ones _ _ _ _ (fun i => inrange_true (I i) 4095#32 (hI i).1 (by rw [h4095]; exact (hI i).2))
    (fun _ => rfl) j

/-- On row indices in [0, 4095] the take reads, at (b, n, ch), row I[b, n, 0] of image b at channel ch. -/
theorem taa_apply (X : (⟨S8x4096x2048, .f32⟩ : BufTy).Contents (Elt F))
    (I : (⟨S8x2048x1, .i32⟩ : BufTy).Contents (Elt F)) (hI : ∀ j, 0 ≤ (I j).toInt ∧ (I j).toInt ≤ 4095)
    (b : Fin 8) (n : Fin 2048) (ch : Fin 2048) :
    taa (F := F) X I (ix3 b n ch) = X (ix3 b (Spec.cell (I (ix3 b n (0 : Fin 1)))) ch) := by
  unfold taa
  rw [normIdx_eq I fun j => (hI j).1]
  refine (select_apply _ _ _ _).trans ?_
  have hm : broadcastInDim S8x2048x2048 ![0, 1] bcast_S8x2048_S8x2048x2048_0_1 (inRange (F := F) I) (ix3 b n ch) = 1#1 :=
    inRange_eq I hI _
  rw [hm, select_one, gather_read]
  rfl

end Take

/-! ## The stages of the program at explicit coordinates -/

section Stages

variable (X : (⟨S8x4096x2048, .f32⟩ : BufTy).Contents (Elt Ideal)) (P : (⟨S8x4x512x2, .f32⟩ : BufTy).Contents (Elt Ideal))
variable (b : Fin 8) (mm : Fin 4) (p : Fin 512)

/-! ### Index arithmetic of the layout operations -/

/-- [8, 4, 512] read as [8, 4, 512, 1]: position (b, mm, p) is position (b, mm, p, 0). -/
theorem idx_v2 : idx_main_v2 (ix3 b mm p) = ix4 b mm p (0 : Fin 1) := by
  funext a; refine Fin.ext ?_
  have hb := b.isLt; have hm := mm.isLt; have hp := p.isLt
  match a with
  | ⟨0, _⟩ => show ((b.val * 4 + mm.val) * 512 + p.val) / 2048 = b.val; omega
  | ⟨1, _⟩ => show ((b.val * 4 + mm.val) * 512 + p.val) / 512 % 4 = mm.val; omega
  | ⟨2, _⟩ => show ((b.val * 4 + mm.val) * 512 + p.val) / 1 % 512 = p.val; omega
  | ⟨3, _⟩ => rfl

theorem idx_v6 : idx_main_v6 (ix3 b mm p) = ix4 b mm p (0 : Fin 1) := idx_v2 b mm p

/-- The slice of the y coordinates, and of the x coordinates. -/
theorem idx_v1 : idx_main_v1 (ix4 b mm p (0 : Fin 1)) = ix4 b mm p (0 : Fin 2) := by
  funext a; refine Fin.ext ?_
  match a with
  | ⟨0, _⟩ => rfl
  | ⟨1, _⟩ => rfl
  | ⟨2, _⟩ => rfl
  | ⟨3, _⟩ => rfl

theorem idx_v5 : idx_main_v5 (ix4 b mm p (0 : Fin 1)) = ix4 b mm p (1 : Fin 2) := by
  funext a; refine Fin.ext ?_
  match a with
  | ⟨0, _⟩ => rfl
  | ⟨1, _⟩ => rfl
  | ⟨2, _⟩ => rfl
  | ⟨3, _⟩ => rfl

/-- A [8, 4, 512] array laid out as [8, 4, 512, 1]. -/
theorem idx_v12 : idx_main_v12 (ix4 b mm p (0 : Fin 1)) = ix3 b mm p := by
  funext a; refine Fin.ext ?_
  match a with
  | ⟨0, _⟩ => rfl
  | ⟨1, _⟩ => rfl
  | ⟨2, _⟩ => rfl

theorem idx_v14 : idx_main_v14 (ix4 b mm p (0 : Fin 1)) = ix3 b mm p := idx_v12 b mm p

/-- A [8, 4, 512, 1] array repeated along the channel axis. -/
theorem idx_v56 (c : Fin 2048) : idx_main_v56 (ix4 b mm p c) = ix4 b mm p (0 : Fin 1) := by
  funext a; refine Fin.ext ?_
  match a with
  | ⟨0, _⟩ => rfl
  | ⟨1, _⟩ => rfl
  | ⟨2, _⟩ => rfl
  | ⟨3, _⟩ => rfl

theorem idx_v58 (c : Fin 2048) : idx_main_v58 (ix4 b mm p c) = ix4 b mm p (0 : Fin 1) := idx_v56 b mm p c
theorem idx_v63 (c : Fin 2048) : idx_main_v63 (ix4 b mm p c) = ix4 b mm p (0 : Fin 1) := idx_v56 b mm p c
theorem idx_v67 (c : Fin 2048) : idx_main_v67 (ix4 b mm p c) = ix4 b mm p (0 : Fin 1) := idx_v56 b mm p c
theorem idx_v69 (c : Fin 2048) : idx_main_v69 (ix4 b mm p c) = ix4 b mm p (0 : Fin 1) := idx_v56 b mm p c
theorem idx_v72 (c : Fin 2048) : idx_main_v72 (ix4 b mm p c) = ix4 b mm p (0 : Fin 1) := idx_v56 b mm p c

/-- [8, 4, 512, 2048] read as [8, 2048, 2048]: position (b, mm, p, c) is position (b, 512·mm + p, c). -/
theorem idx_v32 (c : Fin 2048) :
    idx_main_v32 (ix4 b mm p c) = ix3 b (⟨mm.val * 512 + p.val, by omega⟩ : Fin 2048) c := by
  funext a; refine Fin.ext ?_
  have hb := b.isLt; have hm := mm.isLt; have hp := p.isLt; have hc := c.isLt
  match a with
  | ⟨0, _⟩ => show (((b.val * 4 + mm.val) * 512 + p.val) * 2048 + c.val) / 4194304 = b.val; omega
  | ⟨1, _⟩ => show (((b.val * 4 + mm.val) * 512 + p.val) * 2048 + c.val) / 2048 % 2048 = mm.val * 512 + p.val; omega
  | ⟨2, _⟩ => show (((b.val * 4 + mm.val) * 512 + p.val) * 2048 + c.val) % 2048 = c.val; omega

/-- A [8, 2048] array laid out as [8, 2048, 1], then [8, 2048] read as [8, 4, 512]: row 512·mm + p is (mm, p). -/
theorem idx_v30_v29 :
    idx_main_v29 (idx_main_v30 (ix3 b (⟨mm.val * 512 + p.val, by omega⟩ : Fin 2048) (0 : Fin 1))) = ix3 b mm p := by
  funext a; refine Fin.ext ?_
  have hb := b.isLt; have hm := mm.isLt; have hp := p.isLt
  match a with
  | ⟨0, _⟩ => show (b.val * 2048 + (mm.val * 512 + p.val)) / 2048 = b.val; omega
  | ⟨1, _⟩ => show (b.val * 2048 + (mm.val * 512 + p.val)) / 512 % 4 = mm.val; omega
  | ⟨2, _⟩ => show (b.val * 2048 + (mm.val * 512 + p.val)) % 512 = p.val; omega

/-- The feature map viewed as [8, 64, 64, 2048] and back is the feature map. -/
theorem idx_v25_v0 (r : Fin 4096) (c : Fin 2048) : idx_main_v0 (idx_main_v25 (ix3 b r c)) = ix3 b r c := by
  funext a; refine Fin.ext ?_
  have hb := b.isLt; have hr := r.isLt; have hc := c.isLt
  match a with
  | ⟨0, _⟩ =>
    show (((((b.val * 4096 + r.val) * 2048 + c.val) / 8388608 * 64 + ((b.val * 4096 + r.val) * 2048 + c.val) / 131072 % 64) * 64
      + ((b.val * 4096 + r.val) * 2048 + c.val) / 2048 % 64) * 2048 + ((b.val * 4096 + r.val) * 2048 + c.val) % 2048) / 8388608 = b.val
    omega
  | ⟨1, _⟩ =>
    show (((((b.val * 4096 + r.val) * 2048 + c.val) / 8388608 * 64 + ((b.val * 4096 + r.val) * 2048 + c.val) / 131072 % 64) * 64
      + ((b.val * 4096 + r.val) * 2048 + c.val) / 2048 % 64) * 2048 + ((b.val * 4096 + r.val) * 2048 + c.val) % 2048) / 2048 % 4096 = r.val
    omega
  | ⟨2, _⟩ =>
    show (((((b.val * 4096 + r.val) * 2048 + c.val) / 8388608 * 64 + ((b.val * 4096 + r.val) * 2048 + c.val) / 131072 % 64) * 64
      + ((b.val * 4096 + r.val) * 2048 + c.val) / 2048 % 64) * 2048 + ((b.val * 4096 + r.val) * 2048 + c.val) % 2048) % 2048 = c.val
    omega

theorem v25_at (r : Fin 4096) (c : Fin 2048) : val_main_v25 (F := Ideal) X (ix3 b r c) = X (ix3 b r c) := by
  rw [val_main_v25_apply, val_main_v0_apply, idx_v25_v0]

/-- [8, 4, 64, 8, 2048] read as [8, 4, 512, 2048]: point k of run o is point 8·o + k. -/
theorem idx_v76_v75 (o : Fin 64) (c : Fin 2048) (k : Fin 8) :
    idx_main_v75 (idx_main_v76 (ix4 b mm o c) k) = ix4 b mm (⟨o.val * 8 + k.val, by omega⟩ : Fin 512) c := by
  funext a; refine Fin.ext ?_
  have hb := b.isLt; have hm := mm.isLt; have ho := o.isLt; have hc := c.isLt; have hk := k.isLt
  match a with
  | ⟨0, _⟩ => show ((((b.val * 4 + mm.val) * 64 + o.val) * 8 + k.val) * 2048 + c.val) / 4194304 = b.val; omega
  | ⟨1, _⟩ => show ((((b.val * 4 + mm.val) * 64 + o.val) * 8 + k.val) * 2048 + c.val) / 1048576 % 4 = mm.val; omega
  | ⟨2, _⟩ => show ((((b.val * 4 + mm.val) * 64 + o.val) * 8 + k.val) * 2048 + c.val) / 2048 % 512 = o.val * 8 + k.val; omega
  | ⟨3, _⟩ => show ((((b.val * 4 + mm.val) * 64 + o.val) * 8 + k.val) * 2048 + c.val) % 2048 = c.val; omega

/-! ### Coordinates, floors, fractional parts -/

theorem v4_at : val_main_v4 (F := Ideal) P (ix3 b mm p) = Spec.pix P 0 b mm p := by
  rw [val_main_v4_apply, val_main_v2_apply, idx_v2, val_main_v1_apply, idx_v1, val_main_v3_apply, val_main_cst_apply]
  rfl

theorem v8_at : val_main_v8 (F := Ideal) P (ix3 b mm p) = Spec.pix P 1 b mm p := by
  rw [val_main_v8_apply, val_main_v6_apply, idx_v6, val_main_v5_apply, idx_v5, val_main_v7_apply, val_main_cst_0_apply]
  rfl

theorem v9_at : val_main_v9 (F := Ideal) P (ix3 b mm p) = Spec.flo P 0 b mm p := by
  rw [val_main_v9_apply, v4_at]; rfl

theorem v10_at : val_main_v10 (F := Ideal) P (ix3 b mm p) = Spec.flo P 1 b mm p := by
  rw [val_main_v10_apply, v8_at]; rfl

theorem v11_at : val_main_v11 (F := Ideal) P (ix3 b mm p) = Spec.frac P 0 b mm p := by
  rw [val_main_v11_apply, v4_at, v9_at]; rfl

theorem v13_at : val_main_v13 (F := Ideal) P (ix3 b mm p) = Spec.frac P 1 b mm p := by
  rw [val_main_v13_apply, v8_at, v10_at]; rfl

theorem v12_at : val_main_v12 (F := Ideal) P (ix4 b mm p (0 : Fin 1)) = Spec.frac P 0 b mm p := by
  rw [val_main_v12_apply, idx_v12, v11_at]

theorem v14_at : val_main_v14 (F := Ideal) P (ix4 b mm p (0 : Fin 1)) = Spec.frac P 1 b mm p := by
  rw [val_main_v14_apply, idx_v14, v13_at]

/-! ### Neighbours and corner rows -/

theorem v16_at : val_main_v16 (F := Ideal) P (ix3 b mm p) = Spec.lo P 0 b mm p := by
  rw [val_main_v16_apply, val_main_call0_v4_apply, val_main_call0_v3_apply, val_main_c_1_apply, val_main_call0_v2_apply,
    val_main_call0_v1_apply, val_main_call0_v0_apply, val_main_c_apply, val_main_v15_apply, v9_at]
  rfl

theorem v18_at : val_main_v18 (F := Ideal) P (ix3 b mm p) = Spec.lo P 1 b mm p := by
  rw [val_main_v18_apply, val_main_call1_v4_apply, val_main_call1_v3_apply, val_main_c_3_apply, val_main_call1_v2_apply,
    val_main_call1_v1_apply, val_main_call1_v0_apply, val_main_c_2_apply, val_main_v17_apply, v10_at]
  rfl

theorem v21_at : val_main_v21 (F := Ideal) P (ix3 b mm p) = Spec.hi P 0 b mm p := by
  rw [val_main_v21_apply, val_main_call2_v4_apply, val_main_call2_v3_apply, val_main_c_6_apply, val_main_call2_v2_apply,
    val_main_call2_v1_apply, val_main_call2_v0_apply, val_main_c_5_apply, val_main_v20_apply, v16_at, val_main_v19_apply,
    val_main_c_4_apply]
  rfl

theorem v24_at : val_main_v24 (F := Ideal) P (ix3 b mm p) = Spec.hi P 1 b mm p := by
  rw [val_main_v24_apply, val_main_call3_v4_apply, val_main_call3_v3_apply, val_main_c_9_apply, val_main_call3_v2_apply,
    val_main_call3_v1_apply, val_main_call3_v0_apply, val_main_c_8_apply, val_main_v23_apply, v18_at, val_main_v22_apply,
    val_main_c_7_apply]
  rfl

theorem v28_at : val_main_v28 (F := Ideal) P (ix3 b mm p) = Spec.i00 P b mm p := by
  rw [val_main_v28_apply, val_main_v27_apply, v16_at, v18_at, val_main_v26_apply, val_main_c_10_apply]
  rfl

theorem v35_at : val_main_v35 (F := Ideal) P (ix3 b mm p) = Spec.i01 P b mm p := by
  rw [val_main_v35_apply, val_main_v34_apply, v16_at, v24_at, val_main_v33_apply, val_main_c_11_apply]
  rfl

theorem v42_at : val_main_v42 (F := Ideal) P (ix3 b mm p) = Spec.i10 P b mm p := by
  rw [val_main_v42_apply, val_main_v41_apply, v21_at, v18_at, val_main_v40_apply, val_main_c_12_apply]
  rfl

theorem v49_at : val_main_v49 (F := Ideal) P (ix3 b mm p) = Spec.i11 P b mm p := by
  rw [val_main_v49_apply, val_main_v48_apply, v21_at, v24_at, val_main_v47_apply, val_main_c_13_apply]
  rfl

/-- Every corner row lies in [0, 4095]. -/
theorem v28_range (k : S8x4x512.Idx) :
    0 ≤ (val_main_v28 (F := Ideal) P k).toInt ∧ (val_main_v28 (F := Ideal) P k).toInt ≤ 4095 := by
  obtain ⟨b, mm, p, rfl⟩ : ∃ (b : Fin 8) (mm : Fin 4) (p : Fin 512), k = ix3 b mm p := ⟨k 0, k 1, k 2, eq_ix3 k⟩
  rw [v28_at]; exact flat_clip_range _ _

theorem v35_range (k : S8x4x512.Idx) :
    0 ≤ (val_main_v35 (F := Ideal) P k).toInt ∧ (val_main_v35 (F := Ideal) P k).toInt ≤ 4095 := by
  obtain ⟨b, mm, p, rfl⟩ : ∃ (b : Fin 8) (mm : Fin 4) (p : Fin 512), k = ix3 b mm p := ⟨k 0, k 1, k 2, eq_ix3 k⟩
  rw [v35_at]; exact flat_clip_range _ _

theorem v42_range (k : S8x4x512.Idx) :
    0 ≤ (val_main_v42 (F := Ideal) P k).toInt ∧ (val_main_v42 (F := Ideal) P k).toInt ≤ 4095 := by
  obtain ⟨b, mm, p, rfl⟩ : ∃ (b : Fin 8) (mm : Fin 4) (p : Fin 512), k = ix3 b mm p := ⟨k 0, k 1, k 2, eq_ix3 k⟩
  rw [v42_at]; exact flat_clip_range _ _

theorem v49_range (k : S8x4x512.Idx) :
    0 ≤ (val_main_v49 (F := Ideal) P k).toInt ∧ (val_main_v49 (F := Ideal) P k).toInt ≤ 4095 := by
  obtain ⟨b, mm, p, rfl⟩ : ∃ (b : Fin 8) (mm : Fin 4) (p : Fin 512), k = ix3 b mm p := ⟨k 0, k 1, k 2, eq_ix3 k⟩
  rw [v49_at]; exact flat_clip_range _ _

/-! ### The four corners -/

/-- One corner, generic in its arrays: a take T of the feature map at the row indices J, flattened to [8, 2048] and
    laid out as [8, 2048, 1], read back as [8, 4, 512, 2048], is at (b, mm, p, c) the feature map of image b at row
    J[b, mm, p] and channel c, whenever every row index lies in [0, 4095]. -/
theorem corner_at (T : (⟨S8x4x512x2048, .f32⟩ : BufTy).Contents (Elt Ideal))
    (A : (⟨S8x2048x2048, .f32⟩ : BufTy).Contents (Elt Ideal))
    (I30 : (⟨S8x2048x1, .i32⟩ : BufTy).Contents (Elt Ideal)) (I29 : (⟨S8x2048, .i32⟩ : BufTy).Contents (Elt Ideal))
    (J : (⟨S8x4x512, .i32⟩ : BufTy).Contents (Elt Ideal))
    (hT : ∀ i, T i = A (idx_main_v32 i)) (hA : A = taa (F := Ideal) (val_main_v25 (F := Ideal) X) I30)
    (h30 : ∀ i, I30 i = I29 (idx_main_v30 i)) (h29 : ∀ i, I29 i = J (idx_main_v29 i))
    (hJ : ∀ k, 0 ≤ (J k).toInt ∧ (J k).toInt ≤ 4095) (c : Fin 2048) :
    T (ix4 b mm p c) = X (ix3 b (Spec.cell (J (ix3 b mm p))) c) := by
  have hI : ∀ j, 0 ≤ (I30 j).toInt ∧ (I30 j).toInt ≤ 4095 := fun j => by rw [h30, h29]; exact hJ _
  rw [hT, idx_v32, hA, taa_apply _ _ hI, v25_at, h30, h29, idx_v30_v29]

theorem v31_eq : val_main_v31 (F := Ideal) X P = taa (F := Ideal) (val_main_v25 (F := Ideal) X) (val_main_v30 (F := Ideal) P) := rfl
theorem v38_eq : val_main_v38 (F := Ideal) X P = taa (F := Ideal) (val_main_v25 (F := Ideal) X) (val_main_v37 (F := Ideal) P) := rfl
theorem v45_eq : val_main_v45 (F := Ideal) X P = taa (F := Ideal) (val_main_v25 (F := Ideal) X) (val_main_v44 (F := Ideal) P) := rfl
theorem v52_eq : val_main_v52 (F := Ideal) X P = taa (F := Ideal) (val_main_v25 (F := Ideal) X) (val_main_v51 (F := Ideal) P) := rfl

theorem v32_at (c : Fin 2048) :
    val_main_v32 (F := Ideal) X P (ix4 b mm p c) = X (ix3 b (Spec.cell (Spec.i00 P b mm p)) c) := by
  rw [corner_at X b mm p (val_main_v32 (F := Ideal) X P) (val_main_v31 (F := Ideal) X P) (val_main_v30 (F := Ideal) P)
    (val_main_v29 (F := Ideal) P) (val_main_v28 (F := Ideal) P) (val_main_v32_apply X P) (v31_eq X P) (val_main_v30_apply P)
    (val_main_v29_apply P) (v28_range P) c, v28_at]

theorem v39_at (c : Fin 2048) :
    val_main_v39 (F := Ideal) X P (ix4 b mm p c) = X (ix3 b (Spec.cell (Spec.i01 P b mm p)) c) := by
  rw [corner_at X b mm p (val_main_v39 (F := Ideal) X P) (val_main_v38 (F := Ideal) X P) (val_main_v37 (F := Ideal) P)
    (val_main_v36 (F := Ideal) P) (val_main_v35 (F := Ideal) P) (val_main_v39_apply X P) (v38_eq X P) (val_main_v37_apply P)
    (val_main_v36_apply P) (v35_range P) c, v35_at]

theorem v46_at (c : Fin 2048) :
    val_main_v46 (F := Ideal) X P (ix4 b mm p c) = X (ix3 b (Spec.cell (Spec.i10 P b mm p)) c) := by
  rw [corner_at X b mm p (val_main_v46 (F := Ideal) X P) (val_main_v45 (F := Ideal) X P) (val_main_v44 (F := Ideal) P)
    (val_main_v43 (F := Ideal) P) (val_main_v42 (F := Ideal) P) (val_main_v46_apply X P) (v45_eq X P) (val_main_v44_apply P)
    (val_main_v43_apply P) (v42_range P) c, v42_at]

theorem v53_at (c : Fin 2048) :
    val_main_v53 (F := Ideal) X P (ix4 b mm p c) = X (ix3 b (Spec.cell (Spec.i11 P b mm p)) c) := by
  rw [corner_at X b mm p (val_main_v53 (F := Ideal) X P) (val_main_v52 (F := Ideal) X P) (val_main_v51 (F := Ideal) P)
    (val_main_v50 (F := Ideal) P) (val_main_v49 (F := Ideal) P) (val_main_v53_apply X P) (v52_eq X P) (val_main_v51_apply P)
    (val_main_v50_apply P) (v49_range P) c, v49_at]

/-! ### The weights along the channel axis -/

theorem v56_at (c : Fin 2048) :
    val_main_v56 (F := Ideal) P (ix4 b mm p c) = Spec.one - Spec.frac P 1 b mm p := by
  rw [val_main_v56_apply, idx_v56, val_main_v55_apply, val_main_v54_apply, val_main_cst_14_apply, v14_at]
  rfl

theorem v58_at (c : Fin 2048) : val_main_v58 (F := Ideal) P (ix4 b mm p c) = Spec.frac P 1 b mm p := by
  rw [val_main_v58_apply, idx_v58, v14_at]

theorem v63_at (c : Fin 2048) :
    val_main_v63 (F := Ideal) P (ix4 b mm p c) = Spec.one - Spec.frac P 0 b mm p := by
  rw [val_main_v63_apply, idx_v63, val_main_v62_apply, val_main_v61_apply,
    val_main_cst_15_apply, v12_at]
  rfl

theorem v67_at (c : Fin 2048) :
    val_main_v67 (F := Ideal) P (ix4 b mm p c) = Spec.one - Spec.frac P 1 b mm p := by
  rw [val_main_v67_apply, idx_v67, val_main_v66_apply, val_main_v65_apply,
    val_main_cst_16_apply, v14_at]
  rfl

theorem v69_at (c : Fin 2048) : val_main_v69 (F := Ideal) P (ix4 b mm p c) = Spec.frac P 1 b mm p := by
  rw [val_main_v69_apply, idx_v69, v14_at]

theorem v72_at (c : Fin 2048) : val_main_v72 (F := Ideal) P (ix4 b mm p c) = Spec.frac P 0 b mm p := by
  rw [val_main_v72_apply, idx_v72, v12_at]

/-! ### The blend, the runs of eight, the division -/

/-- The blended sample of point (b, mm, p) at channel c. -/
theorem v74_at (c : Fin 2048) : val_main_v74 (F := Ideal) X P (ix4 b mm p c) = Spec.sampled P X b mm p c := by
  rw [val_main_v74_apply, val_main_v64_apply, val_main_v60_apply, val_main_v57_apply, val_main_v59_apply,
    val_main_v73_apply, val_main_v71_apply, val_main_v68_apply, val_main_v70_apply, v32_at, v39_at, v46_at, v53_at,
    v56_at, v58_at, v63_at, v67_at, v69_at, v72_at]
  rfl

/-- Point k of run o of mask mm. -/
theorem v75_at (o : Fin 64) (c : Fin 2048) (k : Fin 8) :
    val_main_v75 (F := Ideal) X P (idx_main_v76 (ix4 b mm o c) k)
      = Spec.sampled P X b mm (⟨o.val * 8 + k.val, by omega⟩ : Fin 512) c := by
  rw [val_main_v75_apply, idx_v76_v75, v74_at]

/-- The result at (b, mm, o, c): the run's eight samples summed from zero, divided by eight. -/
theorem v78_at (o : Fin 64) (c : Fin 2048) :
    val_main_v78 (F := Ideal) X P (ix4 b mm o c) = Spec.routAt P X b mm o c := by
  rw [val_main_v78_apply, val_main_v77_apply, val_main_cst_18_apply, val_main_v76_apply, val_main_cst_17_apply,
    Finset.sum_congr rfl (fun k _ => v75_at X P b mm o c k)]
  rfl

end Stages

/-- The program's result array is the specification's. -/
theorem value_eq (X : (⟨S8x4096x2048, .f32⟩ : BufTy).Contents (Elt Ideal))
    (P : (⟨S8x4x512x2, .f32⟩ : BufTy).Contents (Elt Ideal)) :
    val_main_v78 (F := Ideal) X P = Spec.rout P X := by
  funext i
  obtain ⟨b, mm, o, c, rfl⟩ : ∃ (b : Fin 8) (mm : Fin 4) (o : Fin 64) (c : Fin 2048), i = ix4 b mm o c :=
    ⟨i 0, i 1, i 2, i 3, eq_ix4 i⟩
  rw [v78_at]
  rfl

end Value

/-- Every weakly fair execution of the gathering program ends with its result at `Cert.Spec.rout` of the points
    and the feature map, and its arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v78)
          = Cert.Spec.rout (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono
    (fun _ h c => ⟨(h c).1.trans ((ReadP.val_main_v78_eq m c).trans (value_eq _ _)), (h c).2⟩)
    (Cert.ReferenceIdeal.ValueP.run (F := Ideal) m ρ)

end Cert.ReferenceIdeal.RefValue

end
-- ==== Proof.Bridge.lean ====
/-
  The law that joins the two results: with every entry of the points and of the feature map a real number, the
  matrix product with the scattered weight matrix is the run mean of the bilinear samples.

  Three steps. (1) Every corner row is 64·y + x with y and x clipped into [0, 63], so it does not wrap, lies in
  [0, 4095], and "its signed reading is l" says "l is its clamped reading". (2) Over the reals and abstract data:
  a matrix row built by scattering weights into columns, times a column vector, is the sum over the scattered
  points of weight times the vector's entry at the point's column; the points of output row 64·mm + o are the eight
  points 8·o + k of mask mm. (3) With real inputs every constant, coordinate, fractional part, weight, matrix entry
  and sample is the coercion of a real number, so both results are coercions of real sums, and those agree by (2)
  and the distributive law.
-/
import proofs.«414405_j2654289789699_3_alg».proof.Proof.Spec
import proofs.«414405_j2654289789699_3_alg».proof.Proof.LibClampIndex

noncomputable section

open scoped BigOperators

namespace Cert.Bridge

open Idealize.ShloMosaic Idealize.ShloMosaic.ValueIdx Cert.Spec

/-! ### The corner rows as integers -/

/-- Clipping lands in [0, 63], whatever the word. -/
private theorem clip63_range (v : BitVec 32) : 0 ≤ (clip63 v).toInt ∧ (clip63 v).toInt ≤ 63 := by
  have h63 : (63#32 : BitVec 32).toInt = 63 := by decide
  have h0 : (0#32 : BitVec 32).toInt = 0 := by decide
  have hm : 0 ≤ (IntOp.maxsi 0#32 v).toInt := by
    unfold IntOp.maxsi
    rw [BitVec.slt_eq_decide]
    by_cases h : v.toInt < (0#32 : BitVec 32).toInt
    · rw [decide_eq_true h, if_pos rfl]; omega
    · rw [decide_eq_false h, if_neg (by decide)]; omega
  unfold clip63 IntOp.minsi
  rw [BitVec.slt_eq_decide]
  by_cases h : (63#32 : BitVec 32).toInt < (IntOp.maxsi 0#32 v).toInt
  · rw [decide_eq_true h, if_pos rfl]; omega
  · rw [decide_eq_false h, if_neg (by decide)]; omega

/-- Row 64·y + x of a pixel of the 64 × 64 grid, computed in 32-bit words, does not wrap. -/
private theorem flat_toInt (y x : BitVec 32) (hy0 : 0 ≤ y.toInt) (hy : y.toInt ≤ 63) (hx0 : 0 ≤ x.toInt) (hx : x.toInt ≤ 63) :
    (flat y x).toInt = y.toInt * 64 + x.toInt := by
  have h64 : (64#32 : BitVec 32).toInt = 64 := by decide
  unfold flat IntOp.addi IntOp.muli
  have hm : (y * 64#32).toInt = y.toInt * 64 := by
    rw [Cert.Lib.ClampIndex.toInt_mul_of_fits y 64#32 (by rw [h64]; omega) (by rw [h64]; omega), h64]
  rw [Cert.Lib.ClampIndex.toInt_add_of_fits _ _ (by rw [hm]; omega) (by rw [hm]; omega), hm]

/-- A signed word in [0, 4096) equals a row number exactly when that row is the clamped reading of the word. -/
private theorem toInt_eq_iff_cell (v : BitVec 32) (h0 : 0 ≤ v.toInt) (h1 : v.toInt < 4096) (l : Fin 4096) :
    v.toInt = (l.val : ℤ) ↔ l = cell v := by
  unfold cell
  rw [Fin.ext_iff]
  show v.toInt = (l.val : ℤ) ↔ l.val = min v.toInt.toNat 4095
  omega

/-- The row of two clipped coordinates: the test "its signed reading is l" is "l is its clamped reading". -/
private theorem flat_clip_iff (a c : BitVec 32) (l : Fin 4096) :
    (flat (clip63 a) (clip63 c)).toInt = (l.val : ℤ) ↔ l = cell (flat (clip63 a) (clip63 c)) := by
  obtain ⟨ha0, ha⟩ := clip63_range a
  obtain ⟨hc0, hc⟩ := clip63_range c
  have hf := flat_toInt (clip63 a) (clip63 c) ha0 ha hc0 hc
  exact toInt_eq_iff_cell _ (by rw [hf]; omega) (by rw [hf]; omega) l

/-! ### The algebra, over the reals and abstract data -/

section Real

/-- One corner: the matrix row built by scattering, times a column, is the gathered blend. The points `e` that pass
    `row` each put weight `w e` into column `idx e` (`hit e l` says so); multiplying the row by `x` and summing over
    the columns reads `x` at `idx e`. -/
private theorem corner_sum {E : Type} [Fintype E] (row : E → Prop) [DecidablePred row]
    (hit : E → Fin 4096 → Prop) [∀ e l, Decidable (hit e l)] (idx : E → Fin 4096)
    (hhit : ∀ e l, hit e l ↔ l = idx e) (w : E → ℝ) (x : Fin 4096 → ℝ) :
    ∑ l : Fin 4096, (∑ e ∈ (Finset.univ : Finset E).filter (fun e => row e ∧ hit e l), w e) * x l
      = ∑ e ∈ (Finset.univ : Finset E).filter row, w e * x (idx e) := by
  have h1 : ∀ l : Fin 4096,
      (∑ e ∈ (Finset.univ : Finset E).filter (fun e => row e ∧ hit e l), w e) * x l
        = ∑ e ∈ (Finset.univ : Finset E).filter row, (if l = idx e then w e * x l else 0) := by
    intro l
    rw [← Finset.filter_filter, Finset.sum_filter, Finset.sum_mul]
    refine Finset.sum_congr rfl fun e _ => ?_
    by_cases h : hit e l
    · rw [if_pos h, if_pos ((hhit e l).1 h)]
    · rw [if_neg h, if_neg (fun h' => h ((hhit e l).2 h')), zero_mul]
  rw [Finset.sum_congr rfl fun l _ => h1 l, Finset.sum_comm]
  refine Finset.sum_congr rfl fun e _ => ?_
  rw [Finset.sum_ite_eq' Finset.univ (idx e) (fun l => w e * x l), if_pos (Finset.mem_univ _)]

/-- The points of output row 64·mm + o are the eight points 8·o + k of mask mm. -/
private theorem sum_run (mm : Fin 4) (o : Fin 64) (f : Fin 4 × Fin 512 → ℝ) :
    ∑ e ∈ (Finset.univ : Finset (Fin 4 × Fin 512)).filter
        (fun e => e.1.val * 64 + e.2.val / 8 = mm.val * 64 + o.val), f e
      = ∑ k : Fin 8, f (mm, ⟨o.val * 8 + k.val, by omega⟩) := by
  symm
  refine Finset.sum_bij (fun k _ => (mm, ⟨o.val * 8 + k.val, by omega⟩)) ?_ ?_ ?_ ?_
  · intro k _
    rw [Finset.mem_filter]
    refine ⟨Finset.mem_univ _, ?_⟩
    show mm.val * 64 + (o.val * 8 + k.val) / 8 = mm.val * 64 + o.val
    omega
  · intro k₁ _ k₂ _ h
    have h2 := congrArg (fun e : Fin 4 × Fin 512 => e.2.val) h
    apply Fin.ext
    change o.val * 8 + k₁.val = o.val * 8 + k₂.val at h2
    omega
  · intro e he
    rw [Finset.mem_filter] at he
    have he2 := he.2
    have hlt := e.2.isLt
    have hlt1 := e.1.isLt
    refine ⟨⟨e.2.val % 8, by omega⟩, Finset.mem_univ _, ?_⟩
    apply Prod.ext
    · apply Fin.ext
      show mm.val = e.1.val
      omega
    · apply Fin.ext
      show o.val * 8 + e.2.val % 8 = e.2.val
      omega
  · intro k _
    rfl

end Real

/-! ### The five constants as real numbers -/

private theorem zero_eq : zero = ((0 : ℝ) : EReal) := by
  unfold zero; simp [Ideal.ofBits, Ideal.ieee]

private theorem one_eq : one = ((1 : ℝ) : EReal) := by
  unfold one; simp [Ideal.ofBits, Ideal.ieee, -EReal.coe_mul]; norm_num

private theorem eighth_eq : eighth = ((1 / 8 : ℝ) : EReal) := by
  unfold eighth; simp [Ideal.ofBits, Ideal.ieee, -EReal.coe_mul]; norm_num

private theorem eight_eq : eight = ((8 : ℝ) : EReal) := by
  unfold eight; simp [Ideal.ofBits, Ideal.ieee, -EReal.coe_mul]; norm_num

private theorem sixtyThree_eq : sixtyThree = ((63 : ℝ) : EReal) := by
  unfold sixtyThree; simp [Ideal.ofBits, Ideal.ieee, -EReal.coe_mul]; norm_num

/-! ### Every quantity of the two programs as a real number -/

/-- The coercion of the reals into the extended reals commutes with finite sums. -/
private theorem coe_sum {α : Type} (s : Finset α) (f : α → ℝ) :
    ((∑ a ∈ s, f a : ℝ) : EReal) = ∑ a ∈ s, (f a : EReal) := by
  classical
  induction s using Finset.induction_on with
  | empty => rw [Finset.sum_empty, Finset.sum_empty, EReal.coe_zero]
  | insert a s ha ih => rw [Finset.sum_insert ha, Finset.sum_insert ha, EReal.coe_add, ih]

section Coe

variable (p : SP.Idx → ℝ) (x : SX.Idx → ℝ)

/-- The pixel coordinate, its fractional part, and the four weights, over the reals. -/
private def pixR (a : Fin 2) (b : Fin 8) (mm : Fin 4) (q : Fin 512) : ℝ := p (ix4 b mm q a) * 63
private def fracR (a : Fin 2) (b : Fin 8) (mm : Fin 4) (q : Fin 512) : ℝ := pixR p a b mm q - (⌊pixR p a b mm q⌋ : ℝ)
private def w00R (b : Fin 8) (mm : Fin 4) (q : Fin 512) : ℝ := (1 - fracR p 1 b mm q) * (1 - fracR p 0 b mm q) * (1 / 8)
private def w01R (b : Fin 8) (mm : Fin 4) (q : Fin 512) : ℝ := fracR p 1 b mm q * (1 - fracR p 0 b mm q) * (1 / 8)
private def w10R (b : Fin 8) (mm : Fin 4) (q : Fin 512) : ℝ := (1 - fracR p 1 b mm q) * fracR p 0 b mm q * (1 / 8)
private def w11R (b : Fin 8) (mm : Fin 4) (q : Fin 512) : ℝ := fracR p 1 b mm q * fracR p 0 b mm q * (1 / 8)

private theorem pix_coe (a : Fin 2) (b : Fin 8) (mm : Fin 4) (q : Fin 512) :
    pix (fun i => (p i : EReal)) a b mm q = (pixR p a b mm q : EReal) := by
  unfold pix pixR
  rw [sixtyThree_eq, ← EReal.coe_mul]

private theorem frac_coe (a : Fin 2) (b : Fin 8) (mm : Fin 4) (q : Fin 512) :
    frac (fun i => (p i : EReal)) a b mm q = (fracR p a b mm q : EReal) := by
  unfold frac flo fracR
  rw [pix_coe, Ideal.liftRound_coe, ← EReal.coe_sub]

private theorem w00_coe (b : Fin 8) (mm : Fin 4) (q : Fin 512) :
    w00 (fun i => (p i : EReal)) b mm q = (w00R p b mm q : EReal) := by
  unfold w00 w00R
  simp only [frac_coe, one_eq, eighth_eq, ← EReal.coe_sub, ← EReal.coe_mul]

private theorem w01_coe (b : Fin 8) (mm : Fin 4) (q : Fin 512) :
    w01 (fun i => (p i : EReal)) b mm q = (w01R p b mm q : EReal) := by
  unfold w01 w01R
  simp only [frac_coe, one_eq, eighth_eq, ← EReal.coe_sub, ← EReal.coe_mul]

private theorem w10_coe (b : Fin 8) (mm : Fin 4) (q : Fin 512) :
    w10 (fun i => (p i : EReal)) b mm q = (w10R p b mm q : EReal) := by
  unfold w10 w10R
  simp only [frac_coe, one_eq, eighth_eq, ← EReal.coe_sub, ← EReal.coe_mul]

private theorem w11_coe (b : Fin 8) (mm : Fin 4) (q : Fin 512) :
    w11 (fun i => (p i : EReal)) b mm q = (w11R p b mm q : EReal) := by
  unfold w11 w11R
  simp only [frac_coe, one_eq, eighth_eq, ← EReal.coe_sub, ← EReal.coe_mul]

/-- One corner's contribution to the matrix, over the reals. -/
private def cornerR (w : Fin 8 → Fin 4 → Fin 512 → ℝ) (i : Fin 8 → Fin 4 → Fin 512 → BitVec 32)
    (b : Fin 8) (r : Fin 256) (l : Fin 4096) : ℝ :=
  ∑ e ∈ (Finset.univ : Finset (Fin 4 × Fin 512)).filter
      (fun e => e.1.val * 64 + e.2.val / 8 = r.val ∧ (i b e.1 e.2).toInt = (l.val : ℤ)), w b e.1 e.2

private theorem corner_coe (wE : Fin 8 → Fin 4 → Fin 512 → EReal) (wR : Fin 8 → Fin 4 → Fin 512 → ℝ)
    (h : ∀ b mm q, wE b mm q = (wR b mm q : EReal)) (i : Fin 8 → Fin 4 → Fin 512 → BitVec 32)
    (b : Fin 8) (r : Fin 256) (l : Fin 4096) : corner wE i b r l = (cornerR wR i b r l : EReal) := by
  unfold corner cornerR
  rw [coe_sum]
  exact Finset.sum_congr rfl fun e _ => h _ _ _

/-- The matrix entry over the reals. -/
private def wdR (b : Fin 8) (r : Fin 256) (l : Fin 4096) : ℝ :=
  (((0 + cornerR (w00R p) (i00 (fun i => (p i : EReal))) b r l)
      + cornerR (w01R p) (i01 (fun i => (p i : EReal))) b r l)
      + cornerR (w10R p) (i10 (fun i => (p i : EReal))) b r l)
    + cornerR (w11R p) (i11 (fun i => (p i : EReal))) b r l

private theorem wd_coe (b : Fin 8) (r : Fin 256) (l : Fin 4096) :
    wd (fun i => (p i : EReal)) b r l = (wdR p b r l : EReal) := by
  unfold wd wdR
  rw [zero_eq, corner_coe _ _ (w00_coe p), corner_coe _ _ (w01_coe p), corner_coe _ _ (w10_coe p),
    corner_coe _ _ (w11_coe p), ← EReal.coe_add, ← EReal.coe_add, ← EReal.coe_add, ← EReal.coe_add]

/-- The matrix product's entry is the coercion of the real matrix product's. -/
private theorem koutAt_coe (b : Fin 8) (mm : Fin 4) (o : Fin 64) (c : Fin 2048) :
    koutAt (fun i => (p i : EReal)) (fun i => (x i : EReal)) b mm o c
      = ((∑ l : Fin 4096, wdR p b ⟨mm.val * 64 + o.val, by omega⟩ l * x (ix3 b l c) : ℝ) : EReal) := by
  unfold koutAt
  rw [coe_sum]
  refine Finset.sum_congr rfl fun l _ => ?_
  rw [wd_coe, ← EReal.coe_mul]

/-- The bilinear sample over the reals. -/
private def sampledR (b : Fin 8) (mm : Fin 4) (q : Fin 512) (c : Fin 2048) : ℝ :=
  (x (ix3 b (cell (i00 (fun i => (p i : EReal)) b mm q)) c) * (1 - fracR p 1 b mm q)
        + x (ix3 b (cell (i01 (fun i => (p i : EReal)) b mm q)) c) * fracR p 1 b mm q)
      * (1 - fracR p 0 b mm q)
    + (x (ix3 b (cell (i10 (fun i => (p i : EReal)) b mm q)) c) * (1 - fracR p 1 b mm q)
        + x (ix3 b (cell (i11 (fun i => (p i : EReal)) b mm q)) c) * fracR p 1 b mm q)
      * fracR p 0 b mm q

private theorem sampled_coe (b : Fin 8) (mm : Fin 4) (q : Fin 512) (c : Fin 2048) :
    sampled (fun i => (p i : EReal)) (fun i => (x i : EReal)) b mm q c = (sampledR p x b mm q c : EReal) := by
  unfold sampled sampledR
  simp only [frac_coe, one_eq, ← EReal.coe_sub, ← EReal.coe_mul, ← EReal.coe_add]

/-- The run mean is the coercion of the real run mean. -/
private theorem routAt_coe (b : Fin 8) (mm : Fin 4) (o : Fin 64) (c : Fin 2048) :
    routAt (fun i => (p i : EReal)) (fun i => (x i : EReal)) b mm o c
      = (((0 + ∑ k : Fin 8, sampledR p x b mm ⟨o.val * 8 + k.val, by omega⟩ c) * (1 / 8) : ℝ) : EReal) := by
  unfold routAt
  rw [eight_eq, Ideal.div_coe (by norm_num : (8 : ℝ) ≠ 0), zero_eq,
    Finset.sum_congr rfl fun k _ => sampled_coe p x b mm ⟨o.val * 8 + k.val, by omega⟩ c,
    ← coe_sum, ← EReal.coe_add, ← EReal.coe_mul]

end Coe

/-! ### The two real results agree -/

section Main

variable (p : SP.Idx → ℝ) (x : SX.Idx → ℝ)

/-- One corner of the matrix row 64·mm + o, times a column `y`: the eight points of the run, each weight times `y` at
    the point's corner row. -/
private theorem corner_run (w : Fin 8 → Fin 4 → Fin 512 → ℝ) (i : Fin 8 → Fin 4 → Fin 512 → BitVec 32)
    (hi : ∀ b mm q (l : Fin 4096), (i b mm q).toInt = (l.val : ℤ) ↔ l = cell (i b mm q))
    (b : Fin 8) (mm : Fin 4) (o : Fin 64) (y : Fin 4096 → ℝ) :
    ∑ l : Fin 4096, cornerR w i b ⟨mm.val * 64 + o.val, by omega⟩ l * y l
      = ∑ k : Fin 8, w b mm ⟨o.val * 8 + k.val, by omega⟩ * y (cell (i b mm ⟨o.val * 8 + k.val, by omega⟩)) :=
  (corner_sum (fun e : Fin 4 × Fin 512 => e.1.val * 64 + e.2.val / 8 = mm.val * 64 + o.val)
      (fun e l => (i b e.1 e.2).toInt = (l.val : ℤ)) (fun e => cell (i b e.1 e.2))
      (fun e l => hi b e.1 e.2 l) (fun e => w b e.1 e.2) y).trans
    (sum_run mm o (fun e => w b e.1 e.2 * y (cell (i b e.1 e.2))))

/-- The real matrix product is the real run mean. -/
private theorem real_bridge (b : Fin 8) (mm : Fin 4) (o : Fin 64) (c : Fin 2048) :
    ∑ l : Fin 4096, wdR p b ⟨mm.val * 64 + o.val, by omega⟩ l * x (ix3 b l c)
      = (0 + ∑ k : Fin 8, sampledR p x b mm ⟨o.val * 8 + k.val, by omega⟩ c) * (1 / 8) := by
  have e00 := corner_run (w00R p) (i00 (fun i => (p i : EReal))) (fun _ _ _ l => flat_clip_iff _ _ l) b mm o
    (fun l => x (ix3 b l c))
  have e01 := corner_run (w01R p) (i01 (fun i => (p i : EReal))) (fun _ _ _ l => flat_clip_iff _ _ l) b mm o
    (fun l => x (ix3 b l c))
  have e10 := corner_run (w10R p) (i10 (fun i => (p i : EReal))) (fun _ _ _ l => flat_clip_iff _ _ l) b mm o
    (fun l => x (ix3 b l c))
  have e11 := corner_run (w11R p) (i11 (fun i => (p i : EReal))) (fun _ _ _ l => flat_clip_iff _ _ l) b mm o
    (fun l => x (ix3 b l c))
  unfold wdR
  simp only [zero_add, add_mul, Finset.sum_add_distrib]
  rw [e00, e01, e10, e11, Finset.sum_mul, ← Finset.sum_add_distrib, ← Finset.sum_add_distrib,
    ← Finset.sum_add_distrib]
  refine Finset.sum_congr rfl fun k _ => ?_
  unfold sampledR w00R w01R w10R w11R
  ring

end Main

/-- Entry by entry the two results agree, when all inputs are real numbers. -/
theorem koutAt_eq_routAt (P : SP.Idx → EReal) (X : SX.Idx → EReal)
    (hP : ∀ i, ∃ r : ℝ, P i = (r : EReal)) (hX : ∀ i, ∃ r : ℝ, X i = (r : EReal))
    (b : Fin 8) (mm : Fin 4) (o : Fin 64) (c : Fin 2048) :
    koutAt P X b mm o c = routAt P X b mm o c := by
  choose p hp using hP
  choose x hx using hX
  obtain rfl : P = fun i => (p i : EReal) := funext hp
  obtain rfl : X = fun i => (x i : EReal) := funext hx
  rw [koutAt_coe, routAt_coe, real_bridge]

/-- The two results agree as arrays. -/
theorem kout_eq_rout (P : SP.Idx → EReal) (X : SX.Idx → EReal)
    (hP : ∀ i, ∃ r : ℝ, P i = (r : EReal)) (hX : ∀ i, ∃ r : ℝ, X i = (r : EReal)) :
    kout P X = rout P X :=
  funext fun i => koutAt_eq_routAt P X hP hX (i 0) (i 1) (i 2) (i 3)

end Cert.Bridge

end
-- ==== Proof.Finite.lean ====
/-
  From the stated precondition to "every entry is a real number".
-/
import proofs.«414405_j2654289789699_3_alg».proof.Pre_finite_inputs
import proofs.«414405_j2654289789699_3_alg».proof.Proof.Gen.Pre_finite_inputs
import Idealize.ShloMosaic.PureOps.Ideal
import Idealize.ShloMosaic.Lib.ReduceAll

noncomputable section

namespace Cert.Finite

open Idealize.ShloMosaic

/-- The rank-0 shape has one index only. -/
private instance : Subsingleton Cert.Pre_finite_inputs.S_.Idx := ⟨fun a b => funext fun d => d.elim0⟩

/-- An extended real whose absolute value compares strictly below the word of `+∞` is a real number: at either
    infinity the absolute value is `⊤`, which is not below `⊤`. -/
private theorem real_of_abs_lt (v : EReal)
    (h : FloatOps.cmpf (F := Ideal) (φ := .f32) .olt (FloatOps.hostAbsf (F := Ideal) (φ := .f32) v)
      (FloatOps.ofBits (F := Ideal) .f32 0x7F800000#32) = 1#1) : ∃ r : ℝ, v = (r : EReal) := by
  have h' : Ideal.cmp .olt (max v (-v)) (Ideal.ofBits .f32 0x7F800000#32) = 1#1 := h
  induction v using EReal.rec with
  | bot => simp [Ideal.cmp, Ideal.ofBits, Ideal.ieee] at h'
  | coe r => exact ⟨r, rfl⟩
  | top => simp [Ideal.cmp, Ideal.ofBits, Ideal.ieee] at h'

/-- The precondition, all ones at the exact instance, says every entry of both inputs is a real number. -/
theorem real_of_pre [Cert.Pre_finite_inputs.Facts]
    (x : FVec Ideal Cert.Pre_finite_inputs.S8x4096x2048 .f32) (p : FVec Ideal Cert.Pre_finite_inputs.S8x4x512x2 .f32)
    (h : Cert.Pre_finite_inputs.fn (F := Ideal) x p = fun _ => 1#1) :
    (∀ i, ∃ r : ℝ, x i = (r : EReal)) ∧ (∀ i, ∃ r : ℝ, p i = (r : EReal)) := by
  -- The predicate at its one index: the conjunction of two reductions by `and`, one per input.
  have h0 := congrFun h (fun d => d.elim0)
  dsimp only [Cert.Pre_finite_inputs.fn] at h0
  obtain ⟨h1, h2⟩ := IntOp.andi_eq_one.1 h0
  -- A reduction by `and` over every axis that is 1 met a 1 at every entry: `|v| < +∞` there.
  have e1 := Host.reduce_andi_all _ _ _ _ _ h1
  have e2 := Host.reduce_andi_all _ _ _ _ _ h2
  exact ⟨fun i => real_of_abs_lt _ (e1 i), fun i => real_of_abs_lt _ (e2 i)⟩

end Cert.Finite

end
-- ==== Proof.lean ====
/-
  The certificate: a feature map sampled bilinearly at points and averaged in runs of eight, computed two ways.

  The reference gathers, for every point, the four neighbouring rows of the feature map, blends them with the
  point's fractional pixel coordinates, sums each run of eight consecutive points and divides by eight. The kernel
  first scatters, for every image, each point's four corner weights — already multiplied by one eighth — into a
  256 × 4096 matrix (row: mask and run, column: pixel row), and then multiplies that matrix with the image's feature
  map in a pipelined region that accumulates over four quarters of the contraction axis.

  Over the extended reals the two agree when every input is a real number, which the precondition says: the
  product with the scattered matrix distributes over the corner sums (this is where finiteness is used), each
  corner sum collects exactly the points of the run, and the eighth inside the weights is the division by eight.

  The three frames: the two kernel programs run the region under an invariant that carries the accumulator from
  one grid point to the next within an image; the reference is a straight line of host operations.
-/
import proofs.«414405_j2654289789699_3_alg».proof.Defs
import proofs.«414405_j2654289789699_3_alg».proof.Proof.Gen.Kernel
import proofs.«414405_j2654289789699_3_alg».proof.Proof.Gen.KernelIdeal
import proofs.«414405_j2654289789699_3_alg».proof.Proof.Gen.ReferenceIdeal
import proofs.«414405_j2654289789699_3_alg».proof.Proof.Gen.Pre_finite_inputs
import proofs.«414405_j2654289789699_3_alg».proof.Proof.K.Claim
import proofs.«414405_j2654289789699_3_alg».proof.Proof.KI.Claim
import proofs.«414405_j2654289789699_3_alg».proof.Proof.KI.Final
import proofs.«414405_j2654289789699_3_alg».proof.Proof.KI.Value
import proofs.«414405_j2654289789699_3_alg».proof.Proof.KI.Host
import proofs.«414405_j2654289789699_3_alg».proof.Proof.RefValue
import proofs.«414405_j2654289789699_3_alg».proof.Proof.Bridge
import proofs.«414405_j2654289789699_3_alg».proof.Proof.Finite

noncomputable section

namespace Cert.Proof

open Idealize.ShloMosaic Idealize.ShloMosaic.TcCoe Idealize.SL.Sem

/-- The word-level kernel runs to the end and leaves its arguments alone. -/
theorem frame_k [Cert.Kernel.Facts] [Cert.Pre_finite_inputs.Facts] : Cert.frame_Kernel :=
  fun m ρ _ => Cert.Kernel.Hand.frame (F := Bits) m ρ

/-- So does the idealized kernel. -/
theorem frame_ki [Cert.KernelIdeal.Facts] [Cert.Pre_finite_inputs.Facts] : Cert.frame_KernelIdeal :=
  fun m ρ _ => Cert.KernelIdeal.Hand.frame (F := Ideal) m ρ

/-- And the reference: its run with the result forgotten. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.RefValue.run_spec m ρ)

/-- The idealized kernel ends at the matrix product with the scattered weights, the reference at the run means of
    the bilinear samples; on real inputs these are one array. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.Spec.kout (m ((c.tc : Thread Cert.KernelIdeal.nD Cert.KernelIdeal.τ).loc Cert.KernelIdeal.main_arg1))
      (m ((c.tc : Thread Cert.KernelIdeal.nD Cert.KernelIdeal.τ).loc Cert.KernelIdeal.main_arg0)),
    Cert.KernelIdeal.Final.run_spec_of m ρ (Cert.KernelIdeal.HandValue.out_read m) (Cert.KernelIdeal.HostValue.W_read m)
      (Cert.KernelIdeal.HostValue.X_read m), ?_⟩
  refine (θ_run Cert.ReferenceIdeal.defs _ _).mono (fun _ h c => ⟨(h c).1.trans ?_, (h c).2⟩)
    (Cert.ReferenceIdeal.RefValue.run_spec m' ρ')
  rw [(hagree c).1, (hagree c).2]
  obtain ⟨hX, hP⟩ := Cert.Finite.real_of_pre _ _ (hpre c)
  exact (Cert.Bridge.kout_eq_rout _ _ hP hX).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
